-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x300 : Shape := ⟨2, ![1024, 300]⟩
abbrev S1024x64 : Shape := ⟨2, ![1024, 64]⟩
abbrev S50000x300 : Shape := ⟨2, ![50000, 300]⟩
abbrev S50000 : Shape := ⟨1, ![50000]⟩
abbrev S_ : Shape := ⟨0, ![]⟩

class Facts : Prop where
  bcast_S_S1024x300 : S_.BroadcastsInDim S1024x300 (![] : Fin 0 → Fin S1024x300.rank)
  reducesTo_S1024x300_S_d0_1 : S1024x300.ReducesTo [0, 1] S_
  h_S_ : 0 < S_.numel
  bcast_S_S50000x300 : S_.BroadcastsInDim S50000x300 (![] : Fin 0 → Fin S50000x300.rank)
  reducesTo_S50000x300_S_d0_1 : S50000x300.ReducesTo [0, 1] S_
  bcast_S_S50000 : S_.BroadcastsInDim S50000 (![] : Fin 0 → Fin S50000.rank)
  reducesTo_S50000_S_d0 : S50000.ReducesTo [0] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg2 : IVec S1024x64 32) (main_v30 : IVec S_ 1) (main_v32 : IVec S1024x64 1) (main_c_12 : IVec S_ 32) : IVec S_ 1 :=
  let main_v33 : IVec S1024x64 32 := broadcastInDim S1024x64 ![] bcast_S_S1024x64 main_c_12
  let main_v34 : IVec S1024x64 1 := cmpi .slt main_arg2 main_v33
  let main_v35 : IVec S1024x64 1 := andi main_v32 main_v34
  let main_c_13 : IVec S_ 1 := constantI S_ 1 1#1
  let main_v36 : IVec S_ 1 := (fun x v => Host.reduce IntOp.andi x v reducesTo_S1024x64_S_d0_1 h_S_) main_v35 main_c_13
  let main_v37 : IVec S_ 1 := andi main_v30 main_v36
  main_v37

def fn_part1 {F : FTy → Type} [FloatOps F] (main_arg1 : IVec S1024x64 32) (main_arg2 : IVec S1024x64 32) (main_arg6 : FVec F S50000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S50000 .f32 := Host.absf main_arg6
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  let main_c_8 : IVec S_ 32 := constantI S_ 32 0#32
  let main_v24 : IVec S1024x64 32 := broadcastInDim S1024x64 ![] bcast_S_S1024x64 main_c_8
  let main_v25 : IVec S1024x64 1 := cmpi .sge main_arg1 main_v24
  let main_c_9 : IVec S_ 32 := constantI S_ 32 50000#32
  let main_v26 : IVec S1024x64 32 := broadcastInDim S1024x64 ![] bcast_S_S1024x64 main_c_9
  let main_v27 : IVec S1024x64 1 := cmpi .slt main_arg1 main_v26
  let main_v28 : IVec S1024x64 1 := andi main_v25 main_v27
  let main_c_10 : IVec S_ 1 := constantI S_ 1 1#1
  let main_v29 : IVec S_ 1 := (fun x v => Host.reduce IntOp.andi x v reducesTo_S1024x64_S_d0_1 h_S_) main_v28 main_c_10
  let main_v30 : IVec S_ 1 := andi main_v23 main_v29
  let main_c_11 : IVec S_ 32 := constantI S_ 32 0#32
  let main_v31 : IVec S1024x64 32 := broadcastInDim S1024x64 ![] bcast_S_S1024x64 main_c_11
  let main_v32 : IVec S1024x64 1 := cmpi .sge main_arg2 main_v31
  let main_c_12 : IVec S_ 32 := constantI S_ 32 50000#32
  fn_part2 (F := F) main_arg2 main_v30 main_v32 main_c_12

def fn {F : FTy → Type} [FloatOps F] (main_arg0 : FVec F S1024x300 .f32) (main_arg1 : IVec S1024x64 32) (main_arg2 : IVec S1024x64 32) (main_arg3 : FVec F S50000x300 .f32) (main_arg4 : FVec F S50000x300 .f32) (main_arg5 : FVec F S50000 .f32) (main_arg6 : FVec F S50000 .f32) : IVec S_ 1 :=
  let main_v0 : FVec F S1024x300 .f32 := Host.absf main_arg0
  let main_cst : FVec F S_ .f32 := constant S_ .f32 0x7F800000#32
  let main_v1 : FVec F S1024x300 .f32 := broadcastInDim S1024x300 ![] bcast_S_S1024x300 main_cst
  let main_v2 : IVec S1024x300 1 := cmpf .olt main_v0 main_v1
  let main_c : IVec S_ 1 := constantI S_ 1 1#1
  let main_v3 : IVec S_ 1 := (fun x v => Host.reduce IntOp.andi x v reducesTo_S1024x300_S_d0_1 h_S_) main_v2 main_c
  let main_v4 : FVec F S50000x300 .f32 := Host.absf main_arg3
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  let main_v9 : FVec F S50000x300 .f32 := Host.absf main_arg4
  let main_cst_2 : FVec F S_ .f32 := constant S_ .f32 0x7F800000#32
  let main_v10 : FVec F S50000x300 .f32 := broadcastInDim S50000x300 ![] bcast_S_S50000x300 main_cst_2
  let main_v11 : IVec S50000x300 1 := cmpf .olt main_v9 main_v10
  let main_c_3 : IVec S_ 1 := constantI S_ 1 1#1
  let main_v12 : IVec S_ 1 := (fun x v => Host.reduce IntOp.andi x v reducesTo_S50000x300_S_d0_1 h_S_) main_v11 main_c_3
  let main_v13 : IVec S_ 1 := andi main_v8 main_v12
  let main_v14 : FVec F S50000 .f32 := Host.absf main_arg5
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg1 main_arg2 main_arg6 main_v13 main_v16
-- ==== Kernel.lean ====
abbrev S1024x300 : Shape := ⟨2, ![1024, 300]⟩
abbrev S1024x64 : Shape := ⟨2, ![1024, 64]⟩
abbrev S50000x300 : Shape := ⟨2, ![50000, 300]⟩
abbrev S50000 : Shape := ⟨1, ![50000]⟩
abbrev S50000x1 : Shape := ⟨2, ![50000, 1]⟩
abbrev S2x1x1024 : Shape := ⟨3, ![2, 1, 1024]⟩
abbrev S1000x300 : Shape := ⟨2, ![1000, 300]⟩
abbrev S1000x1 : Shape := ⟨2, ![1000, 1]⟩
abbrev S1x1x1024 : Shape := ⟨3, ![1, 1, 1024]⟩
abbrev S1x1024 : Shape := ⟨2, ![1, 1024]⟩
abbrev S1000x1024 : Shape := ⟨2, ![1000, 1024]⟩
abbrev S1024 : Shape := ⟨1, ![1024]⟩
abbrev S_ : Shape := ⟨0, ![]⟩
abbrev S1024x64x1 : Shape := ⟨3, ![1024, 64, 1]⟩
abbrev S1024x64x300 : Shape := ⟨3, ![1024, 64, 300]⟩

abbrev nBuf : Space → Nat
  | .hbm => 121
  | .vmem => 17
  | .smem => 0
  | _ => 0

abbrev bufTy : (tb : Table) → Fin (tcTables nBuf tb) → BufTy
  | .hbm, ⟨0, _⟩ => ⟨S1024x300, .f32⟩
  | .hbm, ⟨1, _⟩ => ⟨S1024x64, .i32⟩
  | .hbm, ⟨2, _⟩ => ⟨S1024x64, .i32⟩
  | .hbm, ⟨3, _⟩ => ⟨S50000x300, .f32⟩
  | .hbm, ⟨4, _⟩ => ⟨S50000x300, .f32⟩
  | .hbm, ⟨5, _⟩ => ⟨S50000, .f32⟩
  | .hbm, ⟨6, _⟩ => ⟨S50000, .f32⟩
  | .hbm, ⟨7, _⟩ => ⟨S1024x300, .bf16⟩
  | .hbm, ⟨8, _⟩ => ⟨S50000x1, .f32⟩
  | .hbm, ⟨9, _⟩ => ⟨S50000x1, .f32⟩
  | .hbm, ⟨10, _⟩ => ⟨S2x1x1024, .f32⟩
  | .hbm, ⟨11, _⟩ => ⟨S2x1x1024, .f32⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .i1⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .i1⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S_, .i32⟩
  | .hbm, ⟨41, _⟩ => ⟨S1024x64, .i32⟩
  | .hbm, ⟨42, _⟩ => ⟨S1024x64, .i1⟩
  | .hbm, ⟨43, _⟩ => ⟨S1024x64, .f32⟩
  | .hbm, ⟨44, _⟩ => ⟨S_, .i32⟩
  | .hbm, ⟨45, _⟩ => ⟨S1024x64, .i32⟩
  | .hbm, ⟨46, _⟩ => ⟨S1024x64, .i1⟩
  | .hbm, ⟨47, _⟩ => ⟨S_, .i32⟩
  | .hbm, ⟨48, _⟩ => ⟨S1024x64, .i32⟩
  | .hbm, ⟨49, _⟩ => ⟨S1024x64, .i32⟩
  | .hbm, ⟨50, _⟩ => ⟨S1024x64, .i32⟩
  | .hbm, ⟨51, _⟩ => ⟨S1024x64x1, .i32⟩
  | .hbm, ⟨52, _⟩ => ⟨S1024x64x300, .f32⟩
  | .hbm, ⟨53, _⟩ => ⟨S1024x64x1, .f32⟩
  | .hbm, ⟨54, _⟩ => ⟨S1024x64x300, .f32⟩
  | .hbm, ⟨55, _⟩ => ⟨S1024x64x300, .f32⟩
  | .hbm, ⟨56, _⟩ => ⟨S_, .f32⟩
  | .hbm, ⟨57, _⟩ => ⟨S1024x300, .f32⟩
  | .hbm, ⟨58, _⟩ => ⟨S_, .i32⟩
  | .hbm, ⟨59, _⟩ => ⟨S1024x64, .i32⟩
  | .hbm, ⟨60, _⟩ => ⟨S1024x64, .i1⟩
  | .hbm, ⟨61, _⟩ => ⟨S_, .i32⟩
  | .hbm, ⟨62, _⟩ => ⟨S1024x64, .i32⟩
  | .hbm, ⟨63, _⟩ => ⟨S1024x64, .i32⟩
  | .hbm, ⟨64, _⟩ => ⟨S1024x64, .i32⟩
  | .hbm, ⟨65, _⟩ => ⟨S1024x64x1, .i32⟩
  | .hbm, ⟨66, _⟩ => ⟨S1024x64, .f32⟩
  | .hbm, ⟨67, _⟩ => ⟨S1024x64, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024x300, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S_, .i32⟩
  | .hbm, ⟨79, _⟩ => ⟨S1024x64, .i32⟩
  | .hbm, ⟨80, _⟩ => ⟨S1024x64, .i1⟩
  | .hbm, ⟨81, _⟩ => ⟨S1024x64, .f32⟩
  | .hbm, ⟨82, _⟩ => ⟨S_, .i32⟩
  | .hbm, ⟨83, _⟩ => ⟨S1024x64, .i32⟩
  | .hbm, ⟨84, _⟩ => ⟨S1024x64, .i1⟩
  | .hbm, ⟨85, _⟩ => ⟨S_, .i32⟩
  | .hbm, ⟨86, _⟩ => ⟨S1024x64, .i32⟩
  | .hbm, ⟨87, _⟩ => ⟨S1024x64, .i32⟩
  | .hbm, ⟨88, _⟩ => ⟨S1024x64, .i32⟩
  | .hbm, ⟨89, _⟩ => ⟨S1024x64x1, .i32⟩
  | .hbm, ⟨90, _⟩ => ⟨S1024x64x300, .f32⟩
  | .hbm, ⟨91, _⟩ => ⟨S1024x64x1, .f32⟩
  | .hbm, ⟨92, _⟩ => ⟨S1024x64x300, .f32⟩
  | .hbm, ⟨93, _⟩ => ⟨S1024x64x300, .f32⟩
  | .hbm, ⟨94, _⟩ => ⟨S_, .f32⟩
  | .hbm, ⟨95, _⟩ => ⟨S1024x300, .f32⟩
  | .hbm, ⟨96, _⟩ => ⟨S_, .i32⟩
  | .hbm, ⟨97, _⟩ => ⟨S1024x64, .i32⟩
  | .hbm, ⟨98, _⟩ => ⟨S1024x64, .i1⟩
  | .hbm, ⟨99, _⟩ => ⟨S_, .i32⟩
  | .hbm, ⟨100, _⟩ => ⟨S1024x64, .i32⟩
  | .hbm, ⟨101, _⟩ => ⟨S1024x64, .i32⟩
  | .hbm, ⟨102, _⟩ => ⟨S1024x64, .i32⟩
  | .hbm, ⟨103, _⟩ => ⟨S1024x64x1, .i32⟩
  | .hbm, ⟨104, _⟩ => ⟨S1024x64, .f32⟩
  | .hbm, ⟨105, _⟩ => ⟨S1024x64, .f32⟩
  | .hbm, ⟨106, _⟩ => ⟨S_, .f32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024x300, .f32⟩
  | .hbm, ⟨111, _⟩ => ⟨S_, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S1024, .f32⟩
  | .hbm, ⟨116, _⟩ => ⟨S1024, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S1024x300, .bf16⟩
  | .local _ .vmem, ⟨1, _⟩ => ⟨S1000x300, .f32⟩
  | .local _ .vmem, ⟨2, _⟩ => ⟨S1000x300, .f32⟩
  | .local _ .vmem, ⟨3, _⟩ => ⟨S1000x1, .f32⟩
  | .local _ .vmem, ⟨4, _⟩ => ⟨S1000x1, .f32⟩
  | .local _ .vmem, ⟨5, _⟩ => ⟨S1000x300, .f32⟩
  | .local _ .vmem, ⟨6, _⟩ => ⟨S1000x300, .f32⟩
  | .local _ .vmem, ⟨7, _⟩ => ⟨S1000x1, .f32⟩
  | .local _ .vmem, ⟨8, _⟩ => ⟨S1000x1, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_0 : Ref sig .tc := ⟨.hbm, 44, rfl⟩
abbrev main_v35 : Ref sig .tc := ⟨.hbm, 45, rfl⟩
abbrev main_v36 : Ref sig .tc := ⟨.hbm, 46, rfl⟩
abbrev main_c_1 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_c_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_4 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_8 : Ref sig .tc := ⟨.hbm, 82, rfl⟩
abbrev main_v64 : Ref sig .tc := ⟨.hbm, 83, rfl⟩
abbrev main_v65 : Ref sig .tc := ⟨.hbm, 84, rfl⟩
abbrev main_c_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_c_11 : Ref sig .tc := ⟨.hbm, 96, rfl⟩
abbrev main_v75 : Ref sig .tc := ⟨.hbm, 97, rfl⟩
abbrev main_v76 : Ref sig .tc := ⟨.hbm, 98, rfl⟩
abbrev main_c_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_16 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v61 : BitVec 1 := Scalar.cmpi .eq arg1 c24_i32
  let v62 : BitVec 32 := Scalar.extui v61
  let c0_i32_35 : BitVec 32 := 0#32
  let v63 : BitVec 1 := Scalar.cmpi .ne v62 c0_i32_35
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x300 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  shapeCasts_S50000_S50000x1 : S50000.ShapeCasts S50000x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x300_S1024x300_0_0 : ∀ a, (![0, 0] : Fin 2 → Nat) a + S1024x300.size a ≤ S1024x300.size a
  h_S1024x300 : 0 < S1024x300.numel
  shapeCasts_S1024x300_S1024x300 : S1024x300.ShapeCasts S1024x300
  inb_S1000x300_S1000x300_0_0 : ∀ a, (![0, 0] : Fin 2 → Nat) a + S1000x300.size a ≤ S1000x300.size a
  h_S1000x300 : 0 < S1000x300.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x1024 : S1000x1.Broadcasts S1000x1024
  reduces_S1000x1024_S1024 : S1000x1024.Reduces [0] S1024
  shapeCasts_S1024_S1x1024 : S1024.ShapeCasts S1x1024
  broadcasts_S1x1024_S1000x1024 : S1x1024.Broadcasts S1000x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  slices_S2x1x1024_S1x1x1024_0_0_0 : S2x1x1024.Slices ![0, 0, 0] S1x1x1024
  shapeCasts_S1x1x1024_S1024 : S1x1x1024.ShapeCasts S1024
  slices_S2x1x1024_S1x1x1024_1_0_0 : S2x1x1024.Slices ![1, 0, 0] S1x1x1024
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  bcast_S1024x64x1_S1024x64x300_0_1_2 : S1024x64x1.BroadcastsInDim S1024x64x300 (![0, 1, 2] : Fin 3 → Fin S1024x64x300.rank)
  reducesTo_S1024x64x300_S1024x300_d1 : S1024x64x300.ReducesTo [1] S1024x300
  h_S_ : 0 < S_.numel
  reducesTo_S1024x64_S1024_d1 : S1024x64.ReducesTo [1] S1024
  reducesTo_S1024x300_S1024_d1 : S1024x300.ReducesTo [1] S1024
  reducesTo_S1024_S_d0 : S1024.ReducesTo [0] S_
  dot_S1000x300_S1024x300_S1000x1024_1_1_0_0_n_n_wf : DotDims.WF S1000x300 S1024x300 S1000x1024 [1] [1] [0] [0] [] []
  gather_S50000x300_S1024x64x1_S1024x64x300_2_0_n_n_0_2_1300_wf : GatherDims.WF S50000x300 S1024x64x1 S1024x64x300 [2] [0] [] [0] [] 2 ![1, 300]
  gather_S50000_S1024x64x1_S1024x64_n_0_n_n_0_2_1_wf : GatherDims.WF S50000 S1024x64x1 S1024x64 [] [0] [] [0] [] 2 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x300.size a ≤ S1024x300.size a
  hwx0_0 : ∀ i : grid0.Coords, EltTy.bits .bf16 = 32 ∨ (Rect.block (s := S1024x300) S1024x300.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x300.size a ≤ S50000x300.size a
  hwx0_1 : ∀ i : grid0.Coords, EltTy.bits .f32 = 32 ∨ (Rect.block (s := S50000x300) S1000x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x300.size a ≤ S50000x300.size a
  hwx0_3 : ∀ i : grid0.Coords, EltTy.bits .f32 = 32 ∨ (Rect.block (s := S50000x300) S1000x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S50000x1.size a
  hwx0_4 : ∀ i : grid0.Coords, EltTy.bits .f32 = 32 ∨ (Rect.block (s := S50000x1) S1000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S2x1x1024.size a
  hwx0_5 : ∀ i : grid0.Coords, EltTy.bits .f32 = 32 ∨ (Rect.block (s := S2x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S2x1x1024.size a
  hwx0_6 : ∀ i : grid0.Coords, EltTy.bits .f32 = 32 ∨ (Rect.block (s := S2x1x1024) S1x1x1024.size (cc0_transform_6 i) (hinb0_6 i)).WholeWords (EltTy.packing .f32)

variable [Facts₀]

def dot_S1000x300_S1024x300_S1000x1024_1_1_0_0_n_n : DotDims S1000x300 S1024x300 S1000x1024 where
  lhsContracting := [1]
  rhsContracting := [1]
  lhsNonContracting := [0]
  rhsNonContracting := [0]
  lhsBatch := []
  rhsBatch := []
  wf := dot_S1000x300_S1024x300_S1000x1024_1_1_0_0_n_n_wf
def gather_S50000x300_S1024x64x1_S1024x64x300_2_0_n_n_0_2_1300 : GatherDims S50000x300 S1024x64x1 S1024x64x300 where
  offsetDims := [2]
  collapsedSliceDims := [0]
  operandBatchingDims := []
  startIndicesBatchingDims := []
  startIndexMap := [0]
  indexVectorDim := 2
  sliceSizes := ![1, 300]
  wf := gather_S50000x300_S1024x64x1_S1024x64x300_2_0_n_n_0_2_1300_wf
def gather_S50000_S1024x64x1_S1024x64_n_0_n_n_0_2_1 : GatherDims S50000 S1024x64x1 S1024x64 where
  offsetDims := []
  collapsedSliceDims := [0]
  operandBatchingDims := []
  startIndicesBatchingDims := []
  startIndexMap := [0]
  indexVectorDim := 2
  sliceSizes := ![1]
  wf := gather_S50000_S1024x64x1_S1024x64_n_0_n_n_0_2_1_wf

abbrev win0_0 : Pipeline.Window sig grid0 :=
  Pipeline.Window.ofSpec (Memref.whole main_v0) S1024x300.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1000x300.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x300 : Shape := ⟨2, ![1024, 300]⟩
abbrev S1024x64 : Shape := ⟨2, ![1024, 64]⟩
abbrev S50000x300 : Shape := ⟨2, ![50000, 300]⟩
abbrev S50000 : Shape := ⟨1, ![50000]⟩
abbrev S300x50000 : Shape := ⟨2, ![300, 50000]⟩
abbrev S1024x50000 : Shape := ⟨2, ![1024, 50000]⟩
abbrev S1x50000 : Shape := ⟨2, ![1, 50000]⟩
abbrev S_ : Shape := ⟨0, ![]⟩
abbrev S1024 : Shape := ⟨1, ![1024]⟩
abbrev S1024x1 : Shape := ⟨2, ![1024, 1]⟩
abbrev S1024x64x1 : Shape := ⟨3, ![1024, 64, 1]⟩
abbrev S1 : Shape := ⟨1, ![1]⟩
abbrev S1x1x1 : Shape := ⟨3, ![1, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S1024x300, .f32⟩
  | .hbm, ⟨1, _⟩ => ⟨S1024x64, .i32⟩
  | .hbm, ⟨2, _⟩ => ⟨S1024x64, .i32⟩
  | .hbm, ⟨3, _⟩ => ⟨S50000x300, .f32⟩
  | .hbm, ⟨4, _⟩ => ⟨S50000x300, .f32⟩
  | .hbm, ⟨5, _⟩ => ⟨S50000, .f32⟩
  | .hbm, ⟨6, _⟩ => ⟨S50000, .f32⟩
  | .hbm, ⟨7, _⟩ => ⟨S300x50000, .f32⟩
  | .hbm, ⟨8, _⟩ => ⟨S1024x50000, .f32⟩
  | .hbm, ⟨9, _⟩ => ⟨S1x50000, .f32⟩
  | .hbm, ⟨10, _⟩ => ⟨S1024x50000, .f32⟩
  | .hbm, ⟨11, _⟩ => ⟨S1024x50000, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024x1, .f32⟩
  | .hbm, ⟨18, _⟩ => ⟨S1024x50000, .f32⟩
  | .hbm, ⟨19, _⟩ => ⟨S1024x50000, .f32⟩
  | .hbm, ⟨20, _⟩ => ⟨S1024x50000, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S1024x1, .f32⟩
  | .hbm, ⟨25, _⟩ => ⟨S1024x50000, .f32⟩
  | .hbm, ⟨26, _⟩ => ⟨S1024x50000, .f32⟩
  | .hbm, ⟨27, _⟩ => ⟨S_, .i32⟩
  | .hbm, ⟨28, _⟩ => ⟨S1024x64, .i32⟩
  | .hbm, ⟨29, _⟩ => ⟨S1024x64, .i1⟩
  | .hbm, ⟨30, _⟩ => ⟨S_, .i32⟩
  | .hbm, ⟨31, _⟩ => ⟨S1024x64, .i32⟩
  | .hbm, ⟨32, _⟩ => ⟨S1024x64, .i32⟩
  | .hbm, ⟨33, _⟩ => ⟨S1024x64, .i32⟩
  | .hbm, ⟨34, _⟩ => ⟨S1024x64x1, .i32⟩
  | .hbm, ⟨35, _⟩ => ⟨S1, .i32⟩
  | .hbm, ⟨36, _⟩ => ⟨S_, .i32⟩
  | .hbm, ⟨37, _⟩ => ⟨S1024x64x1, .i32⟩
  | .hbm, ⟨38, _⟩ => ⟨S1024x64x1, .i1⟩
  | .hbm, ⟨39, _⟩ => ⟨S1x1x1, .i32⟩
  | .hbm, ⟨40, _⟩ => ⟨S1024x64x1, .i32⟩
  | .hbm, ⟨41, _⟩ => ⟨S1024x64x1, .i1⟩
  | .hbm, ⟨42, _⟩ => ⟨S1024x64x1, .i1⟩
  | .hbm, ⟨43, _⟩ => ⟨S_, .i1⟩
  | .hbm, ⟨44, _⟩ => ⟨S1024x64, .i1⟩
  | .hbm, ⟨45, _⟩ => ⟨S1024x64, .f32⟩
  | .hbm, ⟨46, _⟩ => ⟨S_, .f32⟩
  | .hbm, ⟨47, _⟩ => ⟨S1024x64, .f32⟩
  | .hbm, ⟨48, _⟩ => ⟨S1024x64, .f32⟩
  | .hbm, ⟨49, _⟩ => ⟨S_, .i32⟩
  | .hbm, ⟨50, _⟩ => ⟨S1024x64, .i32⟩
  | .hbm, ⟨51, _⟩ => ⟨S1024x64, .i1⟩
  | .hbm, ⟨52, _⟩ => ⟨S1024x64, .f32⟩
  | .hbm, ⟨53, _⟩ => ⟨S1024x64, .f32⟩
  | .hbm, ⟨54, _⟩ => ⟨S1024x64, .f32⟩
  | .hbm, ⟨55, _⟩ => ⟨S_, .f32⟩
  | .hbm, ⟨56, _⟩ => ⟨S1024, .f32⟩
  | .hbm, ⟨57, _⟩ => ⟨S300x50000, .f32⟩
  | .hbm, ⟨58, _⟩ => ⟨S1024x50000, .f32⟩
  | .hbm, ⟨59, _⟩ => ⟨S1x50000, .f32⟩
  | .hbm, ⟨60, _⟩ => ⟨S1024x50000, .f32⟩
  | .hbm, ⟨61, _⟩ => ⟨S1024x50000, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024x1, .f32⟩
  | .hbm, ⟨68, _⟩ => ⟨S1024x50000, .f32⟩
  | .hbm, ⟨69, _⟩ => ⟨S1024x50000, .f32⟩
  | .hbm, ⟨70, _⟩ => ⟨S1024x50000, .f32⟩
  | .hbm, ⟨71, _⟩ => ⟨S_, .f32⟩
  | .hbm, ⟨72, _⟩ => ⟨S1024, .f32⟩
  | .hbm, ⟨73, _⟩ => ⟨S1024x1, .f32⟩
  | .hbm, ⟨74, _⟩ => ⟨S1024x1, .f32⟩
  | .hbm, ⟨75, _⟩ => ⟨S1024x50000, .f32⟩
  | .hbm, ⟨76, _⟩ => ⟨S1024x50000, .f32⟩
  | .hbm, ⟨77, _⟩ => ⟨S_, .i32⟩
  | .hbm, ⟨78, _⟩ => ⟨S1024x64, .i32⟩
  | .hbm, ⟨79, _⟩ => ⟨S1024x64, .i1⟩
  | .hbm, ⟨80, _⟩ => ⟨S_, .i32⟩
  | .hbm, ⟨81, _⟩ => ⟨S1024x64, .i32⟩
  | .hbm, ⟨82, _⟩ => ⟨S1024x64, .i32⟩
  | .hbm, ⟨83, _⟩ => ⟨S1024x64, .i32⟩
  | .hbm, ⟨84, _⟩ => ⟨S1024x64x1, .i32⟩
  | .hbm, ⟨85, _⟩ => ⟨S1, .i32⟩
  | .hbm, ⟨86, _⟩ => ⟨S_, .i32⟩
  | .hbm, ⟨87, _⟩ => ⟨S1024x64x1, .i32⟩
  | .hbm, ⟨88, _⟩ => ⟨S1024x64x1, .i1⟩
  | .hbm, ⟨89, _⟩ => ⟨S1x1x1, .i32⟩
  | .hbm, ⟨90, _⟩ => ⟨S1024x64x1, .i32⟩
  | .hbm, ⟨91, _⟩ => ⟨S1024x64x1, .i1⟩
  | .hbm, ⟨92, _⟩ => ⟨S1024x64x1, .i1⟩
  | .hbm, ⟨93, _⟩ => ⟨S_, .i1⟩
  | .hbm, ⟨94, _⟩ => ⟨S1024x64, .i1⟩
  | .hbm, ⟨95, _⟩ => ⟨S1024x64, .f32⟩
  | .hbm, ⟨96, _⟩ => ⟨S_, .f32⟩
  | .hbm, ⟨97, _⟩ => ⟨S1024x64, .f32⟩
  | .hbm, ⟨98, _⟩ => ⟨S1024x64, .f32⟩
  | .hbm, ⟨99, _⟩ => ⟨S_, .i32⟩
  | .hbm, ⟨100, _⟩ => ⟨S1024x64, .i32⟩
  | .hbm, ⟨101, _⟩ => ⟨S1024x64, .i1⟩
  | .hbm, ⟨102, _⟩ => ⟨S1024x64, .f32⟩
  | .hbm, ⟨103, _⟩ => ⟨S1024x64, .f32⟩
  | .hbm, ⟨104, _⟩ => ⟨S1024x64, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v5 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v6 : Ref sig .tc := ⟨.hbm, 48, rfl⟩
abbrev main_c : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_call2_cst : Ref sig .tc := ⟨.hbm, 62, rfl⟩
abbrev main_call2_v0 : Ref sig .tc := ⟨.hbm, 63, rfl⟩
abbrev main_call2_cst_0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_cst_1 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_v18 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_cst : Ref sig .tc := ⟨.hbm, 96, rfl⟩
abbrev main_call3_v14 : Ref sig .tc := ⟨.hbm, 97, rfl⟩
abbrev main_v19 : Ref sig .tc := ⟨.hbm, 98, rfl⟩
abbrev main_c_0 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_cst_1 : Ref sig .tc := ⟨.hbm, 105, rfl⟩
abbrev main_v25 : Ref sig .tc := ⟨.hbm, 106, rfl⟩
abbrev main_v26 : Ref sig .tc := ⟨.hbm, 107, rfl⟩
abbrev main_cst_2 : Ref sig .tc := ⟨.hbm, 108, rfl⟩
abbrev main_v27 : Ref sig .tc := ⟨.hbm, 109, rfl⟩
abbrev main_cst_3 : Ref sig .tc := ⟨.hbm, 110, rfl⟩
abbrev main_v28 : Ref sig .tc := ⟨.hbm, 111, rfl⟩

abbrev nD : Nat := 1
abbrev τ : Topo := Topo.v7x

variable {F : FTy → Type} [FloatOps F]

class Facts₀ : Prop where
  transposes_S50000x300_S300x50000_1_0 : S50000x300.Transposes [1, 0] S300x50000
  bcast_S50000_S1x50000_1 : S50000.BroadcastsInDim S1x50000 (![1] : Fin 1 → Fin S1x50000.rank)
  bcast_S1x50000_S1024x50000_0_1 : S1x50000.BroadcastsInDim S1024x50000 (![0, 1] : Fin 2 → Fin S1024x50000.rank)
  reducesTo_S1024x50000_S1024_d1 : S1024x50000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x50000_0_1 : S1024x1.BroadcastsInDim S1024x50000 (![0, 1] : Fin 2 → Fin S1024x50000.rank)
  bcast_S_S1024x64 : S_.BroadcastsInDim S1024x64 (![] : Fin 0 → Fin S1024x64.rank)
  shapeCasts_S1024x64_S1024x64x1 : S1024x64.ShapeCasts S1024x64x1
  bcast_S_S1024x64x1 : S_.BroadcastsInDim S1024x64x1 (![] : Fin 0 → Fin S1024x64x1.rank)
  bcast_S1_S1x1x1_2 : S1.BroadcastsInDim S1x1x1 (![2] : Fin 1 → Fin S1x1x1.rank)
  bcast_S1x1x1_S1024x64x1_0_1_2 : S1x1x1.BroadcastsInDim S1024x64x1 (![0, 1, 2] : Fin 3 → Fin S1024x64x1.rank)
  reducesTo_S1024x64x1_S1024x64_d2 : S1024x64x1.ReducesTo [2] S1024x64
  reducesTo_S1024x64_S1024_d1 : S1024x64.ReducesTo [1] S1024
  reducesTo_S1024_S_d0 : S1024.ReducesTo [0] S_
  dot_S1024x300_S300x50000_S1024x50000_1_0_0_1_n_n_wf : DotDims.WF S1024x300 S300x50000 S1024x50000 [1] [0] [0] [1] [] []
  gather_S1024x50000_S1024x64x1_S1024x64_n_1_0_0_1_2_11_wf : GatherDims.WF S1024x50000 S1024x64x1 S1024x64 [] [1] [0] [1] [0] 2 ![1, 1]

variable [Facts₀]

def dot_S1024x300_S300x50000_S1024x50000_1_0_0_1_n_n : DotDims S1024x300 S300x50000 S1024x50000 where
  lhsContracting := [1]
  rhsContracting := [0]
  lhsNonContracting := [0]
  rhsNonContracting := [1]
  lhsBatch := []
  rhsBatch := []
  wf := dot_S1024x300_S300x50000_S1024x50000_1_0_0_1_n_n_wf
def gather_S1024x50000_S1024x64x1_S1024x64_n_1_0_0_1_2_11 : GatherDims S1024x50000 S1024x64x1 S1024x64 where
  offsetDims := []
  collapsedSliceDims := [1]
  operandBatchingDims := [0]
  startIndicesBatchingDims := [0]
  startIndexMap := [1]
  indexVectorDim := 2
  sliceSizes := ![1, 1]
  wf := gather_S1024x50000_S1024x64x1_S1024x64_n_1_0_0_1_2_11_wf

class Facts : Prop extends Facts₀ where

variable [Facts]
-- ==== Proof.K.Entry.lean ====
/-
  What the region finds: core `c`'s buffer contents when the pipelined region is entered — the launch memory after the
  host operations that stand before the region (the hidden vector's change of float format, the two biases re-laid as
  columns) —, and a window's block at a grid point read off its array as the region finds it.
-/
import proofs.«405701_j335007449569_3_alg».proof.Proof.Gen.Kernel.Launch
import proofs.«405701_j335007449569_3_alg».proof.Proof.Gen.Kernel.Skeleton
import proofs.«405701_j335007449569_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffer contents when the region is entered, as a valuation: the launch memory after the three host
    operations before the region. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Fr

end
-- ==== Proof.K.Body.lean ====
/-
  What the kernel body's runs are stated over. The body runs once per grid point `t = 25·h + v` (`h` the vocabulary
  half, `v` the tile inside the half). Two conditions of the coordinates steer it: "first tile of a half" (`v = 0`:
  the four running accumulators are restarted) and "last tile of a half" (`v = 24`: the two results are stored).
  Here: the two conditions decided over the grid in closed form; where the two result windows are idle (every point
  but a half's last) and where they are written back; the staging memref of each window at a point and the four
  accumulator buffers; the region invariant spelled over those four; and each input window's staging buffer holding
  its block at every point.
-/
import proofs.«405701_j335007449569_3_alg».proof.Proof.K.Entry

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The two conditions of the coordinates -/

/-- "First tile of a half": the tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- "Last tile of a half": the tile coordinate is 24. -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a half's last tile the two result windows are idle and are not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a half's last tile they are live. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs the body is called with -/

/-- One staging buffer of each result window, through which its contents are stated. -/
abbrev VO0_5 : View sig .tc .vmem S1x1x1024 .f32 := (Memref.whole cc0_stg5_0 : Memref sig .tc .vmem S1x1x1024 .f32).view
abbrev VO0_6 : View sig .tc .vmem S1x1x1024 .f32 := (Memref.whole cc0_stg6_0 : Memref sig .tc .vmem S1x1x1024 .f32).view
/-- Each window's current staging memref at point `t`, and its wholeness. -/
abbrev ms0_0 (t : Fin cfg0.N) : Memref sig .tc .vmem S1024x300 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x300 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x300 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
/-- The four accumulators (running maximum and running sum, per vocabulary): whole buffers of the kernel's own. -/
abbrev scM0_0 : Memref sig .tc .vmem S1x1024 .f32 := Memref.whole cc0_scratch0
abbrev scM0_1 : Memref sig .tc .vmem S1x1024 .f32 := Memref.whole cc0_scratch1
abbrev scM0_2 : Memref sig .tc .vmem S1x1024 .f32 := Memref.whole cc0_scratch2
abbrev scM0_3 : Memref sig .tc .vmem S1x1024 .f32 := Memref.whole cc0_scratch3
abbrev VS0_0 : View sig .tc .vmem S1x1024 .f32 := scM0_0.view
abbrev VS0_1 : View sig .tc .vmem S1x1024 .f32 := scM0_1.view
abbrev VS0_2 : View sig .tc .vmem S1x1024 .f32 := scM0_2.view
abbrev VS0_3 : View sig .tc .vmem S1x1024 .f32 := scM0_3.view

/-- The region's invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## Each input's staging buffer holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.Kernel.Fr

end
-- ==== Proof.K.RunA.lean ====
/-
  The kernel body's run in case A of its two conditions ("first tile of a half", "last tile of a half"): from the
  five input blocks at their contents, the two result buffers and the four accumulators, the body runs to any
  continuation that holds the inputs as they were and each buffer it stored into with its stores written, as pieces
  (last first). The pieces are the witness the run finds.
-/
import proofs.«405701_j335007449569_3_alg».proof.Proof.K.Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run at the first tile of a half that is not also its last: the four accumulators, found at any contents,
    are restarted (running maximum at −∞, running sum at 0) and then updated by the tile of each vocabulary; the two
    result buffers are not touched and are handed back as found. -/
noncomputable def kernelRun0_A (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x300 .bf16) (x1 : Vec F S1000x300 .f32) (x2 : Vec F S1000x1 .f32) (x3 : Vec F S1000x300 .f32) (x4 : Vec F S1000x1 .f32) :
    Σ' (L5 : List (View.Piece (Elt F) S1x1x1024 .f32)) (L6 : List (View.Piece (Elt F) S1x1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi5 xi6 : Vec F S1x1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ owns (c : Thread nD τ) arg8 fullShare xi6
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)
              ∗ (∃ f, arg11.view.loc (c : Thread nD τ) ↦[arg11.view.set]{fullShare} arg11.view.writes (Elt F) f LS2)
              ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Fr

end
-- ==== Proof.K.RunB.lean ====
/-
  The kernel body's run in case B of its two conditions ("first tile of a half", "last tile of a half"): from the
  five input blocks at their contents, the two result buffers and the four accumulators, the body runs to any
  continuation that holds the inputs as they were and each buffer it stored into with its stores written, as pieces
  (last first). The pieces are the witness the run finds.
-/
import proofs.«405701_j335007449569_3_alg».proof.Proof.K.Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run at a tile that is neither the first nor the last of its half: the four accumulators, found at the
    contents the tile before left, are updated by the tile of each vocabulary; the two result buffers are not touched
    and are handed back as found. -/
noncomputable def kernelRun0_B (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    Σ' (L5 : List (View.Piece (Elt F) S1x1x1024 .f32)) (L6 : List (View.Piece (Elt F) S1x1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi5 xi6 : Vec F S1x1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ owns (c : Thread nD τ) arg8 fullShare xi6
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)
              ∗ (∃ f, arg11.view.loc (c : Thread nD τ) ↦[arg11.view.set]{fullShare} arg11.view.writes (Elt F) f LS2)
              ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    obtain rfl := harg9.eq_unread hfs0; obtain rfl := harg10.eq_unread hfs1
    obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Fr

end
-- ==== Proof.K.RunC.lean ====
/-
  The kernel body's run in case C of its two conditions ("first tile of a half", "last tile of a half"): from the
  five input blocks at their contents, the two result buffers and the four accumulators, the body runs to any
  continuation that holds the inputs as they were and each buffer it stored into with its stores written, as pieces
  (last first). The pieces are the witness the run finds.
-/
import proofs.«405701_j335007449569_3_alg».proof.Proof.K.Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run at the last tile of a half: the four accumulators, found at the contents the tile before left, are
    updated by the tile of each vocabulary, and each vocabulary's result (running maximum plus the logarithm of the
    running sum) is stored into its result buffer, found at any contents. -/
noncomputable def kernelRun0_C (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    Σ' (L5 : List (View.Piece (Elt F) S1x1x1024 .f32)) (L6 : List (View.Piece (Elt F) S1x1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)
              ∗ (∃ f, arg11.view.loc (c : Thread nD τ) ↦[arg11.view.set]{fullShare} arg11.view.writes (Elt F) f LS2)
              ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.Kernel.Fr

end
-- ==== Proof.K.Main.lean ====
/-
  The host side of the program's frame. @main is three host operations (the hidden vector's change of float format,
  the two biases re-laid as columns), one pipelined region, and then 109 host operations that only read what came
  before and write buffers of their own. Here: @main reduces to the region continued by the later operations; those
  touch only the region's arrays and the buffers that bypass it, allocate nothing, and write no array; the seven
  argument arrays are, when the region is entered, what the launch memory held; and a frame run's post read at the
  seven argument arrays is the frame claim's post.
-/
import proofs.«405701_j335007449569_3_alg».proof.Proof.K.Entry

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## No operation allocates -/

theorem hostOps0_fresh : (hostOps0 : List (HloOp τ sig (Elt F))).Forall fun op => op.fresh = ∅ := by
  simp only [List.Forall]; repeat' constructor

set_option maxHeartbeats 4000000 in
theorem hostOps1_fresh : (hostOps1 : List (HloOp τ sig (Elt F))).Forall fun op => op.fresh = ∅ := by
  simp only [List.Forall]; repeat' constructor

/-! ## @main around the region -/

set_option maxHeartbeats 4000000 in
/-- @main is the three operations before the region, the region, and the 109 after it: it reduces to the region
    continued by the later ones, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The argument arrays when the region is entered

The three operations before the region write `main_v0`, `main_v1`, `main_v2` only. -/

theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
theorem V_main_arg4 (c : Dev nD) : V m c main_arg4 = m ((c : Thread nD τ).loc main_arg4) := by
  dsimp only [V, V0]; simp only [hostOps0, List.flatten_cons, List.flatten_nil, List.append_nil]; after_results
theorem V_main_arg5 (c : Dev nD) : V m c main_arg5 = m ((c : Thread nD τ).loc main_arg5) := by
  dsimp only [V, V0]; simp only [hostOps0, List.flatten_cons, List.flatten_nil, List.append_nil]; after_results
theorem V_main_arg6 (c : Dev nD) : V m c main_arg6 = m ((c : Thread nD τ).loc main_arg6) := by
  dsimp only [V, V0]; simp only [hostOps0, List.flatten_cons, List.flatten_nil, List.append_nil]; after_results

/-! ## The operations after the region -/

/-- They touch the region's arrays and the buffers that bypass it only: each operation's buffers are unscoped
    TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  rw [List.mem_singleton] at hops
  subst hops
  exact (List.forall_iff_forall_mem.mp hostOps1_fresh) op hop

/-- The buffers the later operations leave alone: the seven argument arrays and the five arrays of the region
    that are no argument (the hidden vector in the narrow format, the two bias columns, the two results). -/
abbrev keep : List (Ref sig .tc) :=
  [main_arg0, main_arg1, main_arg2, main_arg3, main_arg4, main_arg5, main_arg6, main_v0, main_v1, main_v2, main_v3_0, main_v3_1]

/-- Every array of the region is among them. -/
theorem arr_keep : ∀ w : Fin 7, Pipeline.arrRef spec0 w ∈ keep := by decide

/-- An operation that writes the one buffer `y`, `y` none of those, writes none of those. -/
theorem keeps_of {y : Ref sig .tc} {op : HloOp τ sig (Elt F)} (hw : op.writes = {Proc.devRef .tc y}) (hy : ∀ r ∈ keep, r ≠ y) :
    ∀ r ∈ keep, Proc.devRef (τ := τ) .tc r ∉ op.writes := fun r hr h => by
  rw [hw, Finset.mem_singleton] at h
  exact hy r hr (Proc.devRef_injective _ h)

set_option maxHeartbeats 4000000 in
/-- Each of the 109 writes its own result buffer only, which is none of those. -/
theorem hostOps1_keeps : (hostOps1 : List (HloOp τ sig (Elt F))).Forall fun op => ∀ r ∈ keep, Proc.devRef (τ := τ) .tc r ∉ op.writes := by
  simp only [List.Forall]
  repeat' constructor
  all_goals exact keeps_of rfl (by decide)

/-- So they write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  exact (List.forall_iff_forall_mem.mp hostOps1_keeps) op hop _ (arr_keep w)

/-! ## The frame claim's post from the frame run's -/

/-- A buffer the later operations leave alone that is no array of the region holds, after them, what the region
    found in it: no operation writes it, and the region's exit contents differ from the entry contents at the arrays
    only. -/
theorem afterTail_keep (dats : (p : Fin 1) → (c : Dev nD) → Dat τ (Elt F) Unit ℕ (UR sig nD τ) ℕ (cfgs p) c)
    (c : Dev nD) (b : Ref sig .tc) (hk : b ∈ keep) (hb : ∀ w, Pipeline.arrRef spec0 w ≠ b) :
    Pipeline.afterTail₀ cfgs dats 0 (V0 m) [hostOps1] c b = V m c b := by
  unfold Pipeline.afterTail₀
  rw [StableHlo.after_of_forall_not_mem _ _ fun op hop => ?_, Pipeline.withArrays_of_ne _ c (V0 m c) _ b hb]
  simp only [List.flatten_cons, List.flatten_nil, List.append_nil] at hop
  exact (List.forall_iff_forall_mem.mp hostOps1_keeps) op hop b hk

/-- THE FRAME from a frame run: for any proof data whose arrays are the region-entry contents, a run to the library's
    frame post at the contents after the later operations is the frame claim's post. The two tables are arrays of
    input windows, which the region never writes back; the other five arguments are arrays of no window, and end at
    the contents after the later operations, which leave them as the region found them; each is then what the launch
    memory held. -/
theorem frame_of (ρ : Dev nD → PrngReg) (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 rfl (by decide))).trans
        ((afterTail_keep m dats c main_arg0 (by decide) (by decide)).trans (V_main_arg0 m c)),
     ((h c).2 main_arg1 (Pipeline.mem_restRefs_of main_arg1 rfl (by decide))).trans
        ((afterTail_keep m dats c main_arg1 (by decide) (by decide)).trans (V_main_arg1 m c)),
     ((h c).2 main_arg2 (Pipeline.mem_restRefs_of main_arg2 rfl (by decide))).trans
        ((afterTail_keep m dats c main_arg2 (by decide) (by decide)).trans (V_main_arg2 m c)),
     ((h c).1 1).trans (((dats 0 c).arrAt_in 1 rfl _).trans ((hA c 1).trans (V_main_arg3 m c))),
     ((h c).1 3).trans (((dats 0 c).arrAt_in 3 rfl _).trans ((hA c 3).trans (V_main_arg4 m c))),
     ((h c).2 main_arg5 (Pipeline.mem_restRefs_of main_arg5 rfl (by decide))).trans
        ((afterTail_keep m dats c main_arg5 (by decide) (by decide)).trans (V_main_arg5 m c)),
     ((h c).2 main_arg6 (Pipeline.mem_restRefs_of main_arg6 rfl (by decide))).trans
        ((afterTail_keep m dats c main_arg6 (by decide) (by decide)).trans (V_main_arg6 m c))⟩) h

end Cert.Kernel.Fr

end
-- ==== Proof.K.Frame.lean ====
/-
  THE FRAME of the idealized kernel program.

  The body runs once per grid point t = 25·h + v (h the vocabulary half, v the tile inside the half). Beside its five
  input blocks it works on two result windows (stored only at a half's last tile, v = 24, and left alone elsewhere)
  and on four accumulators carried from point to point (running maximum and running sum of the first vocabulary,
  then of the second; restarted at a half's first tile, v = 0). Three cases by the two conditions: A (v = 0), B
  (0 < v < 24), C (v = 24).

  Here: what each case leaves in each buffer it stores into (its stores read back, and that they cover the buffer);
  what the two result windows and the four accumulators hold after each grid point, by recursion on the point
  (the case's contents, the accumulators on entry being what the point before left); the proof data of the
  pipeline over these; the body obligation at a generic point, by the three cases; the run of the whole program and
  the frame claim: every argument array ends as it began.
-/
import proofs.«405701_j335007449569_3_alg».proof.Proof.K.RunA
import proofs.«405701_j335007449569_3_alg».proof.Proof.K.RunB
import proofs.«405701_j335007449569_3_alg».proof.Proof.K.RunC
import proofs.«405701_j335007449569_3_alg».proof.Proof.K.Main

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, buffer by buffer -/

section perCase

variable (c : Dev nD) (i : grid0.Coords)
  (arg2 : Memref sig .tc .vmem S1024x300 .bf16) (harg2 : arg2.IsWhole)
  (arg3 : Memref sig .tc .vmem S1000x300 .f32) (harg3 : arg3.IsWhole)
  (arg4 : Memref sig .tc .vmem S1000x1 .f32) (harg4 : arg4.IsWhole)
  (arg5 : Memref sig .tc .vmem S1000x300 .f32) (harg5 : arg5.IsWhole)
  (arg6 : Memref sig .tc .vmem S1000x1 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1x1024 .f32) (harg12 : arg12.IsWhole)

/-! ### Case A: first tile of a half. The accumulators are restarted and updated; the results are not touched. -/

section caseA

variable (hc0 : cond0_0 i) (hc1 : ¬cond0_1 i)
  (x0 : Vec F S1024x300 .bf16) (x1 : Vec F S1000x300 .f32) (x2 : Vec F S1000x1 .f32) (x3 : Vec F S1000x300 .f32) (x4 : Vec F S1000x1 .f32)

-- case A's run at the section's buffers and input blocks
local notation "runA" => kernelRun0_A c i arg2 harg2 arg3 harg3 arg4 harg4 arg5 harg5 arg6 harg6 arg7 harg7 arg8 harg8 arg9 harg9 arg10 harg10 arg11 harg11 arg12 harg12 hc0 hc1 x0 x1 x2 x3 x4

/-- Case A's stores into the first vocabulary's running maximum tile the accumulator, so they cover it. -/
theorem scover0_A_0 (y : S1x1024.Idx) : ∃ pc ∈ (runA).2.2.1, y ∈ pc.1.set :=
  View.cover_of_tiledL (runA).2.2.1 S1x1024.size (by sl_kernel_rfl) y
/-- What case A leaves in the first vocabulary's running maximum: its stores read back. -/
def sout0_A_0 : Vec F S1x1024 .f32 := VS0_0.read (Elt F) (VS0_0.writes (Elt F) VS0_0.junk (runA).2.2.1)

/-- Case A's stores into the first vocabulary's running sum cover it. -/
theorem scover0_A_1 (y : S1x1024.Idx) : ∃ pc ∈ (runA).2.2.2.1, y ∈ pc.1.set :=
  View.cover_of_tiledL (runA).2.2.2.1 S1x1024.size (by sl_kernel_rfl) y
/-- What case A leaves in the first vocabulary's running sum. -/
def sout0_A_1 : Vec F S1x1024 .f32 := VS0_1.read (Elt F) (VS0_1.writes (Elt F) VS0_1.junk (runA).2.2.2.1)

/-- Case A's stores into the second vocabulary's running maximum cover it. -/
theorem scover0_A_2 (y : S1x1024.Idx) : ∃ pc ∈ (runA).2.2.2.2.1, y ∈ pc.1.set :=
  View.cover_of_tiledL (runA).2.2.2.2.1 S1x1024.size (by sl_kernel_rfl) y
/-- What case A leaves in the second vocabulary's running maximum. -/
def sout0_A_2 : Vec F S1x1024 .f32 := VS0_2.read (Elt F) (VS0_2.writes (Elt F) VS0_2.junk (runA).2.2.2.2.1)

/-- Case A's stores into the second vocabulary's running sum cover it. -/
theorem scover0_A_3 (y : S1x1024.Idx) : ∃ pc ∈ (runA).2.2.2.2.2.1, y ∈ pc.1.set :=
  View.cover_of_tiledL (runA).2.2.2.2.2.1 S1x1024.size (by sl_kernel_rfl) y
/-- What case A leaves in the second vocabulary's running sum. -/
def sout0_A_3 : Vec F S1x1024 .f32 := VS0_3.read (Elt F) (VS0_3.writes (Elt F) VS0_3.junk (runA).2.2.2.2.2.1)

end caseA

/-! ### Case B: a tile inside a half. The accumulators, found at what the point before left, are updated. -/

section caseB

variable (hc0 : ¬cond0_0 i) (hc1 : ¬cond0_1 i)
  (x0 : Vec F S1024x300 .bf16) (x1 : Vec F S1000x300 .f32) (x2 : Vec F S1000x1 .f32) (x3 : Vec F S1000x300 .f32) (x4 : Vec F S1000x1 .f32)
  (xs0 xs1 xs2 xs3 : Vec F S1x1024 .f32)

-- case B's run at the section's buffers, input blocks and accumulator contents on entry
local notation "runB" => kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3

/-- Case B's stores into the first vocabulary's running maximum cover it. -/
theorem scover0_B_0 (y : S1x1024.Idx) : ∃ pc ∈ (runB).2.2.1, y ∈ pc.1.set :=
  View.cover_of_tiledL (runB).2.2.1 S1x1024.size (by sl_kernel_rfl) y
/-- What case B leaves in the first vocabulary's running maximum. -/
def sout0_B_0 : Vec F S1x1024 .f32 := VS0_0.read (Elt F) (VS0_0.writes (Elt F) VS0_0.junk (runB).2.2.1)

/-- Case B's stores into the first vocabulary's running sum cover it. -/
theorem scover0_B_1 (y : S1x1024.Idx) : ∃ pc ∈ (runB).2.2.2.1, y ∈ pc.1.set :=
  View.cover_of_tiledL (runB).2.2.2.1 S1x1024.size (by sl_kernel_rfl) y
/-- What case B leaves in the first vocabulary's running sum. -/
def sout0_B_1 : Vec F S1x1024 .f32 := VS0_1.read (Elt F) (VS0_1.writes (Elt F) VS0_1.junk (runB).2.2.2.1)

/-- Case B's stores into the second vocabulary's running maximum cover it. -/
theorem scover0_B_2 (y : S1x1024.Idx) : ∃ pc ∈ (runB).2.2.2.2.1, y ∈ pc.1.set :=
  View.cover_of_tiledL (runB).2.2.2.2.1 S1x1024.size (by sl_kernel_rfl) y
/-- What case B leaves in the second vocabulary's running maximum. -/
def sout0_B_2 : Vec F S1x1024 .f32 := VS0_2.read (Elt F) (VS0_2.writes (Elt F) VS0_2.junk (runB).2.2.2.2.1)

/-- Case B's stores into the second vocabulary's running sum cover it. -/
theorem scover0_B_3 (y : S1x1024.Idx) : ∃ pc ∈ (runB).2.2.2.2.2.1, y ∈ pc.1.set :=
  View.cover_of_tiledL (runB).2.2.2.2.2.1 S1x1024.size (by sl_kernel_rfl) y
/-- What case B leaves in the second vocabulary's running sum. -/
def sout0_B_3 : Vec F S1x1024 .f32 := VS0_3.read (Elt F) (VS0_3.writes (Elt F) VS0_3.junk (runB).2.2.2.2.2.1)

end caseB

/-! ### Case C: last tile of a half. The accumulators are updated and the two results stored. -/

section caseC

variable (hc0 : ¬cond0_0 i) (hc1 : cond0_1 i)
  (x0 : Vec F S1024x300 .bf16) (x1 : Vec F S1000x300 .f32) (x2 : Vec F S1000x1 .f32) (x3 : Vec F S1000x300 .f32) (x4 : Vec F S1000x1 .f32)
  (xs0 xs1 xs2 xs3 : Vec F S1x1024 .f32)

-- case C's run at the section's buffers, input blocks and accumulator contents on entry
local notation "runC" => kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3

/-- Case C's stores into the first result window tile its block, so they cover it. -/
theorem cover0_C_5 (y : S1x1x1024.Idx) : ∃ pc ∈ (runC).1, y ∈ pc.1.set :=
  View.cover_of_tiledL (runC).1 S1x1x1024.size (by sl_kernel_rfl) y
/-- What case C leaves in the first result window's buffer: its stores read back. -/
def out0_C_5 : Vec F S1x1x1024 .f32 := VO0_5.read (Elt F) (VO0_5.writes (Elt F) VO0_5.junk (runC).1)

/-- Case C's stores into the second result window cover its block. -/
theorem cover0_C_6 (y : S1x1x1024.Idx) : ∃ pc ∈ (runC).2.1, y ∈ pc.1.set :=
  View.cover_of_tiledL (runC).2.1 S1x1x1024.size (by sl_kernel_rfl) y
/-- What case C leaves in the second result window's buffer. -/
def out0_C_6 : Vec F S1x1x1024 .f32 := VO0_6.read (Elt F) (VO0_6.writes (Elt F) VO0_6.junk (runC).2.1)

/-- Case C's stores into the first vocabulary's running maximum cover it. -/
theorem scover0_C_0 (y : S1x1024.Idx) : ∃ pc ∈ (runC).2.2.1, y ∈ pc.1.set :=
  View.cover_of_tiledL (runC).2.2.1 S1x1024.size (by sl_kernel_rfl) y
/-- What case C leaves in the first vocabulary's running maximum. -/
def sout0_C_0 : Vec F S1x1024 .f32 := VS0_0.read (Elt F) (VS0_0.writes (Elt F) VS0_0.junk (runC).2.2.1)

/-- Case C's stores into the first vocabulary's running sum cover it. -/
theorem scover0_C_1 (y : S1x1024.Idx) : ∃ pc ∈ (runC).2.2.2.1, y ∈ pc.1.set :=
  View.cover_of_tiledL (runC).2.2.2.1 S1x1024.size (by sl_kernel_rfl) y
/-- What case C leaves in the first vocabulary's running sum. -/
def sout0_C_1 : Vec F S1x1024 .f32 := VS0_1.read (Elt F) (VS0_1.writes (Elt F) VS0_1.junk (runC).2.2.2.1)

/-- Case C's stores into the second vocabulary's running maximum cover it. -/
theorem scover0_C_2 (y : S1x1024.Idx) : ∃ pc ∈ (runC).2.2.2.2.1, y ∈ pc.1.set :=
  View.cover_of_tiledL (runC).2.2.2.2.1 S1x1024.size (by sl_kernel_rfl) y
/-- What case C leaves in the second vocabulary's running maximum. -/
def sout0_C_2 : Vec F S1x1024 .f32 := VS0_2.read (Elt F) (VS0_2.writes (Elt F) VS0_2.junk (runC).2.2.2.2.1)

/-- Case C's stores into the second vocabulary's running sum cover it. -/
theorem scover0_C_3 (y : S1x1024.Idx) : ∃ pc ∈ (runC).2.2.2.2.2.1, y ∈ pc.1.set :=
  View.cover_of_tiledL (runC).2.2.2.2.2.1 S1x1024.size (by sl_kernel_rfl) y
/-- What case C leaves in the second vocabulary's running sum. -/
def sout0_C_3 : Vec F S1x1024 .f32 := VS0_3.read (Elt F) (VS0_3.writes (Elt F) VS0_3.junk (runC).2.2.2.2.2.1)

end caseC

end perCase

/-! ## The conditions at a grid point, from its position -/

theorem cA0 (t : Fin cfg0.N) (h0 : t.val % 25 = 0) : cond0_0 (grid0.coords t) := (hcond0_0 t).mpr h0
theorem cA1 (t : Fin cfg0.N) (h0 : t.val % 25 = 0) : ¬cond0_1 (grid0.coords t) :=
  fun h => absurd ((hcond0_1 t).mp h) (by omega)
theorem cN0 (t : Fin cfg0.N) (h0 : ¬t.val % 25 = 0) : ¬cond0_0 (grid0.coords t) := fun h => h0 ((hcond0_0 t).mp h)
theorem cN1 (t : Fin cfg0.N) (h1 : ¬t.val % 25 = 24) : ¬cond0_1 (grid0.coords t) := fun h => h1 ((hcond0_1 t).mp h)
theorem cC1 (t : Fin cfg0.N) (h1 : t.val % 25 = 24) : cond0_1 (grid0.coords t) := (hcond0_1 t).mpr h1

/-! ## What the results and the accumulators hold after each point -/

-- a per-case quantity f of core cc at grid point t: at the point's coordinates, each window's current staging
-- buffer there, and the four accumulator buffers
local notation "atPt[" f ", " cc ", " t "]" => f cc (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)

/-- The six contents after a point of case A (the two result windows, then the four accumulators): the results are
    not stored at such a point — a placeholder nothing consults stands for them —, each accumulator is what case A
    leaves from the point's five input blocks. -/
def at0_A (c : Dev nD) (t : Fin cfg0.N) (h0 : t.val % 25 = 0) :
    Vec F S1x1x1024 .f32 × Vec F S1x1x1024 .f32 × Vec F S1x1024 .f32 × Vec F S1x1024 .f32 × Vec F S1x1024 .f32 × Vec F S1x1024 .f32 :=
  (VO0_5.read (Elt F) VO0_5.junk, VO0_6.read (Elt F) VO0_6.junk,
   atPt[sout0_A_0, c, t] (cA0 t h0) (cA1 t h0) (iblk m c 0 t) (iblk m c 1 t) (iblk m c 2 t) (iblk m c 3 t) (iblk m c 4 t),
   atPt[sout0_A_1, c, t] (cA0 t h0) (cA1 t h0) (iblk m c 0 t) (iblk m c 1 t) (iblk m c 2 t) (iblk m c 3 t) (iblk m c 4 t),
   atPt[sout0_A_2, c, t] (cA0 t h0) (cA1 t h0) (iblk m c 0 t) (iblk m c 1 t) (iblk m c 2 t) (iblk m c 3 t) (iblk m c 4 t),
   atPt[sout0_A_3, c, t] (cA0 t h0) (cA1 t h0) (iblk m c 0 t) (iblk m c 1 t) (iblk m c 2 t) (iblk m c 3 t) (iblk m c 4 t))

/-- The six contents after a point of case B, the accumulators on entry at xs0 … xs3: the results again a
    placeholder, each accumulator what case B leaves. -/
def at0_B (c : Dev nD) (t : Fin cfg0.N) (h0 : ¬t.val % 25 = 0) (h1 : ¬t.val % 25 = 24) (xs0 xs1 xs2 xs3 : Vec F S1x1024 .f32) :
    Vec F S1x1x1024 .f32 × Vec F S1x1x1024 .f32 × Vec F S1x1024 .f32 × Vec F S1x1024 .f32 × Vec F S1x1024 .f32 × Vec F S1x1024 .f32 :=
  (VO0_5.read (Elt F) VO0_5.junk, VO0_6.read (Elt F) VO0_6.junk,
   atPt[sout0_B_0, c, t] (cN0 t h0) (cN1 t h1) (iblk m c 0 t) (iblk m c 1 t) (iblk m c 2 t) (iblk m c 3 t) (iblk m c 4 t) xs0 xs1 xs2 xs3,
   atPt[sout0_B_1, c, t] (cN0 t h0) (cN1 t h1) (iblk m c 0 t) (iblk m c 1 t) (iblk m c 2 t) (iblk m c 3 t) (iblk m c 4 t) xs0 xs1 xs2 xs3,
   atPt[sout0_B_2, c, t] (cN0 t h0) (cN1 t h1) (iblk m c 0 t) (iblk m c 1 t) (iblk m c 2 t) (iblk m c 3 t) (iblk m c 4 t) xs0 xs1 xs2 xs3,
   atPt[sout0_B_3, c, t] (cN0 t h0) (cN1 t h1) (iblk m c 0 t) (iblk m c 1 t) (iblk m c 2 t) (iblk m c 3 t) (iblk m c 4 t) xs0 xs1 xs2 xs3)

/-- The six contents after a point of case C, the accumulators on entry at xs0 … xs3: each result window and each
    accumulator what case C leaves. -/
def at0_C (c : Dev nD) (t : Fin cfg0.N) (h0 : ¬t.val % 25 = 0) (h1 : t.val % 25 = 24) (xs0 xs1 xs2 xs3 : Vec F S1x1024 .f32) :
    Vec F S1x1x1024 .f32 × Vec F S1x1x1024 .f32 × Vec F S1x1024 .f32 × Vec F S1x1024 .f32 × Vec F S1x1024 .f32 × Vec F S1x1024 .f32 :=
  (atPt[out0_C_5, c, t] (cN0 t h0) (cC1 t h1) (iblk m c 0 t) (iblk m c 1 t) (iblk m c 2 t) (iblk m c 3 t) (iblk m c 4 t) xs0 xs1 xs2 xs3,
   atPt[out0_C_6, c, t] (cN0 t h0) (cC1 t h1) (iblk m c 0 t) (iblk m c 1 t) (iblk m c 2 t) (iblk m c 3 t) (iblk m c 4 t) xs0 xs1 xs2 xs3,
   atPt[sout0_C_0, c, t] (cN0 t h0) (cC1 t h1) (iblk m c 0 t) (iblk m c 1 t) (iblk m c 2 t) (iblk m c 3 t) (iblk m c 4 t) xs0 xs1 xs2 xs3,
   atPt[sout0_C_1, c, t] (cN0 t h0) (cC1 t h1) (iblk m c 0 t) (iblk m c 1 t) (iblk m c 2 t) (iblk m c 3 t) (iblk m c 4 t) xs0 xs1 xs2 xs3,
   atPt[sout0_C_2, c, t] (cN0 t h0) (cC1 t h1) (iblk m c 0 t) (iblk m c 1 t) (iblk m c 2 t) (iblk m c 3 t) (iblk m c 4 t) xs0 xs1 xs2 xs3,
   atPt[sout0_C_3, c, t] (cN0 t h0) (cC1 t h1) (iblk m c 0 t) (iblk m c 1 t) (iblk m c 2 t) (iblk m c 3 t) (iblk m c 4 t) xs0 xs1 xs2 xs3)

/-- THE ACCUMULATION. What the two result windows' buffers and the four accumulators hold after the body at position
    n: the contents of the case the position selects (n ≡ 0 mod 25: A; n ≡ 24: C; else B), from the point's input
    blocks and, in B and C, the accumulators as position n - 1 left them. -/
def outsAt0 (c : Dev nD) : (n : ℕ) → n < cfg0.N →
    Vec F S1x1x1024 .f32 × Vec F S1x1x1024 .f32 × Vec F S1x1024 .f32 × Vec F S1x1024 .f32 × Vec F S1x1024 .f32 × Vec F S1x1024 .f32
  | 0, hn => at0_A m c ⟨0, hn⟩ (Nat.zero_mod 25)
  | n + 1, hn =>
    if h0 : (n + 1) % 25 = 0 then
      at0_A m c ⟨n + 1, hn⟩ h0
    else
      if h1 : (n + 1) % 25 = 24 then
        at0_C m c ⟨n + 1, hn⟩ h0 h1 (outsAt0 c n (Nat.lt_of_succ_lt hn)).2.2.1 (outsAt0 c n (Nat.lt_of_succ_lt hn)).2.2.2.1
          (outsAt0 c n (Nat.lt_of_succ_lt hn)).2.2.2.2.1 (outsAt0 c n (Nat.lt_of_succ_lt hn)).2.2.2.2.2
      else
        at0_B m c ⟨n + 1, hn⟩ h0 h1 (outsAt0 c n (Nat.lt_of_succ_lt hn)).2.2.1 (outsAt0 c n (Nat.lt_of_succ_lt hn)).2.2.2.1
          (outsAt0 c n (Nat.lt_of_succ_lt hn)).2.2.2.2.1 (outsAt0 c n (Nat.lt_of_succ_lt hn)).2.2.2.2.2

/-- The position before t's is inside the grid. -/
theorem pred_lt (t : Fin cfg0.N) : t.val - 1 < cfg0.N := Nat.lt_of_le_of_lt (Nat.sub_le _ _) t.isLt

/-- At a point of case A: that case's contents. -/
theorem outsAt0_A (c : Dev nD) (t : Fin cfg0.N) (h0 : t.val % 25 = 0) :
    outsAt0 m c t.val t.isLt = at0_A m c t h0 := by
  obtain ⟨n, hn⟩ := t
  cases n with
  | zero => exact rfl
  | succ n => exact (dif_pos h0).trans rfl

/-- At a point of case B: that case's contents, over the accumulators the point before left. -/
theorem outsAt0_B (c : Dev nD) (t : Fin cfg0.N) (h0 : ¬t.val % 25 = 0) (h1 : ¬t.val % 25 = 24) :
    outsAt0 m c t.val t.isLt = at0_B m c t h0 h1 (outsAt0 m c (t.val - 1) (pred_lt t)).2.2.1 (outsAt0 m c (t.val - 1) (pred_lt t)).2.2.2.1
      (outsAt0 m c (t.val - 1) (pred_lt t)).2.2.2.2.1 (outsAt0 m c (t.val - 1) (pred_lt t)).2.2.2.2.2 := by
  obtain ⟨n, hn⟩ := t
  cases n with
  | zero => exact absurd (Nat.zero_mod 25) h0
  | succ n => exact (dif_neg h0).trans ((dif_neg h1).trans rfl)

/-- At a point of case C: that case's contents, over the accumulators the point before left. -/
theorem outsAt0_C (c : Dev nD) (t : Fin cfg0.N) (h0 : ¬t.val % 25 = 0) (h1 : t.val % 25 = 24) :
    outsAt0 m c t.val t.isLt = at0_C m c t h0 h1 (outsAt0 m c (t.val - 1) (pred_lt t)).2.2.1 (outsAt0 m c (t.val - 1) (pred_lt t)).2.2.2.1
      (outsAt0 m c (t.val - 1) (pred_lt t)).2.2.2.2.1 (outsAt0 m c (t.val - 1) (pred_lt t)).2.2.2.2.2 := by
  obtain ⟨n, hn⟩ := t
  cases n with
  | zero => exact absurd (Nat.zero_mod 25) h0
  | succ n => exact (dif_neg h0).trans ((dif_pos h1).trans rfl)

/-! ## The region's invariant: the four accumulators at what the point before left -/

/-- Before the first point the accumulators hold anything; before a later point each holds what the point before
    left in it; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1)
      ∗ owns (c : Thread nD τ) scM0_1 fullShare ((outsAt0 m c n hn).2.2.2.1)
      ∗ owns (c : Thread nD τ) scM0_2 fullShare ((outsAt0 m c n hn).2.2.2.2.1)
      ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulators at that point's contents. -/
theorem PhiS_succ (c : Dev nD) (n : ℕ) (hn : n < cfg0.N) :
    PhiS m c (n + 1) hn = iprop(iprop(owns (c : Thread nD τ) scM0_0 fullShare ((outsAt0 m c n hn).2.2.1)
      ∗ owns (c : Thread nD τ) scM0_1 fullShare ((outsAt0 m c n hn).2.2.2.1)
      ∗ owns (c : Thread nD τ) scM0_2 fullShare ((outsAt0 m c n hn).2.2.2.2.1)
      ∗ owns (c : Thread nD τ) scM0_3 fullShare ((outsAt0 m c n hn).2.2.2.2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1)
      ∗ owns (c : Thread nD τ) scM0_1 fullShare ((outsAt0 m c (n - 1) (by omega)).2.2.2.1)
      ∗ owns (c : Thread nD τ) scM0_2 fullShare ((outsAt0 m c (n - 1) (by omega)).2.2.2.2.1)
      ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The proof data of the pipeline on core c: the arrays as the region finds them; after the body at point t each
    input's buffer at its block, the two results' at the accumulation's first two components; the invariant the
    accumulators' (PhiS); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point t: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position says which case the point is in. The
    invariant hands the body the four accumulators — at anything before the first point, else at what the point
    before left — and takes them back at this point's contents, each read off its covering stores. Away from a half's
    last tile the two result buffers pass through untouched; at it they are stored whole and read off their covering
    stores. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 50 := lt_of_lt_of_eq t.isLt (show cfg0.N = 50 from N_0)
  by_cases h0 : t.val % 25 = 0
  · -- case A: the accumulators restarted, the results passed through
    rw [Dat.leavesExact_idle (dats m 0 c) 5 t (idleAt0_5 t (cA1 t h0)) (noFlush0_5 t (cA1 t h0))]
    rw [Dat.leavesExact_idle (dats m 0 c) 6 t (idleAt0_6 t (cA1 t h0)) (noFlush0_6 t (cA1 t h0))]
    rw [outsAt0_A m c t h0]
    unfold at0_A sout0_A_0 sout0_A_1 sout0_A_2 sout0_A_3; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ (cA0 t h0) (cA1 t h0) (iblk m c 0 t) (iblk m c 1 t) (iblk m c 2 t) (iblk m c 3 t) (iblk m c 4 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ (cA0 t h0) (cA1 t h0) (iblk m c 0 t) (iblk m c 1 t) (iblk m c 2 t) (iblk m c 3 t) (iblk m c 4 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun hz => h0 (by rw [hz])
    by_cases h1 : t.val % 25 = 24
    · -- case C: the accumulators updated, the two results stored whole
      rw [show (dats m 0 c).leavesExact 5 t = owns (c : Thread nD τ) (ms0_5 t) fullShare ((dats m 0 c).after 5 t) from by
        unfold Dat.leavesExact; rw [liveAt0_5 t (cC1 t h1)], after0_5]
      rw [show (dats m 0 c).leavesExact 6 t = owns (c : Thread nD τ) (ms0_6 t) fullShare ((dats m 0 c).after 6 t) from by
        unfold Dat.leavesExact; rw [liveAt0_6 t (cC1 t h1)], after0_6]
      rw [outsAt0_C m c t h0 h1]
      unfold at0_C out0_C_5 out0_C_6 sout0_C_0 sout0_C_1 sout0_C_2 sout0_C_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ (cN0 t h0) (cC1 t h1) (iblk m c 0 t) (iblk m c 1 t) (iblk m c 2 t) (iblk m c 3 t) (iblk m c 4 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_C_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _ _)
    · -- case B: the accumulators updated, the results passed through
      rw [Dat.leavesExact_idle (dats m 0 c) 5 t (idleAt0_5 t (cN1 t h1)) (noFlush0_5 t (cN1 t h1))]
      rw [Dat.leavesExact_idle (dats m 0 c) 6 t (idleAt0_6 t (cN1 t h1)) (noFlush0_6 t (cN1 t h1))]
      rw [outsAt0_B m c t h0 h1]
      unfold at0_B sout0_B_0 sout0_B_1 sout0_B_2 sout0_B_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (cN0 t h0) (cN1 t h1) (iblk m c 0 t) (iblk m c 1 t) (iblk m c 2 t) (iblk m c 3 t) (iblk m c 4 t) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option maxHeartbeats 4000000 in
set_option backward.isDefEq.respectTransparency.types false in
/-- From any memory with zero counters, every weakly fair execution of the whole program terminates, and every final
    state has each array of the pipeline at what the proof data computes and every other buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

set_option maxHeartbeats 4000000 in
/-- THE FRAME: the program runs, and each of its seven argument arrays ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KI.Entry.lean ====
/-
  What the region finds: core `c`'s buffer contents when the pipelined region is entered — the launch memory after the
  host operations that stand before the region (the hidden vector's change of float format, the two biases re-laid as
  columns) —, and a window's block at a grid point read off its array as the region finds it.
-/
import proofs.«405701_j335007449569_3_alg».proof.Proof.Gen.KernelIdeal.Launch
import proofs.«405701_j335007449569_3_alg».proof.Proof.Gen.KernelIdeal.Skeleton
import proofs.«405701_j335007449569_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffer contents when the region is entered, as a valuation: the launch memory after the three host
    operations before the region. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Fr

end
-- ==== Proof.KI.Body.lean ====
/-
  What the kernel body's runs are stated over. The body runs once per grid point `t = 25·h + v` (`h` the vocabulary
  half, `v` the tile inside the half). Two conditions of the coordinates steer it: "first tile of a half" (`v = 0`:
  the four running accumulators are restarted) and "last tile of a half" (`v = 24`: the two results are stored).
  Here: the two conditions decided over the grid in closed form; where the two result windows are idle (every point
  but a half's last) and where they are written back; the staging memref of each window at a point and the four
  accumulator buffers; the region invariant spelled over those four; and each input window's staging buffer holding
  its block at every point.
-/
import proofs.«405701_j335007449569_3_alg».proof.Proof.KI.Entry

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The two conditions of the coordinates -/

/-- "First tile of a half": the tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- "Last tile of a half": the tile coordinate is 24. -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a half's last tile the two result windows are idle and are not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a half's last tile they are live. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs the body is called with -/

/-- One staging buffer of each result window, through which its contents are stated. -/
abbrev VO0_5 : View sig .tc .vmem S1x1x1024 .f32 := (Memref.whole cc0_stg5_0 : Memref sig .tc .vmem S1x1x1024 .f32).view
abbrev VO0_6 : View sig .tc .vmem S1x1x1024 .f32 := (Memref.whole cc0_stg6_0 : Memref sig .tc .vmem S1x1x1024 .f32).view
/-- Each window's current staging memref at point `t`, and its wholeness. -/
abbrev ms0_0 (t : Fin cfg0.N) : Memref sig .tc .vmem S1024x300 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x300 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x300 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
/-- The four accumulators (running maximum and running sum, per vocabulary): whole buffers of the kernel's own. -/
abbrev scM0_0 : Memref sig .tc .vmem S1x1024 .f32 := Memref.whole cc0_scratch0
abbrev scM0_1 : Memref sig .tc .vmem S1x1024 .f32 := Memref.whole cc0_scratch1
abbrev scM0_2 : Memref sig .tc .vmem S1x1024 .f32 := Memref.whole cc0_scratch2
abbrev scM0_3 : Memref sig .tc .vmem S1x1024 .f32 := Memref.whole cc0_scratch3
abbrev VS0_0 : View sig .tc .vmem S1x1024 .f32 := scM0_0.view
abbrev VS0_1 : View sig .tc .vmem S1x1024 .f32 := scM0_1.view
abbrev VS0_2 : View sig .tc .vmem S1x1024 .f32 := scM0_2.view
abbrev VS0_3 : View sig .tc .vmem S1x1024 .f32 := scM0_3.view

/-- The region's invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## Each input's staging buffer holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Fr

end
-- ==== Proof.KI.RunA.lean ====
/-
  The kernel body's run in case A of its two conditions ("first tile of a half", "last tile of a half"): from the
  five input blocks at their contents, the two result buffers and the four accumulators, the body runs to any
  continuation that holds the inputs as they were and each buffer it stored into with its stores written, as pieces
  (last first). The pieces are the witness the run finds.
-/
import proofs.«405701_j335007449569_3_alg».proof.Proof.KI.Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run at the first tile of a half that is not also its last: the four accumulators, found at any contents,
    are restarted (running maximum at −∞, running sum at 0) and then updated by the tile of each vocabulary; the two
    result buffers are not touched and are handed back as found. -/
noncomputable def kernelRun0_A (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x300 .bf16) (x1 : Vec F S1000x300 .f32) (x2 : Vec F S1000x1 .f32) (x3 : Vec F S1000x300 .f32) (x4 : Vec F S1000x1 .f32) :
    Σ' (L5 : List (View.Piece (Elt F) S1x1x1024 .f32)) (L6 : List (View.Piece (Elt F) S1x1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi5 xi6 : Vec F S1x1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ owns (c : Thread nD τ) arg8 fullShare xi6
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)
              ∗ (∃ f, arg11.view.loc (c : Thread nD τ) ↦[arg11.view.set]{fullShare} arg11.view.writes (Elt F) f LS2)
              ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Fr

end
-- ==== Proof.KI.RunB.lean ====
/-
  The kernel body's run in case B of its two conditions ("first tile of a half", "last tile of a half"): from the
  five input blocks at their contents, the two result buffers and the four accumulators, the body runs to any
  continuation that holds the inputs as they were and each buffer it stored into with its stores written, as pieces
  (last first). The pieces are the witness the run finds.
-/
import proofs.«405701_j335007449569_3_alg».proof.Proof.KI.Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run at a tile that is neither the first nor the last of its half: the four accumulators, found at the
    contents the tile before left, are updated by the tile of each vocabulary; the two result buffers are not touched
    and are handed back as found. -/
noncomputable def kernelRun0_B (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    Σ' (L5 : List (View.Piece (Elt F) S1x1x1024 .f32)) (L6 : List (View.Piece (Elt F) S1x1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi5 xi6 : Vec F S1x1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ owns (c : Thread nD τ) arg8 fullShare xi6
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)
              ∗ (∃ f, arg11.view.loc (c : Thread nD τ) ↦[arg11.view.set]{fullShare} arg11.view.writes (Elt F) f LS2)
              ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    obtain rfl := harg9.eq_unread hfs0; obtain rfl := harg10.eq_unread hfs1
    obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Fr

end
-- ==== Proof.KI.RunC.lean ====
/-
  The kernel body's run in case C of its two conditions ("first tile of a half", "last tile of a half"): from the
  five input blocks at their contents, the two result buffers and the four accumulators, the body runs to any
  continuation that holds the inputs as they were and each buffer it stored into with its stores written, as pieces
  (last first). The pieces are the witness the run finds.
-/
import proofs.«405701_j335007449569_3_alg».proof.Proof.KI.Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run at the last tile of a half: the four accumulators, found at the contents the tile before left, are
    updated by the tile of each vocabulary, and each vocabulary's result (running maximum plus the logarithm of the
    running sum) is stored into its result buffer, found at any contents. -/
noncomputable def kernelRun0_C (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    Σ' (L5 : List (View.Piece (Elt F) S1x1x1024 .f32)) (L6 : List (View.Piece (Elt F) S1x1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)
              ∗ (∃ f, arg11.view.loc (c : Thread nD τ) ↦[arg11.view.set]{fullShare} arg11.view.writes (Elt F) f LS2)
              ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Fr

end
-- ==== Proof.KI.Main.lean ====
/-
  The host side of the program's frame. @main is three host operations (the hidden vector's change of float format,
  the two biases re-laid as columns), one pipelined region, and then 109 host operations that only read what came
  before and write buffers of their own. Here: @main reduces to the region continued by the later operations; those
  touch only the region's arrays and the buffers that bypass it, allocate nothing, and write no array; the seven
  argument arrays are, when the region is entered, what the launch memory held; and a frame run's post read at the
  seven argument arrays is the frame claim's post.
-/
import proofs.«405701_j335007449569_3_alg».proof.Proof.KI.Entry

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## No operation allocates -/

theorem hostOps0_fresh : (hostOps0 : List (HloOp τ sig (Elt F))).Forall fun op => op.fresh = ∅ := by
  simp only [List.Forall]; repeat' constructor

set_option maxHeartbeats 4000000 in
theorem hostOps1_fresh : (hostOps1 : List (HloOp τ sig (Elt F))).Forall fun op => op.fresh = ∅ := by
  simp only [List.Forall]; repeat' constructor

/-! ## @main around the region -/

set_option maxHeartbeats 4000000 in
/-- @main is the three operations before the region, the region, and the 109 after it: it reduces to the region
    continued by the later ones, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The argument arrays when the region is entered

The three operations before the region write `main_v0`, `main_v1`, `main_v2` only. -/

theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
theorem V_main_arg4 (c : Dev nD) : V m c main_arg4 = m ((c : Thread nD τ).loc main_arg4) := by
  dsimp only [V, V0]; simp only [hostOps0, List.flatten_cons, List.flatten_nil, List.append_nil]; after_results
theorem V_main_arg5 (c : Dev nD) : V m c main_arg5 = m ((c : Thread nD τ).loc main_arg5) := by
  dsimp only [V, V0]; simp only [hostOps0, List.flatten_cons, List.flatten_nil, List.append_nil]; after_results
theorem V_main_arg6 (c : Dev nD) : V m c main_arg6 = m ((c : Thread nD τ).loc main_arg6) := by
  dsimp only [V, V0]; simp only [hostOps0, List.flatten_cons, List.flatten_nil, List.append_nil]; after_results

/-! ## The operations after the region -/

/-- They touch the region's arrays and the buffers that bypass it only: each operation's buffers are unscoped
    TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  rw [List.mem_singleton] at hops
  subst hops
  exact (List.forall_iff_forall_mem.mp hostOps1_fresh) op hop

/-- The buffers the later operations leave alone: the seven argument arrays and the five arrays of the region
    that are no argument (the hidden vector in the narrow format, the two bias columns, the two results). -/
abbrev keep : List (Ref sig .tc) :=
  [main_arg0, main_arg1, main_arg2, main_arg3, main_arg4, main_arg5, main_arg6, main_v0, main_v1, main_v2, main_v3_0, main_v3_1]

/-- Every array of the region is among them. -/
theorem arr_keep : ∀ w : Fin 7, Pipeline.arrRef spec0 w ∈ keep := by decide

/-- An operation that writes the one buffer `y`, `y` none of those, writes none of those. -/
theorem keeps_of {y : Ref sig .tc} {op : HloOp τ sig (Elt F)} (hw : op.writes = {Proc.devRef .tc y}) (hy : ∀ r ∈ keep, r ≠ y) :
    ∀ r ∈ keep, Proc.devRef (τ := τ) .tc r ∉ op.writes := fun r hr h => by
  rw [hw, Finset.mem_singleton] at h
  exact hy r hr (Proc.devRef_injective _ h)

set_option maxHeartbeats 4000000 in
/-- Each of the 109 writes its own result buffer only, which is none of those. -/
theorem hostOps1_keeps : (hostOps1 : List (HloOp τ sig (Elt F))).Forall fun op => ∀ r ∈ keep, Proc.devRef (τ := τ) .tc r ∉ op.writes := by
  simp only [List.Forall]
  repeat' constructor
  all_goals exact keeps_of rfl (by decide)

/-- So they write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  exact (List.forall_iff_forall_mem.mp hostOps1_keeps) op hop _ (arr_keep w)

/-! ## The frame claim's post from the frame run's -/

/-- A buffer the later operations leave alone that is no array of the region holds, after them, what the region
    found in it: no operation writes it, and the region's exit contents differ from the entry contents at the arrays
    only. -/
theorem afterTail_keep (dats : (p : Fin 1) → (c : Dev nD) → Dat τ (Elt F) Unit ℕ (UR sig nD τ) ℕ (cfgs p) c)
    (c : Dev nD) (b : Ref sig .tc) (hk : b ∈ keep) (hb : ∀ w, Pipeline.arrRef spec0 w ≠ b) :
    Pipeline.afterTail₀ cfgs dats 0 (V0 m) [hostOps1] c b = V m c b := by
  unfold Pipeline.afterTail₀
  rw [StableHlo.after_of_forall_not_mem _ _ fun op hop => ?_, Pipeline.withArrays_of_ne _ c (V0 m c) _ b hb]
  simp only [List.flatten_cons, List.flatten_nil, List.append_nil] at hop
  exact (List.forall_iff_forall_mem.mp hostOps1_keeps) op hop b hk

/-- THE FRAME from a frame run: for any proof data whose arrays are the region-entry contents, a run to the library's
    frame post at the contents after the later operations is the frame claim's post. The two tables are arrays of
    input windows, which the region never writes back; the other five arguments are arrays of no window, and end at
    the contents after the later operations, which leave them as the region found them; each is then what the launch
    memory held. -/
theorem frame_of (ρ : Dev nD → PrngReg) (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 rfl (by decide))).trans
        ((afterTail_keep m dats c main_arg0 (by decide) (by decide)).trans (V_main_arg0 m c)),
     ((h c).2 main_arg1 (Pipeline.mem_restRefs_of main_arg1 rfl (by decide))).trans
        ((afterTail_keep m dats c main_arg1 (by decide) (by decide)).trans (V_main_arg1 m c)),
     ((h c).2 main_arg2 (Pipeline.mem_restRefs_of main_arg2 rfl (by decide))).trans
        ((afterTail_keep m dats c main_arg2 (by decide) (by decide)).trans (V_main_arg2 m c)),
     ((h c).1 1).trans (((dats 0 c).arrAt_in 1 rfl _).trans ((hA c 1).trans (V_main_arg3 m c))),
     ((h c).1 3).trans (((dats 0 c).arrAt_in 3 rfl _).trans ((hA c 3).trans (V_main_arg4 m c))),
     ((h c).2 main_arg5 (Pipeline.mem_restRefs_of main_arg5 rfl (by decide))).trans
        ((afterTail_keep m dats c main_arg5 (by decide) (by decide)).trans (V_main_arg5 m c)),
     ((h c).2 main_arg6 (Pipeline.mem_restRefs_of main_arg6 rfl (by decide))).trans
        ((afterTail_keep m dats c main_arg6 (by decide) (by decide)).trans (V_main_arg6 m c))⟩) h

end Cert.KernelIdeal.Fr

end
-- ==== Proof.KI.Frame.lean ====
/-
  THE FRAME of the idealized kernel program.

  The body runs once per grid point t = 25·h + v (h the vocabulary half, v the tile inside the half). Beside its five
  input blocks it works on two result windows (stored only at a half's last tile, v = 24, and left alone elsewhere)
  and on four accumulators carried from point to point (running maximum and running sum of the first vocabulary,
  then of the second; restarted at a half's first tile, v = 0). Three cases by the two conditions: A (v = 0), B
  (0 < v < 24), C (v = 24).

  Here: what each case leaves in each buffer it stores into (its stores read back, and that they cover the buffer);
  what the two result windows and the four accumulators hold after each grid point, by recursion on the point
  (the case's contents, the accumulators on entry being what the point before left); the proof data of the
  pipeline over these; the body obligation at a generic point, by the three cases; the run of the whole program and
  the frame claim: every argument array ends as it began.
-/
import proofs.«405701_j335007449569_3_alg».proof.Proof.KI.RunA
import proofs.«405701_j335007449569_3_alg».proof.Proof.KI.RunB
import proofs.«405701_j335007449569_3_alg».proof.Proof.KI.RunC
import proofs.«405701_j335007449569_3_alg».proof.Proof.KI.Main

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, buffer by buffer -/

section perCase

variable (c : Dev nD) (i : grid0.Coords)
  (arg2 : Memref sig .tc .vmem S1024x300 .bf16) (harg2 : arg2.IsWhole)
  (arg3 : Memref sig .tc .vmem S1000x300 .f32) (harg3 : arg3.IsWhole)
  (arg4 : Memref sig .tc .vmem S1000x1 .f32) (harg4 : arg4.IsWhole)
  (arg5 : Memref sig .tc .vmem S1000x300 .f32) (harg5 : arg5.IsWhole)
  (arg6 : Memref sig .tc .vmem S1000x1 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1x1024 .f32) (harg12 : arg12.IsWhole)

/-! ### Case A: first tile of a half. The accumulators are restarted and updated; the results are not touched. -/

section caseA

variable (hc0 : cond0_0 i) (hc1 : ¬cond0_1 i)
  (x0 : Vec F S1024x300 .bf16) (x1 : Vec F S1000x300 .f32) (x2 : Vec F S1000x1 .f32) (x3 : Vec F S1000x300 .f32) (x4 : Vec F S1000x1 .f32)

-- case A's run at the section's buffers and input blocks
local notation "runA" => kernelRun0_A c i arg2 harg2 arg3 harg3 arg4 harg4 arg5 harg5 arg6 harg6 arg7 harg7 arg8 harg8 arg9 harg9 arg10 harg10 arg11 harg11 arg12 harg12 hc0 hc1 x0 x1 x2 x3 x4

/-- Case A's stores into the first vocabulary's running maximum tile the accumulator, so they cover it. -/
theorem scover0_A_0 (y : S1x1024.Idx) : ∃ pc ∈ (runA).2.2.1, y ∈ pc.1.set :=
  View.cover_of_tiledL (runA).2.2.1 S1x1024.size (by sl_kernel_rfl) y
/-- What case A leaves in the first vocabulary's running maximum: its stores read back. -/
def sout0_A_0 : Vec F S1x1024 .f32 := VS0_0.read (Elt F) (VS0_0.writes (Elt F) VS0_0.junk (runA).2.2.1)

/-- Case A's stores into the first vocabulary's running sum cover it. -/
theorem scover0_A_1 (y : S1x1024.Idx) : ∃ pc ∈ (runA).2.2.2.1, y ∈ pc.1.set :=
  View.cover_of_tiledL (runA).2.2.2.1 S1x1024.size (by sl_kernel_rfl) y
/-- What case A leaves in the first vocabulary's running sum. -/
def sout0_A_1 : Vec F S1x1024 .f32 := VS0_1.read (Elt F) (VS0_1.writes (Elt F) VS0_1.junk (runA).2.2.2.1)

/-- Case A's stores into the second vocabulary's running maximum cover it. -/
theorem scover0_A_2 (y : S1x1024.Idx) : ∃ pc ∈ (runA).2.2.2.2.1, y ∈ pc.1.set :=
  View.cover_of_tiledL (runA).2.2.2.2.1 S1x1024.size (by sl_kernel_rfl) y
/-- What case A leaves in the second vocabulary's running maximum. -/
def sout0_A_2 : Vec F S1x1024 .f32 := VS0_2.read (Elt F) (VS0_2.writes (Elt F) VS0_2.junk (runA).2.2.2.2.1)

/-- Case A's stores into the second vocabulary's running sum cover it. -/
theorem scover0_A_3 (y : S1x1024.Idx) : ∃ pc ∈ (runA).2.2.2.2.2.1, y ∈ pc.1.set :=
  View.cover_of_tiledL (runA).2.2.2.2.2.1 S1x1024.size (by sl_kernel_rfl) y
/-- What case A leaves in the second vocabulary's running sum. -/
def sout0_A_3 : Vec F S1x1024 .f32 := VS0_3.read (Elt F) (VS0_3.writes (Elt F) VS0_3.junk (runA).2.2.2.2.2.1)

end caseA

/-! ### Case B: a tile inside a half. The accumulators, found at what the point before left, are updated. -/

section caseB

variable (hc0 : ¬cond0_0 i) (hc1 : ¬cond0_1 i)
  (x0 : Vec F S1024x300 .bf16) (x1 : Vec F S1000x300 .f32) (x2 : Vec F S1000x1 .f32) (x3 : Vec F S1000x300 .f32) (x4 : Vec F S1000x1 .f32)
  (xs0 xs1 xs2 xs3 : Vec F S1x1024 .f32)

-- case B's run at the section's buffers, input blocks and accumulator contents on entry
local notation "runB" => kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3

/-- Case B's stores into the first vocabulary's running maximum cover it. -/
theorem scover0_B_0 (y : S1x1024.Idx) : ∃ pc ∈ (runB).2.2.1, y ∈ pc.1.set :=
  View.cover_of_tiledL (runB).2.2.1 S1x1024.size (by sl_kernel_rfl) y
/-- What case B leaves in the first vocabulary's running maximum. -/
def sout0_B_0 : Vec F S1x1024 .f32 := VS0_0.read (Elt F) (VS0_0.writes (Elt F) VS0_0.junk (runB).2.2.1)

/-- Case B's stores into the first vocabulary's running sum cover it. -/
theorem scover0_B_1 (y : S1x1024.Idx) : ∃ pc ∈ (runB).2.2.2.1, y ∈ pc.1.set :=
  View.cover_of_tiledL (runB).2.2.2.1 S1x1024.size (by sl_kernel_rfl) y
/-- What case B leaves in the first vocabulary's running sum. -/
def sout0_B_1 : Vec F S1x1024 .f32 := VS0_1.read (Elt F) (VS0_1.writes (Elt F) VS0_1.junk (runB).2.2.2.1)

/-- Case B's stores into the second vocabulary's running maximum cover it. -/
theorem scover0_B_2 (y : S1x1024.Idx) : ∃ pc ∈ (runB).2.2.2.2.1, y ∈ pc.1.set :=
  View.cover_of_tiledL (runB).2.2.2.2.1 S1x1024.size (by sl_kernel_rfl) y
/-- What case B leaves in the second vocabulary's running maximum. -/
def sout0_B_2 : Vec F S1x1024 .f32 := VS0_2.read (Elt F) (VS0_2.writes (Elt F) VS0_2.junk (runB).2.2.2.2.1)

/-- Case B's stores into the second vocabulary's running sum cover it. -/
theorem scover0_B_3 (y : S1x1024.Idx) : ∃ pc ∈ (runB).2.2.2.2.2.1, y ∈ pc.1.set :=
  View.cover_of_tiledL (runB).2.2.2.2.2.1 S1x1024.size (by sl_kernel_rfl) y
/-- What case B leaves in the second vocabulary's running sum. -/
def sout0_B_3 : Vec F S1x1024 .f32 := VS0_3.read (Elt F) (VS0_3.writes (Elt F) VS0_3.junk (runB).2.2.2.2.2.1)

end caseB

/-! ### Case C: last tile of a half. The accumulators are updated and the two results stored. -/

section caseC

variable (hc0 : ¬cond0_0 i) (hc1 : cond0_1 i)
  (x0 : Vec F S1024x300 .bf16) (x1 : Vec F S1000x300 .f32) (x2 : Vec F S1000x1 .f32) (x3 : Vec F S1000x300 .f32) (x4 : Vec F S1000x1 .f32)
  (xs0 xs1 xs2 xs3 : Vec F S1x1024 .f32)

-- case C's run at the section's buffers, input blocks and accumulator contents on entry
local notation "runC" => kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3

/-- Case C's stores into the first result window tile its block, so they cover it. -/
theorem cover0_C_5 (y : S1x1x1024.Idx) : ∃ pc ∈ (runC).1, y ∈ pc.1.set :=
  View.cover_of_tiledL (runC).1 S1x1x1024.size (by sl_kernel_rfl) y
/-- What case C leaves in the first result window's buffer: its stores read back. -/
def out0_C_5 : Vec F S1x1x1024 .f32 := VO0_5.read (Elt F) (VO0_5.writes (Elt F) VO0_5.junk (runC).1)

/-- Case C's stores into the second result window cover its block. -/
theorem cover0_C_6 (y : S1x1x1024.Idx) : ∃ pc ∈ (runC).2.1, y ∈ pc.1.set :=
  View.cover_of_tiledL (runC).2.1 S1x1x1024.size (by sl_kernel_rfl) y
/-- What case C leaves in the second result window's buffer. -/
def out0_C_6 : Vec F S1x1x1024 .f32 := VO0_6.read (Elt F) (VO0_6.writes (Elt F) VO0_6.junk (runC).2.1)

/-- Case C's stores into the first vocabulary's running maximum cover it. -/
theorem scover0_C_0 (y : S1x1024.Idx) : ∃ pc ∈ (runC).2.2.1, y ∈ pc.1.set :=
  View.cover_of_tiledL (runC).2.2.1 S1x1024.size (by sl_kernel_rfl) y
/-- What case C leaves in the first vocabulary's running maximum. -/
def sout0_C_0 : Vec F S1x1024 .f32 := VS0_0.read (Elt F) (VS0_0.writes (Elt F) VS0_0.junk (runC).2.2.1)

/-- Case C's stores into the first vocabulary's running sum cover it. -/
theorem scover0_C_1 (y : S1x1024.Idx) : ∃ pc ∈ (runC).2.2.2.1, y ∈ pc.1.set :=
  View.cover_of_tiledL (runC).2.2.2.1 S1x1024.size (by sl_kernel_rfl) y
/-- What case C leaves in the first vocabulary's running sum. -/
def sout0_C_1 : Vec F S1x1024 .f32 := VS0_1.read (Elt F) (VS0_1.writes (Elt F) VS0_1.junk (runC).2.2.2.1)

/-- Case C's stores into the second vocabulary's running maximum cover it. -/
theorem scover0_C_2 (y : S1x1024.Idx) : ∃ pc ∈ (runC).2.2.2.2.1, y ∈ pc.1.set :=
  View.cover_of_tiledL (runC).2.2.2.2.1 S1x1024.size (by sl_kernel_rfl) y
/-- What case C leaves in the second vocabulary's running maximum. -/
def sout0_C_2 : Vec F S1x1024 .f32 := VS0_2.read (Elt F) (VS0_2.writes (Elt F) VS0_2.junk (runC).2.2.2.2.1)

/-- Case C's stores into the second vocabulary's running sum cover it. -/
theorem scover0_C_3 (y : S1x1024.Idx) : ∃ pc ∈ (runC).2.2.2.2.2.1, y ∈ pc.1.set :=
  View.cover_of_tiledL (runC).2.2.2.2.2.1 S1x1024.size (by sl_kernel_rfl) y
/-- What case C leaves in the second vocabulary's running sum. -/
def sout0_C_3 : Vec F S1x1024 .f32 := VS0_3.read (Elt F) (VS0_3.writes (Elt F) VS0_3.junk (runC).2.2.2.2.2.1)

end caseC

end perCase

/-! ## The conditions at a grid point, from its position -/

theorem cA0 (t : Fin cfg0.N) (h0 : t.val % 25 = 0) : cond0_0 (grid0.coords t) := (hcond0_0 t).mpr h0
theorem cA1 (t : Fin cfg0.N) (h0 : t.val % 25 = 0) : ¬cond0_1 (grid0.coords t) :=
  fun h => absurd ((hcond0_1 t).mp h) (by omega)
theorem cN0 (t : Fin cfg0.N) (h0 : ¬t.val % 25 = 0) : ¬cond0_0 (grid0.coords t) := fun h => h0 ((hcond0_0 t).mp h)
theorem cN1 (t : Fin cfg0.N) (h1 : ¬t.val % 25 = 24) : ¬cond0_1 (grid0.coords t) := fun h => h1 ((hcond0_1 t).mp h)
theorem cC1 (t : Fin cfg0.N) (h1 : t.val % 25 = 24) : cond0_1 (grid0.coords t) := (hcond0_1 t).mpr h1

/-! ## What the results and the accumulators hold after each point -/

-- a per-case quantity f of core cc at grid point t: at the point's coordinates, each window's current staging
-- buffer there, and the four accumulator buffers
local notation "atPt[" f ", " cc ", " t "]" => f cc (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)

/-- The six contents after a point of case A (the two result windows, then the four accumulators): the results are
    not stored at such a point — a placeholder nothing consults stands for them —, each accumulator is what case A
    leaves from the point's five input blocks. -/
def at0_A (c : Dev nD) (t : Fin cfg0.N) (h0 : t.val % 25 = 0) :
    Vec F S1x1x1024 .f32 × Vec F S1x1x1024 .f32 × Vec F S1x1024 .f32 × Vec F S1x1024 .f32 × Vec F S1x1024 .f32 × Vec F S1x1024 .f32 :=
  (VO0_5.read (Elt F) VO0_5.junk, VO0_6.read (Elt F) VO0_6.junk,
   atPt[sout0_A_0, c, t] (cA0 t h0) (cA1 t h0) (iblk m c 0 t) (iblk m c 1 t) (iblk m c 2 t) (iblk m c 3 t) (iblk m c 4 t),
   atPt[sout0_A_1, c, t] (cA0 t h0) (cA1 t h0) (iblk m c 0 t) (iblk m c 1 t) (iblk m c 2 t) (iblk m c 3 t) (iblk m c 4 t),
   atPt[sout0_A_2, c, t] (cA0 t h0) (cA1 t h0) (iblk m c 0 t) (iblk m c 1 t) (iblk m c 2 t) (iblk m c 3 t) (iblk m c 4 t),
   atPt[sout0_A_3, c, t] (cA0 t h0) (cA1 t h0) (iblk m c 0 t) (iblk m c 1 t) (iblk m c 2 t) (iblk m c 3 t) (iblk m c 4 t))

/-- The six contents after a point of case B, the accumulators on entry at xs0 … xs3: the results again a
    placeholder, each accumulator what case B leaves. -/
def at0_B (c : Dev nD) (t : Fin cfg0.N) (h0 : ¬t.val % 25 = 0) (h1 : ¬t.val % 25 = 24) (xs0 xs1 xs2 xs3 : Vec F S1x1024 .f32) :
    Vec F S1x1x1024 .f32 × Vec F S1x1x1024 .f32 × Vec F S1x1024 .f32 × Vec F S1x1024 .f32 × Vec F S1x1024 .f32 × Vec F S1x1024 .f32 :=
  (VO0_5.read (Elt F) VO0_5.junk, VO0_6.read (Elt F) VO0_6.junk,
   atPt[sout0_B_0, c, t] (cN0 t h0) (cN1 t h1) (iblk m c 0 t) (iblk m c 1 t) (iblk m c 2 t) (iblk m c 3 t) (iblk m c 4 t) xs0 xs1 xs2 xs3,
   atPt[sout0_B_1, c, t] (cN0 t h0) (cN1 t h1) (iblk m c 0 t) (iblk m c 1 t) (iblk m c 2 t) (iblk m c 3 t) (iblk m c 4 t) xs0 xs1 xs2 xs3,
   atPt[sout0_B_2, c, t] (cN0 t h0) (cN1 t h1) (iblk m c 0 t) (iblk m c 1 t) (iblk m c 2 t) (iblk m c 3 t) (iblk m c 4 t) xs0 xs1 xs2 xs3,
   atPt[sout0_B_3, c, t] (cN0 t h0) (cN1 t h1) (iblk m c 0 t) (iblk m c 1 t) (iblk m c 2 t) (iblk m c 3 t) (iblk m c 4 t) xs0 xs1 xs2 xs3)

/-- The six contents after a point of case C, the accumulators on entry at xs0 … xs3: each result window and each
    accumulator what case C leaves. -/
def at0_C (c : Dev nD) (t : Fin cfg0.N) (h0 : ¬t.val % 25 = 0) (h1 : t.val % 25 = 24) (xs0 xs1 xs2 xs3 : Vec F S1x1024 .f32) :
    Vec F S1x1x1024 .f32 × Vec F S1x1x1024 .f32 × Vec F S1x1024 .f32 × Vec F S1x1024 .f32 × Vec F S1x1024 .f32 × Vec F S1x1024 .f32 :=
  (atPt[out0_C_5, c, t] (cN0 t h0) (cC1 t h1) (iblk m c 0 t) (iblk m c 1 t) (iblk m c 2 t) (iblk m c 3 t) (iblk m c 4 t) xs0 xs1 xs2 xs3,
   atPt[out0_C_6, c, t] (cN0 t h0) (cC1 t h1) (iblk m c 0 t) (iblk m c 1 t) (iblk m c 2 t) (iblk m c 3 t) (iblk m c 4 t) xs0 xs1 xs2 xs3,
   atPt[sout0_C_0, c, t] (cN0 t h0) (cC1 t h1) (iblk m c 0 t) (iblk m c 1 t) (iblk m c 2 t) (iblk m c 3 t) (iblk m c 4 t) xs0 xs1 xs2 xs3,
   atPt[sout0_C_1, c, t] (cN0 t h0) (cC1 t h1) (iblk m c 0 t) (iblk m c 1 t) (iblk m c 2 t) (iblk m c 3 t) (iblk m c 4 t) xs0 xs1 xs2 xs3,
   atPt[sout0_C_2, c, t] (cN0 t h0) (cC1 t h1) (iblk m c 0 t) (iblk m c 1 t) (iblk m c 2 t) (iblk m c 3 t) (iblk m c 4 t) xs0 xs1 xs2 xs3,
   atPt[sout0_C_3, c, t] (cN0 t h0) (cC1 t h1) (iblk m c 0 t) (iblk m c 1 t) (iblk m c 2 t) (iblk m c 3 t) (iblk m c 4 t) xs0 xs1 xs2 xs3)

/-- THE ACCUMULATION. What the two result windows' buffers and the four accumulators hold after the body at position
    n: the contents of the case the position selects (n ≡ 0 mod 25: A; n ≡ 24: C; else B), from the point's input
    blocks and, in B and C, the accumulators as position n - 1 left them. -/
def outsAt0 (c : Dev nD) : (n : ℕ) → n < cfg0.N →
    Vec F S1x1x1024 .f32 × Vec F S1x1x1024 .f32 × Vec F S1x1024 .f32 × Vec F S1x1024 .f32 × Vec F S1x1024 .f32 × Vec F S1x1024 .f32
  | 0, hn => at0_A m c ⟨0, hn⟩ (Nat.zero_mod 25)
  | n + 1, hn =>
    if h0 : (n + 1) % 25 = 0 then
      at0_A m c ⟨n + 1, hn⟩ h0
    else
      if h1 : (n + 1) % 25 = 24 then
        at0_C m c ⟨n + 1, hn⟩ h0 h1 (outsAt0 c n (Nat.lt_of_succ_lt hn)).2.2.1 (outsAt0 c n (Nat.lt_of_succ_lt hn)).2.2.2.1
          (outsAt0 c n (Nat.lt_of_succ_lt hn)).2.2.2.2.1 (outsAt0 c n (Nat.lt_of_succ_lt hn)).2.2.2.2.2
      else
        at0_B m c ⟨n + 1, hn⟩ h0 h1 (outsAt0 c n (Nat.lt_of_succ_lt hn)).2.2.1 (outsAt0 c n (Nat.lt_of_succ_lt hn)).2.2.2.1
          (outsAt0 c n (Nat.lt_of_succ_lt hn)).2.2.2.2.1 (outsAt0 c n (Nat.lt_of_succ_lt hn)).2.2.2.2.2

/-- The position before t's is inside the grid. -/
theorem pred_lt (t : Fin cfg0.N) : t.val - 1 < cfg0.N := Nat.lt_of_le_of_lt (Nat.sub_le _ _) t.isLt

/-- At a point of case A: that case's contents. -/
theorem outsAt0_A (c : Dev nD) (t : Fin cfg0.N) (h0 : t.val % 25 = 0) :
    outsAt0 m c t.val t.isLt = at0_A m c t h0 := by
  obtain ⟨n, hn⟩ := t
  cases n with
  | zero => exact rfl
  | succ n => exact (dif_pos h0).trans rfl

/-- At a point of case B: that case's contents, over the accumulators the point before left. -/
theorem outsAt0_B (c : Dev nD) (t : Fin cfg0.N) (h0 : ¬t.val % 25 = 0) (h1 : ¬t.val % 25 = 24) :
    outsAt0 m c t.val t.isLt = at0_B m c t h0 h1 (outsAt0 m c (t.val - 1) (pred_lt t)).2.2.1 (outsAt0 m c (t.val - 1) (pred_lt t)).2.2.2.1
      (outsAt0 m c (t.val - 1) (pred_lt t)).2.2.2.2.1 (outsAt0 m c (t.val - 1) (pred_lt t)).2.2.2.2.2 := by
  obtain ⟨n, hn⟩ := t
  cases n with
  | zero => exact absurd (Nat.zero_mod 25) h0
  | succ n => exact (dif_neg h0).trans ((dif_neg h1).trans rfl)

/-- At a point of case C: that case's contents, over the accumulators the point before left. -/
theorem outsAt0_C (c : Dev nD) (t : Fin cfg0.N) (h0 : ¬t.val % 25 = 0) (h1 : t.val % 25 = 24) :
    outsAt0 m c t.val t.isLt = at0_C m c t h0 h1 (outsAt0 m c (t.val - 1) (pred_lt t)).2.2.1 (outsAt0 m c (t.val - 1) (pred_lt t)).2.2.2.1
      (outsAt0 m c (t.val - 1) (pred_lt t)).2.2.2.2.1 (outsAt0 m c (t.val - 1) (pred_lt t)).2.2.2.2.2 := by
  obtain ⟨n, hn⟩ := t
  cases n with
  | zero => exact absurd (Nat.zero_mod 25) h0
  | succ n => exact (dif_neg h0).trans ((dif_pos h1).trans rfl)

/-! ## The region's invariant: the four accumulators at what the point before left -/

/-- Before the first point the accumulators hold anything; before a later point each holds what the point before
    left in it; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1)
      ∗ owns (c : Thread nD τ) scM0_1 fullShare ((outsAt0 m c n hn).2.2.2.1)
      ∗ owns (c : Thread nD τ) scM0_2 fullShare ((outsAt0 m c n hn).2.2.2.2.1)
      ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulators at that point's contents. -/
theorem PhiS_succ (c : Dev nD) (n : ℕ) (hn : n < cfg0.N) :
    PhiS m c (n + 1) hn = iprop(iprop(owns (c : Thread nD τ) scM0_0 fullShare ((outsAt0 m c n hn).2.2.1)
      ∗ owns (c : Thread nD τ) scM0_1 fullShare ((outsAt0 m c n hn).2.2.2.1)
      ∗ owns (c : Thread nD τ) scM0_2 fullShare ((outsAt0 m c n hn).2.2.2.2.1)
      ∗ owns (c : Thread nD τ) scM0_3 fullShare ((outsAt0 m c n hn).2.2.2.2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1)
      ∗ owns (c : Thread nD τ) scM0_1 fullShare ((outsAt0 m c (n - 1) (by omega)).2.2.2.1)
      ∗ owns (c : Thread nD τ) scM0_2 fullShare ((outsAt0 m c (n - 1) (by omega)).2.2.2.2.1)
      ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The proof data of the pipeline on core c: the arrays as the region finds them; after the body at point t each
    input's buffer at its block, the two results' at the accumulation's first two components; the invariant the
    accumulators' (PhiS); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point t: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position says which case the point is in. The
    invariant hands the body the four accumulators — at anything before the first point, else at what the point
    before left — and takes them back at this point's contents, each read off its covering stores. Away from a half's
    last tile the two result buffers pass through untouched; at it they are stored whole and read off their covering
    stores. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 50 := lt_of_lt_of_eq t.isLt (show cfg0.N = 50 from N_0)
  by_cases h0 : t.val % 25 = 0
  · -- case A: the accumulators restarted, the results passed through
    rw [Dat.leavesExact_idle (dats m 0 c) 5 t (idleAt0_5 t (cA1 t h0)) (noFlush0_5 t (cA1 t h0))]
    rw [Dat.leavesExact_idle (dats m 0 c) 6 t (idleAt0_6 t (cA1 t h0)) (noFlush0_6 t (cA1 t h0))]
    rw [outsAt0_A m c t h0]
    unfold at0_A sout0_A_0 sout0_A_1 sout0_A_2 sout0_A_3; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ (cA0 t h0) (cA1 t h0) (iblk m c 0 t) (iblk m c 1 t) (iblk m c 2 t) (iblk m c 3 t) (iblk m c 4 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ (cA0 t h0) (cA1 t h0) (iblk m c 0 t) (iblk m c 1 t) (iblk m c 2 t) (iblk m c 3 t) (iblk m c 4 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun hz => h0 (by rw [hz])
    by_cases h1 : t.val % 25 = 24
    · -- case C: the accumulators updated, the two results stored whole
      rw [show (dats m 0 c).leavesExact 5 t = owns (c : Thread nD τ) (ms0_5 t) fullShare ((dats m 0 c).after 5 t) from by
        unfold Dat.leavesExact; rw [liveAt0_5 t (cC1 t h1)], after0_5]
      rw [show (dats m 0 c).leavesExact 6 t = owns (c : Thread nD τ) (ms0_6 t) fullShare ((dats m 0 c).after 6 t) from by
        unfold Dat.leavesExact; rw [liveAt0_6 t (cC1 t h1)], after0_6]
      rw [outsAt0_C m c t h0 h1]
      unfold at0_C out0_C_5 out0_C_6 sout0_C_0 sout0_C_1 sout0_C_2 sout0_C_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ (cN0 t h0) (cC1 t h1) (iblk m c 0 t) (iblk m c 1 t) (iblk m c 2 t) (iblk m c 3 t) (iblk m c 4 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_C_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _ _)
    · -- case B: the accumulators updated, the results passed through
      rw [Dat.leavesExact_idle (dats m 0 c) 5 t (idleAt0_5 t (cN1 t h1)) (noFlush0_5 t (cN1 t h1))]
      rw [Dat.leavesExact_idle (dats m 0 c) 6 t (idleAt0_6 t (cN1 t h1)) (noFlush0_6 t (cN1 t h1))]
      rw [outsAt0_B m c t h0 h1]
      unfold at0_B sout0_B_0 sout0_B_1 sout0_B_2 sout0_B_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (cN0 t h0) (cN1 t h1) (iblk m c 0 t) (iblk m c 1 t) (iblk m c 2 t) (iblk m c 3 t) (iblk m c 4 t) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option maxHeartbeats 4000000 in
set_option backward.isDefEq.respectTransparency.types false in
/-- From any memory with zero counters, every weakly fair execution of the whole program terminates, and every final
    state has each array of the pipeline at what the proof data computes and every other buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

set_option maxHeartbeats 4000000 in
/-- THE FRAME: the program runs, and each of its seven argument arrays ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.KI.Pieces.lean ====
/-
  What each run of the kernel body leaves in the buffers it stores into, as the body's own payloads of the five input
  blocks and of the four accumulators' contents on entry. A buffer the body stores into WHOLE reads back, over any
  prior contents, as the payload of its last store; a payload's arguments are the whole inputs as loaded, and — where
  an accumulator is loaded after a store into it in the same run — that store's payload. At the first tile of a half
  the accumulators' contents on entry are the restart values; at the last tile the two results are computed from the
  accumulators as just updated.
-/
import proofs.«405701_j335007449569_3_alg».proof.Proof.KI.RunB
import proofs.«405701_j335007449569_3_alg».proof.Proof.KI.RunC
import proofs.«405701_j335007449569_3_alg».proof.Proof.KI.RunA
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of an access to a whole buffer of two axes are zero on every axis. -/
theorem off2 : (![0, 0] : Fin 2 → Nat) = fun _ => 0 := by funext a; fin_cases a <;> rfl
/-- The same for a buffer of three axes. -/
theorem off3 : (![0, 0, 0] : Fin 3 → Nat) = fun _ => 0 := by funext a; fin_cases a <;> rfl

/-! ## Case B: at a middle tile of a half -/

/-- What the body leaves in the first vocabulary's running maximum at a middle tile of a half, read back: the update of the value the tile before left by the tile's
    block of scores. -/
theorem piece_B_0 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg9.view.read (Elt F) (arg9.view.writes (Elt F) arg9.view.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1) = k0_pay15 x0 x1 x2 xs0 := by
  rw [View.read_writes_junk_eq_canon]
  unfold kernelRun0_B; dsimp only
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the first vocabulary's running sum at a middle tile of a half, read back: the update of the value the tile before left by the tile's
    block of scores. -/
theorem piece_B_1 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg10.view.read (Elt F) (arg10.view.writes (Elt F) arg10.view.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1) = k0_pay14 x0 x1 x2 xs0 xs0 xs1 := by
  rw [View.read_writes_junk_eq_canon]
  unfold kernelRun0_B; dsimp only
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the second vocabulary's running maximum at a middle tile of a half, read back: the update of the value the tile before left by the tile's
    block of scores. -/
theorem piece_B_2 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg11.view.read (Elt F) (arg11.view.writes (Elt F) arg11.view.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1) = k0_pay4 (k0_pay11 x0) x3 x4 xs2 := by
  rw [View.read_writes_junk_eq_canon]
  unfold kernelRun0_B; dsimp only
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the second vocabulary's running sum at a middle tile of a half, read back: the update of the value the tile before left by the tile's
    block of scores. -/
theorem piece_B_3 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg12.view.read (Elt F) (arg12.view.writes (Elt F) arg12.view.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1) = k0_pay3 (k0_pay11 x0) x3 x4 xs2 xs2 xs3 := by
  rw [View.read_writes_junk_eq_canon]
  unfold kernelRun0_B; dsimp only
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-! ## Case C: at the last tile of a half -/

/-- What the body leaves in the first vocabulary's running maximum at the last tile of a half, read back: the update of the value the tile before left by the tile's
    block of scores. -/
theorem piece_C_0 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg9.view.read (Elt F) (arg9.view.writes (Elt F) arg9.view.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1) = k0_pay15 x0 x1 x2 xs0 := by
  rw [View.read_writes_junk_eq_canon]
  unfold kernelRun0_C; dsimp only
  sl_unfold_words
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the first vocabulary's running sum at the last tile of a half, read back: the update of the value the tile before left by the tile's
    block of scores. -/
theorem piece_C_1 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg10.view.read (Elt F) (arg10.view.writes (Elt F) arg10.view.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1) = k0_pay14 x0 x1 x2 xs0 xs0 xs1 := by
  rw [View.read_writes_junk_eq_canon]
  unfold kernelRun0_C; dsimp only
  sl_unfold_words
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the second vocabulary's running maximum at the last tile of a half, read back: the update of the value the tile before left by the tile's
    block of scores. -/
theorem piece_C_2 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg11.view.read (Elt F) (arg11.view.writes (Elt F) arg11.view.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1) = k0_pay4 (k0_pay11 x0) x3 x4 xs2 := by
  rw [View.read_writes_junk_eq_canon]
  unfold kernelRun0_C; dsimp only
  sl_unfold_words
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the second vocabulary's running sum at the last tile of a half, read back: the update of the value the tile before left by the tile's
    block of scores. -/
theorem piece_C_3 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg12.view.read (Elt F) (arg12.view.writes (Elt F) arg12.view.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1) = k0_pay3 (k0_pay11 x0) x3 x4 xs2 xs2 xs3 := by
  rw [View.read_writes_junk_eq_canon]
  unfold kernelRun0_C; dsimp only
  sl_unfold_words
  rw [View.canon_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the first vocabulary's result (running maximum plus the logarithm of the running sum) at the last tile of a half, read back: the result computed from the two accumulators as just updated by the tile's
    block of scores. -/
theorem piece_C_5 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg7.view.read (Elt F) (arg7.view.writes (Elt F) arg7.view.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1) = k0_pay5 (k0_pay15 x0 x1 x2 xs0) (k0_pay14 x0 x1 x2 xs0 xs0 xs1) := by
  rw [View.read_writes_junk_eq_canon]
  unfold kernelRun0_C; dsimp only
  sl_unfold_words
  rw [View.canon_unit_zero (S := S1x1x1024) off3]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the second vocabulary's result (running maximum plus the logarithm of the running sum) at the last tile of a half, read back: the result computed from the two accumulators as just updated by the tile's
    block of scores. -/
theorem piece_C_6 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x300 .bf16) (x1 : Vec F S1000x300 .f32) (x2 : Vec F S1000x1 .f32) (x3 : Vec F S1000x300 .f32) (x4 : Vec F S1000x1 .f32) (xs0 xs1 xs2 xs3 : Vec F S1x1024 .f32) :
    arg8.view.read (Elt F) (arg8.view.writes (Elt F) arg8.view.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1) = k0_pay6 (k0_pay4 (k0_pay11 x0) x3 x4 xs2) (k0_pay3 (k0_pay11 x0) x3 x4 xs2 xs2 xs3) := by
  rw [View.read_writes_junk_eq_canon]
  unfold kernelRun0_C; dsimp only
  sl_unfold_words
  rw [View.canon_unit_zero (S := S1x1x1024) off3]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-! ## Case A: at the first tile of a half -/

/-- What the body leaves in the first vocabulary's running maximum at the first tile of a half, read back: the update of the restarted value (−∞ for a maximum, 0 for a sum) by the tile's
    block of scores. -/
theorem piece_A_0 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x300 .bf16) (x1 : Vec F S1000x300 .f32) (x2 : Vec F S1000x1 .f32) (x3 : Vec F S1000x300 .f32) (x4 : Vec F S1000x1 .f32) :
    arg9.view.read (Elt F) (arg9.view.writes (Elt F) arg9.view.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1) = k0_pay15 x0 x1 x2 (k0_pay7 (F := F)) := by
  rw [View.read_writes_junk_eq_canon]
  unfold kernelRun0_A; dsimp only
  sl_unfold_words
  rw [View.canon_cons_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the first vocabulary's running sum at the first tile of a half, read back: the update of the restarted value (−∞ for a maximum, 0 for a sum) by the tile's
    block of scores. -/
theorem piece_A_1 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x300 .bf16) (x1 : Vec F S1000x300 .f32) (x2 : Vec F S1000x1 .f32) (x3 : Vec F S1000x300 .f32) (x4 : Vec F S1000x1 .f32) :
    arg10.view.read (Elt F) (arg10.view.writes (Elt F) arg10.view.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.1) = k0_pay14 x0 x1 x2 (k0_pay7 (F := F)) (k0_pay7 (F := F)) (k0_pay8 (F := F)) := by
  rw [View.read_writes_junk_eq_canon]
  unfold kernelRun0_A; dsimp only
  sl_unfold_words
  rw [View.canon_cons_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the second vocabulary's running maximum at the first tile of a half, read back: the update of the restarted value (−∞ for a maximum, 0 for a sum) by the tile's
    block of scores. -/
theorem piece_A_2 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x300 .bf16) (x1 : Vec F S1000x300 .f32) (x2 : Vec F S1000x1 .f32) (x3 : Vec F S1000x300 .f32) (x4 : Vec F S1000x1 .f32) :
    arg11.view.read (Elt F) (arg11.view.writes (Elt F) arg11.view.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.1) = k0_pay4 (k0_pay11 x0) x3 x4 (k0_pay9 (F := F)) := by
  rw [View.read_writes_junk_eq_canon]
  unfold kernelRun0_A; dsimp only
  sl_unfold_words
  rw [View.canon_cons_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

/-- What the body leaves in the second vocabulary's running sum at the first tile of a half, read back: the update of the restarted value (−∞ for a maximum, 0 for a sum) by the tile's
    block of scores. -/
theorem piece_A_3 (c : Dev nD) (i : grid0.Coords) (arg2 : Memref sig .tc .vmem S1024x300 .bf16) (harg2 : arg2.IsWhole) (arg3 : Memref sig .tc .vmem S1000x300 .f32) (harg3 : arg3.IsWhole) (arg4 : Memref sig .tc .vmem S1000x1 .f32) (harg4 : arg4.IsWhole) (arg5 : Memref sig .tc .vmem S1000x300 .f32) (harg5 : arg5.IsWhole) (arg6 : Memref sig .tc .vmem S1000x1 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x300 .bf16) (x1 : Vec F S1000x300 .f32) (x2 : Vec F S1000x1 .f32) (x3 : Vec F S1000x300 .f32) (x4 : Vec F S1000x1 .f32) :
    arg12.view.read (Elt F) (arg12.view.writes (Elt F) arg12.view.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1) = k0_pay3 (k0_pay11 x0) x3 x4 (k0_pay9 (F := F)) (k0_pay9 (F := F)) (k0_pay10 (F := F)) := by
  rw [View.read_writes_junk_eq_canon]
  unfold kernelRun0_A; dsimp only
  sl_unfold_words
  rw [View.canon_cons_unit_zero (S := S1x1024) off2]
  simp only [View.readAt_eq_ld, Memref.IsWhole.read_unread, View.readCov_unit_zero (S := S1x1024) _ off2, View.ld_unit_zero (S := S1024x300) off2, View.ld_unit_zero (S := S1000x300) off2, View.ld_unit_zero (S := S1000x1) off2, View.ld_unit_zero (S := S1x1024) off2]

end Cert.KernelIdeal.Fr

end
-- ==== Proof.Spec.lean ====
/-
  The mathematics of the decoder loss, over the reals, with no program in sight.

  A batch row's SCORE for vocabulary row `v` is the row's dot product with the hidden vector plus the row's bias
  (`logit`). The loss is the mean over the 1024 batch rows of the two vocabularies' masked negative log-likelihoods:
  for each of a row's 64 target tokens that is not the padding token `0`, the log-sum-exp of the row's 50000 scores
  minus the target's score (`nll`, `loss`).

  The 50000 vocabulary rows are cut into 50 TILES of 1000 rows, 25 tiles to each half of the vocabulary. A half's
  log-sum-exp can be accumulated tile by tile as a running pair: a shift `mAfter` (the maximum so far) and the sum
  `lAfter` of the exponentials of the scores seen so far, each taken relative to the current shift; passing to a new
  shift rescales the old sum by the exponential of the shifts' difference. The pair restarts at the first tile of each
  half (the tiles `0` and `25`).
-/
import Idealize.ShloMosaic.PureOps.Ideal

noncomputable section

namespace Cert.Spec

open scoped BigOperators

/-- The score of vocabulary row `v` for batch row `b`. -/
def logit (z : Fin 1024 → Fin 300 → ℝ) (e : Fin 50000 → Fin 300 → ℝ) (β : Fin 50000 → ℝ) (b : Fin 1024) (v : Fin 50000) : ℝ :=
  (∑ d, e v d * z b d) + β v

/-- A score vector read at a natural number (zero past the vocabulary's end, which no tile reaches). -/
def xN (x : Fin 50000 → ℝ) (v : ℕ) : ℝ := if h : v < 50000 then x ⟨v, h⟩ else 0

/-- The log-sum-exp of a score vector. -/
def lse (x : Fin 50000 → ℝ) : ℝ := Real.log (∑ v, Real.exp (x v))

/-- The largest score of tile `t` (rows `1000 t … 1000 t + 999`). -/
def tileMax (x : Fin 50000 → ℝ) (t : ℕ) : ℝ :=
  (Finset.univ : Finset (Fin 1000)).sup' Finset.univ_nonempty fun r => xN x (1000 * t + r.val)

/-- The sum over tile `t` of the exponentials of its scores relative to the shift `μ`. -/
def tileSum (x : Fin 50000 → ℝ) (t : ℕ) (μ : ℝ) : ℝ := ∑ r : Fin 1000, Real.exp (xN x (1000 * t + r.val) - μ)

/-- The running shift after tile `t`: restarted at the first tile of each half. -/
def mAfter (x : Fin 50000 → ℝ) : ℕ → ℝ
  | 0 => tileMax x 0
  | t + 1 => if (t + 1) % 25 = 0 then tileMax x (t + 1) else max (mAfter x t) (tileMax x (t + 1))

/-- The running sum after tile `t`, relative to `mAfter x t`: restarted at the first tile of each half, otherwise
    the old sum rescaled to the new shift plus the tile's own sum. -/
def lAfter (x : Fin 50000 → ℝ) : ℕ → ℝ
  | 0 => tileSum x 0 (mAfter x 0)
  | t + 1 => if (t + 1) % 25 = 0 then tileSum x (t + 1) (mAfter x (t + 1))
      else Real.exp (mAfter x t - mAfter x (t + 1)) * lAfter x t + tileSum x (t + 1) (mAfter x (t + 1))

/-- The log-sum-exp of half `h` of the vocabulary (tiles `25 h … 25 h + 24`). -/
def lseHalf (x : Fin 50000 → ℝ) (h : ℕ) : ℝ :=
  Real.log (∑ k : Fin 25, ∑ r : Fin 1000, Real.exp (xN x (1000 * (25 * h + k.val) + r.val)))

/-- The padding mask of a token: `0` for the padding token `0`, else `1`. -/
def msk (t : Fin 50000) : ℝ := if t.val = 0 then 0 else 1

/-- A row's masked negative log-likelihood over its 64 target tokens. -/
def nll (x : Fin 50000 → ℝ) (tok : Fin 64 → Fin 50000) : ℝ := ∑ l, msk (tok l) * (lse x - x (tok l))

/-- The loss: the batch mean of the two vocabularies' masked negative log-likelihoods. -/
def loss (z : Fin 1024 → Fin 300 → ℝ) (ex : Fin 50000 → Fin 300 → ℝ) (βx : Fin 50000 → ℝ)
    (ey : Fin 50000 → Fin 300 → ℝ) (βy : Fin 50000 → ℝ) (tx ty : Fin 1024 → Fin 64 → Fin 50000) : ℝ :=
  (∑ b, (nll (logit z ex βx b) (tx b) + nll (logit z ey βy b) (ty b))) / 1024

end Cert.Spec

end
-- ==== Proof.SpecLaws.lean ====
/-
  The real-number laws of the specification.

  Everything here is arithmetic over the reals: the two-term and the many-term log-sum-exp can be taken relative to
  any shift; the running pair (shift, rescaled sum) of a half of the vocabulary keeps, after each tile, the sum of the
  exponentials of all scores seen so far relative to the current shift; the two halves' log-sum-exps combine into the
  whole vocabulary's; and the masked negative log-likelihood can be written with the token sums pulled through the
  dot product.
-/
import proofs.«405701_j335007449569_3_alg».proof.Proof.Spec

noncomputable section

namespace Cert.Spec

open scoped BigOperators

/-! ### The two-term log-sum-exp -/

/-- Taking the exponential of `m` out of a two-term sum: `m + log (1 + e^(c-m)) = log (e^m + e^c)`. -/
theorem add_log_one_add_exp (m c : ℝ) :
    m + Real.log (1 + Real.exp (c - m)) = Real.log (Real.exp m + Real.exp c) := by
  have h1 : (0 : ℝ) < 1 + Real.exp (c - m) := by positivity
  have h2 : Real.exp m + Real.exp c = Real.exp m * (1 + Real.exp (c - m)) := by
    rw [mul_add, mul_one, ← Real.exp_add]
    congr 2
    ring
  rw [h2, Real.log_mul (Real.exp_pos m).ne' h1.ne', Real.log_exp]

/-- The stable two-term log-sum-exp: the larger argument plus `log (1 + e^(-|a-b|))`. -/
theorem logaddexp_eq (a b : ℝ) :
    max a b + Real.log (1 + Real.exp (-|a - b|)) = Real.log (Real.exp a + Real.exp b) := by
  rcases le_total a b with h | h
  · have e : -|a - b| = a - b := by rw [abs_of_nonpos (sub_nonpos.mpr h), neg_neg]
    rw [max_eq_right h, e, add_log_one_add_exp b a, add_comm]
  · have e : -|a - b| = b - a := by rw [abs_of_nonneg (sub_nonneg.mpr h), neg_sub]
    rw [max_eq_left h, e, add_log_one_add_exp a b]

/-! ### The many-term log-sum-exp relative to a shift -/

/-- A sum of exponentials over the vocabulary is positive. -/
theorem sum_exp_pos (x : Fin 50000 → ℝ) (M : ℝ) : 0 < ∑ v, Real.exp (x v - M) :=
  Finset.sum_pos (fun v _ => Real.exp_pos _) Finset.univ_nonempty

/-- The log-sum-exp may be taken relative to any shift `M`. -/
theorem shifted_lse (x : Fin 50000 → ℝ) (M : ℝ) :
    M + Real.log (∑ v, Real.exp (x v - M)) = lse x := by
  unfold lse
  have h : ∑ v, Real.exp (x v) = Real.exp M * ∑ v, Real.exp (x v - M) := by
    rw [Finset.mul_sum]
    refine Finset.sum_congr rfl fun v _ => ?_
    rw [← Real.exp_add]
    congr 1
    ring
  rw [h, Real.log_mul (Real.exp_pos M).ne' (sum_exp_pos x M).ne', Real.log_exp]

/-- The masked negative log-likelihood, written with shifted scores and the shifted log-sum. -/
theorem nll_ref_form (x : Fin 50000 → ℝ) (tok : Fin 64 → Fin 50000) (M : ℝ) :
    (∑ l, (-((x (tok l) - M) - Real.log (∑ v, Real.exp (x v - M)))) * msk (tok l)) = nll x tok := by
  unfold nll
  refine Finset.sum_congr rfl fun l _ => ?_
  rw [← shifted_lse x M]
  ring

/-- The masked negative log-likelihood of the scores `logit z e β b`, with the sums over the target tokens pulled
    through the dot product and the bias. -/
theorem nll_kernel_form (z : Fin 1024 → Fin 300 → ℝ) (e : Fin 50000 → Fin 300 → ℝ) (β : Fin 50000 → ℝ)
    (b : Fin 1024) (tok : Fin 64 → Fin 50000) (L : ℝ) :
    (∑ l, msk (tok l)) * L - (∑ d, (∑ l, e (tok l) d * msk (tok l)) * z b d) - (∑ l, β (tok l) * msk (tok l))
      = ∑ l, msk (tok l) * (L - logit z e β b (tok l)) := by
  unfold logit
  have h1 : (∑ d, (∑ l, e (tok l) d * msk (tok l)) * z b d)
      = ∑ l, msk (tok l) * ∑ d, e (tok l) d * z b d := by
    simp_rw [Finset.sum_mul, Finset.mul_sum]
    rw [Finset.sum_comm]
    refine Finset.sum_congr rfl fun l _ => Finset.sum_congr rfl fun d _ => ?_
    ring
  rw [h1, Finset.sum_mul, ← Finset.sum_sub_distrib, ← Finset.sum_sub_distrib]
  refine Finset.sum_congr rfl fun l _ => ?_
  ring

/-! ### A tile's maximum -/

/-- A tile's maximum is attained at one of its rows. -/
theorem tileMax_mem (x : Fin 50000 → ℝ) (t : ℕ) : ∃ r : Fin 1000, tileMax x t = xN x (1000 * t + r.val) := by
  obtain ⟨r, _, hr⟩ := Finset.exists_mem_eq_sup' (s := (Finset.univ : Finset (Fin 1000))) Finset.univ_nonempty
    (fun r : Fin 1000 => xN x (1000 * t + r.val))
  exact ⟨r, hr⟩

/-- Every row of a tile is at most the tile's maximum. -/
theorem le_tileMax (x : Fin 50000 → ℝ) (t : ℕ) (r : Fin 1000) : xN x (1000 * t + r.val) ≤ tileMax x t :=
  Finset.le_sup' (fun r : Fin 1000 => xN x (1000 * t + r.val)) (Finset.mem_univ r)

/-! ### The running pair -/

/-- A tile's sum of exponentials is positive. -/
theorem tileSum_pos (x : Fin 50000 → ℝ) (t : ℕ) (μ : ℝ) : 0 < tileSum x t μ :=
  Finset.sum_pos (fun r _ => Real.exp_pos _) Finset.univ_nonempty

/-- Passing from the shift `μ` to the shift `μ'` rescales a tile's sum by `e^(μ - μ')`. -/
theorem tileSum_rescale (x : Fin 50000 → ℝ) (t : ℕ) (μ μ' : ℝ) :
    Real.exp (μ - μ') * tileSum x t μ = tileSum x t μ' := by
  unfold tileSum
  rw [Finset.mul_sum]
  refine Finset.sum_congr rfl fun r _ => ?_
  rw [← Real.exp_add]
  congr 1
  ring

/-- At the first tile of a half the running sum is the tile's own sum. -/
theorem lAfter_restart (x : Fin 50000 → ℝ) : ∀ t : ℕ, t % 25 = 0 → lAfter x t = tileSum x t (mAfter x t)
  | 0, _ => by rw [lAfter]
  | t + 1, h => by rw [lAfter, if_pos h]

/-- Inside a half the running sum is the old one rescaled plus the tile's own sum. -/
theorem lAfter_step (x : Fin 50000 → ℝ) (t : ℕ) (h : (t + 1) % 25 ≠ 0) :
    lAfter x (t + 1)
      = Real.exp (mAfter x t - mAfter x (t + 1)) * lAfter x t + tileSum x (t + 1) (mAfter x (t + 1)) := by
  rw [lAfter, if_neg h]

/-- The running sum is positive. -/
theorem lAfter_pos (x : Fin 50000 → ℝ) (t : ℕ) : 0 < lAfter x t := by
  induction t with
  | zero => rw [lAfter_restart x 0 rfl]; exact tileSum_pos x _ _
  | succ t ih =>
    by_cases h : (t + 1) % 25 = 0
    · rw [lAfter_restart x (t + 1) h]; exact tileSum_pos x _ _
    · rw [lAfter_step x t h]
      exact add_pos (mul_pos (Real.exp_pos _) ih) (tileSum_pos x _ _)

/-- The invariant of the running pair: after tile `25 h + k` of half `h` the running sum is the sum, over the
    tiles of the half seen so far, of their sums relative to the current shift. -/
theorem lAfter_eq (x : Fin 50000 → ℝ) (h k : ℕ) (hk : k < 25) :
    lAfter x (25 * h + k)
      = ∑ j ∈ Finset.range (k + 1), tileSum x (25 * h + j) (mAfter x (25 * h + k)) := by
  induction k with
  | zero =>
    rw [Finset.sum_range_one]
    exact lAfter_restart x (25 * h + 0) (by omega)
  | succ k ih =>
    have hne : (25 * h + k + 1) % 25 ≠ 0 := by omega
    have ih' := ih (by omega)
    show lAfter x (25 * h + k + 1) = _
    rw [lAfter_step x (25 * h + k) hne, ih', Finset.mul_sum, Finset.sum_range_succ _ (k + 1)]
    congr 1
    refine Finset.sum_congr rfl fun j _ => ?_
    exact tileSum_rescale x (25 * h + j) _ _

/-! ### Regrouping a sum over an initial segment of the naturals -/

/-- A sum over the first `n * m` naturals is a sum over `n` blocks of `m`. -/
theorem sum_range_mul_eq (f : ℕ → ℝ) (m : ℕ) : ∀ n : ℕ,
    ∑ i ∈ Finset.range (n * m), f i = ∑ k ∈ Finset.range n, ∑ r ∈ Finset.range m, f (m * k + r)
  | 0 => by simp
  | n + 1 => by
    rw [add_one_mul, Finset.sum_range_add, sum_range_mul_eq f m n, Finset.sum_range_succ, Nat.mul_comm m n]

/-- The sum of the exponentials of the scores of half `h`, relative to the shift `μ`, is positive. -/
theorem half_sum_pos (x : Fin 50000 → ℝ) (h : ℕ) (μ : ℝ) :
    0 < ∑ k : Fin 25, ∑ r : Fin 1000, Real.exp (xN x (1000 * (25 * h + k.val) + r.val) - μ) :=
  Finset.sum_pos (fun k _ => Finset.sum_pos (fun r _ => Real.exp_pos _) Finset.univ_nonempty) Finset.univ_nonempty

/-- At the last tile of a half the running pair gives the half's log-sum-exp. -/
theorem half_final (x : Fin 50000 → ℝ) (h : ℕ) :
    mAfter x (25 * h + 24) + Real.log (lAfter x (25 * h + 24)) = lseHalf x h := by
  have e1 : lAfter x (25 * h + 24)
      = ∑ k : Fin 25, ∑ r : Fin 1000,
          Real.exp (xN x (1000 * (25 * h + k.val) + r.val) - mAfter x (25 * h + 24)) := by
    rw [lAfter_eq x h 24 (by norm_num)]
    exact Finset.sum_range (fun j => tileSum x (25 * h + j) (mAfter x (25 * h + 24)))
  have e2 : (∑ k : Fin 25, ∑ r : Fin 1000, Real.exp (xN x (1000 * (25 * h + k.val) + r.val)))
      = Real.exp (mAfter x (25 * h + 24)) * ∑ k : Fin 25, ∑ r : Fin 1000,
          Real.exp (xN x (1000 * (25 * h + k.val) + r.val) - mAfter x (25 * h + 24)) := by
    rw [Finset.mul_sum]
    refine Finset.sum_congr rfl fun k _ => ?_
    rw [Finset.mul_sum]
    refine Finset.sum_congr rfl fun r _ => ?_
    rw [← Real.exp_add]
    congr 1
    ring
  unfold lseHalf
  rw [e2, Real.log_mul (Real.exp_pos _).ne' (half_sum_pos x h _).ne', Real.log_exp, e1]

/-! ### The two halves make the whole -/

/-- The exponential of a half's log-sum-exp is the half's sum of exponentials, as a sum over naturals. -/
theorem exp_lseHalf (x : Fin 50000 → ℝ) (h : ℕ) :
    Real.exp (lseHalf x h)
      = ∑ k ∈ Finset.range 25, ∑ r ∈ Finset.range 1000, Real.exp (xN x (1000 * (25 * h + k) + r)) := by
  unfold lseHalf
  have hp := half_sum_pos x h 0
  simp only [sub_zero] at hp
  rw [Real.exp_log hp]
  rw [Finset.sum_range (fun k => ∑ r ∈ Finset.range 1000, Real.exp (xN x (1000 * (25 * h + k) + r)))]
  refine Finset.sum_congr rfl fun k _ => ?_
  exact (Finset.sum_range (fun r => Real.exp (xN x (1000 * (25 * h + k.val) + r)))).symm

/-- The whole vocabulary's sum of exponentials, as a sum over naturals. -/
theorem sum_exp_eq_range (x : Fin 50000 → ℝ) :
    ∑ v, Real.exp (x v) = ∑ i ∈ Finset.range 50000, Real.exp (xN x i) := by
  rw [Finset.sum_range (fun i => Real.exp (xN x i))]
  refine Finset.sum_congr rfl fun v _ => ?_
  unfold xN
  rw [dif_pos v.isLt]

/-- The log-sum-exp of the whole vocabulary is the two-term log-sum-exp of its halves'. -/
theorem lse_halves (x : Fin 50000 → ℝ) :
    Real.log (Real.exp (lseHalf x 0) + Real.exp (lseHalf x 1)) = lse x := by
  unfold lse
  refine congrArg Real.log ?_
  rw [exp_lseHalf x 0, exp_lseHalf x 1, sum_exp_eq_range x]
  have s1 : Finset.range 50000 = Finset.range (50 * 1000) := by norm_num
  have s2 : Finset.range 50 = Finset.range (2 * 25) := by norm_num
  have s3 : ∀ G : ℕ → ℝ, ∑ k ∈ Finset.range 2, G k = G 0 + G 1 := fun G => by
    rw [Finset.sum_range_succ, Finset.sum_range_one]
  rw [s1, sum_range_mul_eq (fun i => Real.exp (xN x i)) 1000 50, s2,
    sum_range_mul_eq (fun t => ∑ r ∈ Finset.range 1000, Real.exp (xN x (1000 * t + r))) 25 2, s3]

end Cert.Spec

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.PayIdx.lean ====
/-
  The kernel body's arithmetic, read at one index, at the ideal float values, for blocks that hold real numbers.

  A tile's block of the vocabulary table holds rows `1000 t … 1000 t + 999` of the real array `e`, the bias block the
  same rows of `β`, the hidden block the real array `z`. Then the tile's score block at (r, b) is the real score
  `logit z e β b` of vocabulary row `1000 t + r` (the contraction over the 300 hidden coordinates is a finite sum of
  products of reals, plus the bias); the new running maximum is the maximum of the old one and the tile's largest
  score; the new running sum is the old sum rescaled by the exponential of the shifts' difference plus the tile's sum
  of exponentials relative to the new shift. A running maximum that is still minus infinity is absorbed by `max`, and
  the exponential of minus infinity is zero, so a restarted pair gives the tile's own maximum and sum.
-/
import proofs.«405701_j335007449569_3_alg».proof.Proof.Gen.KernelIdeal.Skeleton
import proofs.«405701_j335007449569_3_alg».proof.Proof.Spec
import proofs.«405701_j335007449569_3_alg».proof.Proof.LibIdealReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Cert.KernelIdeal Cert.KernelIdeal.Gen Idealize.ShloMosaic Idealize.ShloMosaic.ValueIdx Cert.Spec
open scoped BigOperators

/-! ## The contraction's operand indices -/

/-- The left operand's row is the result's row. -/
theorem lhs_dot_0 (i : S1000x1024.Idx) (q : dot_S1000x300_S1024x300_S1000x1024_1_1_0_0_n_n.contr.Idx) :
    (dot_S1000x300_S1024x300_S1000x1024_1_1_0_0_n_n.lhsIdx i q 0).val = (i 0).val := by
  unfold DotDims.lhsIdx
  rw [dif_neg (show ¬(0 : Fin S1000x300.rank) ∈ dot_S1000x300_S1024x300_S1000x1024_1_1_0_0_n_n.lhsBatch by decide), dif_pos (show (0 : Fin S1000x300.rank) ∈ dot_S1000x300_S1024x300_S1000x1024_1_1_0_0_n_n.lhsNonContracting by decide)]
  rfl
/-- The left operand's column is the contraction coordinate. -/
theorem lhs_dot_1 (i : S1000x1024.Idx) (q : dot_S1000x300_S1024x300_S1000x1024_1_1_0_0_n_n.contr.Idx) :
    (dot_S1000x300_S1024x300_S1000x1024_1_1_0_0_n_n.lhsIdx i q 1).val = (q ⟨0, by decide⟩).val :=
  dot_S1000x300_S1024x300_S1000x1024_1_1_0_0_n_n.lhsIdx_val_of_single rfl i q
/-- The right operand's row is the result's column. -/
theorem rhs_dot_0 (i : S1000x1024.Idx) (q : dot_S1000x300_S1024x300_S1000x1024_1_1_0_0_n_n.contr.Idx) :
    (dot_S1000x300_S1024x300_S1000x1024_1_1_0_0_n_n.rhsIdx i q 0).val = (i 1).val := by
  unfold DotDims.rhsIdx
  rw [dif_neg (show ¬(0 : Fin S1024x300.rank) ∈ dot_S1000x300_S1024x300_S1000x1024_1_1_0_0_n_n.rhsBatch by decide), dif_pos (show (0 : Fin S1024x300.rank) ∈ dot_S1000x300_S1024x300_S1000x1024_1_1_0_0_n_n.rhsNonContracting by decide)]
  rfl
/-- The right operand's column is the contraction coordinate. -/
theorem rhs_dot_1 (i : S1000x1024.Idx) (q : dot_S1000x300_S1024x300_S1000x1024_1_1_0_0_n_n.contr.Idx) :
    (dot_S1000x300_S1024x300_S1000x1024_1_1_0_0_n_n.rhsIdx i q 1).val = (q ⟨0, by decide⟩).val :=
  dot_S1000x300_S1024x300_S1000x1024_1_1_0_0_n_n.rhsIdx_val_of_single rfl i q

/-- The product block at (r, b): the sum over the 300 hidden coordinates of the left block's row `r` times the right
    block's row `b`. -/
theorem dot_apply (L : FVec Ideal S1000x300 .bf16) (R : FVec Ideal S1024x300 .bf16) (r : Fin 1000) (b : Fin 1024) :
    matmul (F := Ideal) dot_S1000x300_S1024x300_S1000x1024_1_1_0_0_n_n none L R (constant (F := Ideal) S1000x1024 .f32 0x00000000#32) (ix2 r b)
      = ∑ k : Fin 300, L (ix2 r k) * R (ix2 b k) := by
  simp only [matmul]
  rw [Ideal.matmul_constant_zero_apply, ← Equiv.sum_comp (ValueIdx.contrEquiv1 dot_S1000x300_S1024x300_S1000x1024_1_1_0_0_n_n 300 rfl rfl).symm]
  refine Finset.sum_congr rfl fun k _ => ?_
  have hk := ValueIdx.contrEquiv1_symm_val dot_S1000x300_S1024x300_S1000x1024_1_1_0_0_n_n 300 rfl rfl k
  have el : dot_S1000x300_S1024x300_S1000x1024_1_1_0_0_n_n.lhsIdx (ix2 r b) ((ValueIdx.contrEquiv1 dot_S1000x300_S1024x300_S1000x1024_1_1_0_0_n_n 300 rfl rfl).symm k) = ix2 r k := funext fun a => Fin.ext (by
    match a with
    | ⟨0, _⟩ => exact lhs_dot_0 _ _
    | ⟨1, _⟩ => exact (lhs_dot_1 _ _).trans hk)
  have er : dot_S1000x300_S1024x300_S1000x1024_1_1_0_0_n_n.rhsIdx (ix2 r b) ((ValueIdx.contrEquiv1 dot_S1000x300_S1024x300_S1000x1024_1_1_0_0_n_n 300 rfl rfl).symm k) = ix2 b k := funext fun a => Fin.ext (by
    match a with
    | ⟨0, _⟩ => exact rhs_dot_0 _ _
    | ⟨1, _⟩ => exact (rhs_dot_1 _ _).trans hk)
  rw [el, er]

/-! ## The tile's scores -/

/-- The bias column broadcast along the batch axis reads, at (r, b), the column's entry `r`. -/
theorem bias_apply (v : FVec Ideal S1000x1 .f32) (h : S1000x1.Broadcasts S1000x1024) (r : Fin 1000) (b : Fin 1024) :
    broadcastTo S1000x1024 v h (ix2 r b) = v (ix2 r (0 : Fin 1)) := by
  refine broadcastTo_apply v h (ix2 r b) (ix2 r (0 : Fin 1)) fun ax => ?_
  match ax with
  | ⟨0, _⟩ =>
    show r.val = if (1000 : ℕ) = 1 then 0 else r.val
    rw [if_neg (by decide)]
  | ⟨1, _⟩ =>
    show (0 : ℕ) = if (1 : ℕ) = 1 then 0 else b.val
    rw [if_pos rfl]

/-- The tile's score block at (r, b) is the real score of vocabulary row `1000 t + r` for batch row `b`: the
    contraction is the finite sum of the products of the two real rows, and the bias column is broadcast along the batch
    axis. -/
theorem P12 (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (r : Fin 1000) (b : Fin 1024) :
    k0_pay12 (F := Ideal) zb eb bb (ix2 r b) = ((xN (logit z e β b) (1000 * t + r.val) : ℝ) : EReal) := by
  have hv : 1000 * t + r.val < 50000 := by omega
  unfold k0_pay12 k0_pay11
  show matmul (F := Ideal) dot_S1000x300_S1024x300_S1000x1024_1_1_0_0_n_n none (truncf .bf16 eb bitsLt_bf16_f32)
        (shapeCast S1024x300 zb shapeCasts_S1024x300_S1024x300) (constant (F := Ideal) S1000x1024 .f32 0x00000000#32) (ix2 r b)
      + broadcastTo S1000x1024 (shapeCast S1000x1 bb shapeCasts_S1000x1_S1000x1) broadcasts_S1000x1_S1000x1024 (ix2 r b) = _
  rw [shapeCast_self, shapeCast_self, dot_apply, bias_apply, hb]
  have hs : ∀ k : Fin 300, (truncf (F := Ideal) .bf16 eb bitsLt_bf16_f32 : FVec Ideal S1000x300 .bf16) (ix2 r k) * zb (ix2 b k)
      = ((e ⟨1000 * t + r.val, hv⟩ k * z b k : ℝ) : EReal) := fun k => by
    show eb (ix2 r k) * zb (ix2 b k) = _
    rw [he, hz, EReal.coe_mul]
  rw [Finset.sum_congr rfl fun k _ => hs k, IdealReal.coe_sum, ← EReal.coe_add]
  unfold xN logit
  rw [dif_pos hv]

/-! ## A column's maximum and sum -/

/-- The word `0xFF800000` denotes minus infinity. -/
theorem ofBits_neg_inf : Ideal.ofBits .f32 0xFF800000#32 = ⊥ := by simp [Ideal.ofBits, Ideal.ieee]

/-- The maximum of finitely many embedded reals, started from minus infinity, is the embedded real maximum. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1]
  apply le_antisymm
  · exact Finset.sup_le fun i hi => EReal.coe_le_coe_iff.mpr (Finset.le_sup' f hi)
  · obtain ⟨i, hi, e⟩ := Finset.exists_mem_eq_sup' H f
    rw [e]
    exact Finset.le_sup (f := fun i => ((f i : ℝ) : EReal)) hi

/-- The source index over column `b` whose row is `k`. -/
theorem lift_col (h : S1000x1024.Reduces [0] S1024) (b : Fin 1024) (k : Fin 1000) : h.lift (ix1 b) k = ix2 k b := by
  funext c
  apply Fin.ext
  match c with
  | ⟨0, _⟩ => rfl
  | ⟨1, _⟩ => rfl

/-- The column maximum of a block whose column `b` holds the reals `g`, viewed as a row, is the real maximum of `g`. -/
theorem colmax (X : FVec Ideal S1000x1024 .f32) (g : Fin 1000 → ℝ) (b : Fin 1024)
    (hX : ∀ r : Fin 1000, X (ix2 r b) = ((g r : ℝ) : EReal))
    (h : S1000x1024.Reduces [0] S1024) (hφ : FKind.Formats .f32) (hacc : (0xFF800000#32 : BitVec 32) = FKind.maximumf.neutral .f32 hφ)
    (hc : S1024.ShapeCasts S1x1024) :
    shapeCast S1x1024 (multiReduction .maximumf [0] S1024 X 0xFF800000#32 h hφ hacc) hc (ix2 (0 : Fin 1) b)
      = (((Finset.univ : Finset (Fin 1000)).sup' Finset.univ_nonempty g : ℝ) : EReal) := by
  rw [shapeCast_a_1a_apply, Ideal.multiReduction_maximumf_single]
  show (Finset.univ : Finset (Fin 1000)).fold max (Ideal.ofBits .f32 0xFF800000#32) (X ∘ h.lift (ix1 b)) = _
  rw [ofBits_neg_inf, show (X ∘ h.lift (ix1 b)) = fun r : Fin 1000 => ((g r : ℝ) : EReal) from funext fun r =>
    (congrArg X (lift_col h b r)).trans (hX r)]
  exact fold_max_bot_coe _ _ g

/-- The column sum of a block whose column `b` holds the reals `g`, viewed as a row, is the real sum of `g`. -/
theorem colsum (X : FVec Ideal S1000x1024 .f32) (g : Fin 1000 → ℝ) (b : Fin 1024)
    (hX : ∀ r : Fin 1000, X (ix2 r b) = ((g r : ℝ) : EReal))
    (h : S1000x1024.Reduces [0] S1024) (hφ : FKind.Formats .f32) (hacc : (0x00000000#32 : BitVec 32) = FKind.add.neutral .f32 hφ)
    (hc : S1024.ShapeCasts S1x1024) :
    shapeCast S1x1024 (multiReduction .add [0] S1024 X 0x00000000#32 h hφ hacc) hc (ix2 (0 : Fin 1) b)
      = ((∑ r : Fin 1000, g r : ℝ) : EReal) := by
  rw [shapeCast_a_1a_apply, Ideal.multiReduction_add_single]
  show ∑ k : Fin 1000, X (h.lift (ix1 b) k) = _
  rw [Finset.sum_congr rfl fun k _ => (congrArg X (lift_col h b k)).trans (hX k), IdealReal.coe_sum]

/-! ## The running maximum -/

/-- The new running maximum at column `b`: the old one against the tile's largest score. -/
theorem pay13_eq (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (mold : Vec Ideal S1x1024 .f32) (b : Fin 1024) :
    k0_pay13 (F := Ideal) zb eb bb mold (ix2 (0 : Fin 1) b)
      = max (mold (ix2 (0 : Fin 1) b)) ((tileMax (logit z e β b) t : ℝ) : EReal) := by
  unfold k0_pay13
  refine congrArg (max (mold (ix2 (0 : Fin 1) b))) ?_
  refine (colmax _ (fun r => xN (logit z e β b) (1000 * t + r.val)) b (fun r => P12 z e β t ht zb eb bb hz he hb r b) _ _ _ _).trans ?_
  unfold tileMax
  rfl

/-- Against a real old maximum `μ` the new running maximum is the real `max μ (tileMax …)`. -/
theorem P13a (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (mold : Vec Ideal S1x1024 .f32) (μ : ℝ) (b : Fin 1024) (hm : mold (ix2 (0 : Fin 1) b) = ((μ : ℝ) : EReal)) :
    k0_pay13 (F := Ideal) zb eb bb mold (ix2 (0 : Fin 1) b) = ((max μ (tileMax (logit z e β b) t) : ℝ) : EReal) := by
  refine (pay13_eq z e β t ht zb eb bb hz he hb mold b).trans ?_
  rw [hm, IdealReal.max_coe]

/-- Against minus infinity (a restarted maximum) the new running maximum is the tile's own. -/
theorem P13b (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (mold : Vec Ideal S1x1024 .f32) (b : Fin 1024) (hm : mold (ix2 (0 : Fin 1) b) = ⊥) :
    k0_pay13 (F := Ideal) zb eb bb mold (ix2 (0 : Fin 1) b) = ((tileMax (logit z e β b) t : ℝ) : EReal) := by
  refine (pay13_eq z e β t ht zb eb bb hz he hb mold b).trans ?_
  rw [hm]
  exact max_eq_right bot_le

/-- The stored running maximum is the new running maximum. -/
theorem pay15_eq_pay13 (zb : FVec Ideal S1024x300 .bf16) (eb : Vec Ideal S1000x300 .f32) (bb : Vec Ideal S1000x1 .f32)
    (mold : Vec Ideal S1x1024 .f32) : k0_pay15 (F := Ideal) zb eb bb mold = k0_pay13 (F := Ideal) zb eb bb mold := by
  unfold k0_pay15
  exact shapeCast_self _ _

theorem P15a (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (mold : Vec Ideal S1x1024 .f32) (μ : ℝ) (b : Fin 1024) (hm : mold (ix2 (0 : Fin 1) b) = ((μ : ℝ) : EReal)) :
    k0_pay15 (F := Ideal) zb eb bb mold (ix2 (0 : Fin 1) b) = ((max μ (tileMax (logit z e β b) t) : ℝ) : EReal) :=
  (congrFun (pay15_eq_pay13 zb eb bb mold) _).trans (P13a z e β t ht zb eb bb hz he hb mold μ b hm)

theorem P15b (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (mold : Vec Ideal S1x1024 .f32) (b : Fin 1024) (hm : mold (ix2 (0 : Fin 1) b) = ⊥) :
    k0_pay15 (F := Ideal) zb eb bb mold (ix2 (0 : Fin 1) b) = ((tileMax (logit z e β b) t : ℝ) : EReal) :=
  (congrFun (pay15_eq_pay13 zb eb bb mold) _).trans (P13b z e β t ht zb eb bb hz he hb mold b hm)

/-! ## The running sum -/

/-- An exponential, and a logarithm, of a block at an index is that of the element. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The new running sum at column `b`, the new running maximum there being the real `M`: the old sum times the
    exponential of (old maximum − `M`), plus the tile's sum of exponentials relative to `M`. -/
theorem pay14_eq (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (m12 m16 lold : Vec Ideal S1x1024 .f32) (M : ℝ) (b : Fin 1024)
    (hM : k0_pay13 (F := Ideal) zb eb bb m12 (ix2 (0 : Fin 1) b) = ((M : ℝ) : EReal)) :
    k0_pay14 (F := Ideal) zb eb bb m12 m16 lold (ix2 (0 : Fin 1) b)
      = Ideal.exp (m16 (ix2 (0 : Fin 1) b) - ((M : ℝ) : EReal)) * lold (ix2 (0 : Fin 1) b)
        + ((tileSum (logit z e β b) t M : ℝ) : EReal) := by
  unfold k0_pay14
  refine (congrFun (shapeCast_self _ _) _).trans ?_
  refine (addf_apply _ _ _).trans ?_
  refine congrArg₂ (· + ·) ?_ ?_
  · refine (mulf_apply _ _ _).trans ?_
    refine congrArg (· * lold (ix2 (0 : Fin 1) b)) ?_
    refine (exp_apply _ _).trans ?_
    refine congrArg Ideal.exp ?_
    refine (subf_apply _ _ _).trans ?_
    exact congrArg (m16 (ix2 (0 : Fin 1) b) - ·) hM
  · refine (colsum _ (fun r => Real.exp (xN (logit z e β b) (1000 * t + r.val) - M)) b (fun r => ?_) _ _ _ _).trans ?_
    · refine (exp_apply _ _).trans ?_
      refine (congrArg Ideal.exp ((subf_apply _ _ _).trans ?_)).trans (Ideal.exp_coe _)
      refine (congrArg₂ (· - ·) (P12 z e β t ht zb eb bb hz he hb r b) ((broadcastTo_1b_ab_apply _ _ r b).trans hM)).trans ?_
      exact (EReal.coe_sub _ _).symm
    · unfold tileSum
      rfl

theorem P14a (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (mold lold : Vec Ideal S1x1024 .f32) (μ lam : ℝ) (b : Fin 1024)
    (hm : mold (ix2 (0 : Fin 1) b) = ((μ : ℝ) : EReal)) (hl : lold (ix2 (0 : Fin 1) b) = ((lam : ℝ) : EReal)) :
    k0_pay14 (F := Ideal) zb eb bb mold mold lold (ix2 (0 : Fin 1) b)
      = ((Real.exp (μ - max μ (tileMax (logit z e β b) t)) * lam
          + tileSum (logit z e β b) t (max μ (tileMax (logit z e β b) t)) : ℝ) : EReal) := by
  refine (pay14_eq z e β t ht zb eb bb hz he hb mold mold lold _ b (P13a z e β t ht zb eb bb hz he hb mold μ b hm)).trans ?_
  rw [hm, hl, ← EReal.coe_sub, Ideal.exp_coe, ← EReal.coe_mul, ← EReal.coe_add]

theorem P14b (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (mold lold : Vec Ideal S1x1024 .f32) (b : Fin 1024)
    (hm : mold (ix2 (0 : Fin 1) b) = ⊥) (hl : lold (ix2 (0 : Fin 1) b) = 0) :
    k0_pay14 (F := Ideal) zb eb bb mold mold lold (ix2 (0 : Fin 1) b)
      = ((tileSum (logit z e β b) t (tileMax (logit z e β b) t) : ℝ) : EReal) := by
  refine (pay14_eq z e β t ht zb eb bb hz he hb mold mold lold _ b (P13b z e β t ht zb eb bb hz he hb mold b hm)).trans ?_
  rw [hm, hl, EReal.bot_sub, Ideal.exp_bot, mul_zero, zero_add]

/-! ## The restart values and the stored results -/

/-- A restarted running maximum is minus infinity at every column. -/
theorem P7 (b : Fin 1024) : k0_pay7 (F := Ideal) (ix2 (0 : Fin 1) b) = ⊥ := by
  unfold k0_pay7
  refine (congrFun (shapeCast_self _ _) _).trans ?_
  exact ofBits_neg_inf

theorem P9 (b : Fin 1024) : k0_pay9 (F := Ideal) (ix2 (0 : Fin 1) b) = ⊥ := by
  unfold k0_pay9
  refine (congrFun (shapeCast_self _ _) _).trans ?_
  exact ofBits_neg_inf

/-- A restarted running sum is zero at every column. -/
theorem P8 (b : Fin 1024) : k0_pay8 (F := Ideal) (ix2 (0 : Fin 1) b) = 0 := by
  unfold k0_pay8
  refine (congrFun (shapeCast_self _ _) _).trans ?_
  exact Ideal.ofBits_zero_f32

theorem P10 (b : Fin 1024) : k0_pay10 (F := Ideal) (ix2 (0 : Fin 1) b) = 0 := by
  unfold k0_pay10
  refine (congrFun (shapeCast_self _ _) _).trans ?_
  exact Ideal.ofBits_zero_f32

/-- A half's stored result at column `b`: the running maximum plus the logarithm of the (positive) running sum. -/
theorem P5 (mm ll : Vec Ideal S1x1024 .f32) (μ lam : ℝ) (b : Fin 1024)
    (hm : mm (ix2 (0 : Fin 1) b) = ((μ : ℝ) : EReal)) (hl : ll (ix2 (0 : Fin 1) b) = ((lam : ℝ) : EReal)) (hpos : 0 < lam) :
    k0_pay5 (F := Ideal) mm ll (ix3 (0 : Fin 1) (0 : Fin 1) b) = ((μ + Real.log lam : ℝ) : EReal) := by
  unfold k0_pay5
  refine (shapeCast_ab_1ab_apply _ _ (0 : Fin 1) (0 : Fin 1) b).trans ?_
  refine (addf_apply _ _ _).trans ?_
  refine (congrArg₂ (· + ·) hm ((log_apply _ _).trans ((congrArg Ideal.log hl).trans (IdealReal.log_coe_pos hpos)))).trans ?_
  exact (EReal.coe_add _ _).symm

theorem P6 (mm ll : Vec Ideal S1x1024 .f32) (μ lam : ℝ) (b : Fin 1024)
    (hm : mm (ix2 (0 : Fin 1) b) = ((μ : ℝ) : EReal)) (hl : ll (ix2 (0 : Fin 1) b) = ((lam : ℝ) : EReal)) (hpos : 0 < lam) :
    k0_pay6 (F := Ideal) mm ll (ix3 (0 : Fin 1) (0 : Fin 1) b) = ((μ + Real.log lam : ℝ) : EReal) := by
  unfold k0_pay6
  refine (shapeCast_ab_1ab_apply _ _ (0 : Fin 1) (0 : Fin 1) b).trans ?_
  refine (addf_apply _ _ _).trans ?_
  refine (congrArg₂ (· + ·) hm ((log_apply _ _).trans ((congrArg Ideal.log hl).trans (IdealReal.log_coe_pos hpos)))).trans ?_
  exact (EReal.coe_add _ _).symm

/-! ## The second vocabulary's four payloads are the first's -/

section Second
variable {F : FTy → Type} [FloatOps F]

/-- Over the re-cast hidden block the second vocabulary's scores, running maximum, running sum and stored maximum
    are the same terms as the first's. -/
theorem pay1_eq_pay12 (v3 : Vec F S1024x300 .bf16) (a : Vec F S1000x300 .f32) (c : Vec F S1000x1 .f32) :
    k0_pay1 (k0_pay11 v3) a c = k0_pay12 v3 a c := rfl
theorem pay2_eq_pay13 (v3 : Vec F S1024x300 .bf16) (a : Vec F S1000x300 .f32) (c : Vec F S1000x1 .f32) (m : Vec F S1x1024 .f32) :
    k0_pay2 (k0_pay11 v3) a c m = k0_pay13 v3 a c m := rfl
theorem pay3_eq_pay14 (v3 : Vec F S1024x300 .bf16) (a : Vec F S1000x300 .f32) (c : Vec F S1000x1 .f32)
    (m m' l : Vec F S1x1024 .f32) : k0_pay3 (k0_pay11 v3) a c m m' l = k0_pay14 v3 a c m m' l := rfl
theorem pay4_eq_pay15 (v3 : Vec F S1024x300 .bf16) (a : Vec F S1000x300 .f32) (c : Vec F S1000x1 .f32) (m : Vec F S1x1024 .f32) :
    k0_pay4 (k0_pay11 v3) a c m = k0_pay15 v3 a c m := rfl

end Second

end Cert.KernelIdeal.PayIdx

end
-- ==== Proof.KI.Acc.lean ====
/-
  The scan, abstractly: the recurrence the kernel body applies at the 50 tiles computes the specification's running
  pair.

  At every tile the body takes the running maximum and the running sum of each of the two vocabularies to the new
  ones (`stepB`); at the first tile of a half it starts from minus infinity and zero instead (`stepA`). When the
  blocks of tile `t` hold rows `1000 t … 1000 t + 999` of real arrays, the state after tile `t` holds, at every batch
  column, the reals `mAfter` and `lAfter` of the column's score vector: against a real old maximum the new one is the
  real maximum, and the old sum is rescaled by the exponential of the shifts' difference; minus infinity is absorbed
  by the maximum and its exponential is zero, so a restarted pair gives the tile's own maximum and sum. At the last
  tile of a half the stored result, maximum plus logarithm of the (positive) sum, is the half's log-sum-exp.
-/
import proofs.«405701_j335007449569_3_alg».proof.Proof.Gen.KernelIdeal.Skeleton
import proofs.«405701_j335007449569_3_alg».proof.Proof.Spec
import proofs.«405701_j335007449569_3_alg».proof.Proof.SpecLaws
import proofs.«405701_j335007449569_3_alg».proof.Proof.PayIdx
import proofs.«405701_j335007449569_3_alg».proof.Proof.LibIdealReal
import Idealize.ShloMosaic.Lib.ValueIdx

noncomputable section

namespace Cert.KernelIdeal.Acc

open Cert.KernelIdeal Cert.KernelIdeal.Gen Idealize.ShloMosaic Idealize.ShloMosaic.ValueIdx Cert.Spec

/-! ## The recurrence -/

section Defs
variable {F : FTy → Type} [FloatOps F]

/-- The blocks a tile's step reads: the hidden block and, for each vocabulary, the tile's rows of the table and of
    the bias. -/
structure Blocks (F : FTy → Type) [FloatOps F] where
  z : Vec F S1024x300 .bf16
  e1 : Vec F S1000x300 .f32
  b1 : Vec F S1000x1 .f32
  e2 : Vec F S1000x300 .f32
  b2 : Vec F S1000x1 .f32

/-- The running state: (maximum, sum) of the first vocabulary, then of the second. -/
abbrev St (F : FTy → Type) [FloatOps F] :=
  Vec F S1x1024 .f32 × Vec F S1x1024 .f32 × Vec F S1x1024 .f32 × Vec F S1x1024 .f32

/-- One tile's step from a running state. -/
def stepB (B : Blocks F) (s : St F) : St F :=
  (k0_pay15 B.z B.e1 B.b1 s.1, k0_pay14 B.z B.e1 B.b1 s.1 s.1 s.2.1,
    k0_pay4 (k0_pay11 B.z) B.e2 B.b2 s.2.2.1, k0_pay3 (k0_pay11 B.z) B.e2 B.b2 s.2.2.1 s.2.2.1 s.2.2.2)

/-- One tile's step from the restart values (minus infinity, zero). -/
def stepA (B : Blocks F) : St F := stepB B (k0_pay7, k0_pay8, k0_pay9, k0_pay10)

/-- The state after tile `t`: restarted at the first tile of each half. -/
def acc (B : ℕ → Blocks F) : ℕ → St F
  | 0 => stepA (B 0)
  | t + 1 => if (t + 1) % 25 = 0 then stepA (B (t + 1)) else stepB (B (t + 1)) (acc B t)

/-- The first vocabulary's stored result from a state. -/
def out5 (s : St F) : Vec F S1x1x1024 .f32 := k0_pay5 s.1 s.2.1

/-- The second vocabulary's stored result from a state. -/
def out6 (s : St F) : Vec F S1x1x1024 .f32 := k0_pay6 s.2.2.1 s.2.2.2

theorem stepB_1 (B : Blocks F) (s : St F) : (stepB B s).1 = k0_pay15 B.z B.e1 B.b1 s.1 := rfl
theorem stepB_2 (B : Blocks F) (s : St F) : (stepB B s).2.1 = k0_pay14 B.z B.e1 B.b1 s.1 s.1 s.2.1 := rfl
/-- Over the re-cast hidden block the second vocabulary's stored maximum is the same term as the first's. -/
theorem stepB_3 (B : Blocks F) (s : St F) : (stepB B s).2.2.1 = k0_pay15 B.z B.e2 B.b2 s.2.2.1 := rfl
/-- Over the re-cast hidden block the second vocabulary's running sum is the same term as the first's. -/
theorem stepB_4 (B : Blocks F) (s : St F) :
    (stepB B s).2.2.2 = k0_pay14 B.z B.e2 B.b2 s.2.2.1 s.2.2.1 s.2.2.2 := rfl

theorem acc_zero (B : ℕ → Blocks F) : acc B 0 = stepA (B 0) := by rw [acc]
theorem acc_succ_restart (B : ℕ → Blocks F) (t : ℕ) (h : (t + 1) % 25 = 0) :
    acc B (t + 1) = stepA (B (t + 1)) := by rw [acc, if_pos h]
theorem acc_succ_step (B : ℕ → Blocks F) (t : ℕ) (h : (t + 1) % 25 ≠ 0) :
    acc B (t + 1) = stepB (B (t + 1)) (acc B t) := by rw [acc, if_neg h]

end Defs

/-! ## The running maximum's equations -/

/-- At the first tile of a half the running maximum is the tile's own. -/
theorem mAfter_restart (x : Fin 50000 → ℝ) : ∀ t : ℕ, t % 25 = 0 → mAfter x t = tileMax x t
  | 0, _ => by rw [mAfter]
  | t + 1, h => by rw [mAfter, if_pos h]

/-- Inside a half the running maximum is the old one against the tile's. -/
theorem mAfter_step (x : Fin 50000 → ℝ) (t : ℕ) (h : (t + 1) % 25 ≠ 0) :
    mAfter x (t + 1) = max (mAfter x t) (tileMax x (t + 1)) := by
  rw [mAfter, if_neg h]

/-! ## One vocabulary's pair through one tile -/

/-- From the restart values the tile's step gives the specification's pair at a first tile of a half. -/
theorem pair_restart (z : Fin 1024 → Fin 300 → ℝ) (e : Fin 50000 → Fin 300 → ℝ) (β : Fin 50000 → ℝ) (t : ℕ) (ht : t < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * t + r.val, by omega⟩ d : ℝ) : EReal))
    (hb : ∀ r : Fin 1000, bb (ix2 r (0 : Fin 1)) = ((β ⟨1000 * t + r.val, by omega⟩ : ℝ) : EReal))
    (m l : Vec Ideal S1x1024 .f32) (b : Fin 1024)
    (hm : m (ix2 (0 : Fin 1) b) = ⊥) (hl : l (ix2 (0 : Fin 1) b) = 0) (h25 : t % 25 = 0) :
    k0_pay15 (F := Ideal) zb eb bb m (ix2 (0 : Fin 1) b) = ((mAfter (logit z e β b) t : ℝ) : EReal) ∧
    k0_pay14 (F := Ideal) zb eb bb m m l (ix2 (0 : Fin 1) b) = ((lAfter (logit z e β b) t : ℝ) : EReal) := by
  rw [lAfter_restart _ t h25, mAfter_restart _ t h25]
  exact ⟨PayIdx.P15b z e β t ht zb eb bb hz he hb m b hm, PayIdx.P14b z e β t ht zb eb bb hz he hb m l b hm hl⟩

/-- From the specification's pair after tile `t` the step of tile `t + 1`, inside a half, gives the pair after it. -/
theorem pair_step (z : Fin 1024 → Fin 300 → ℝ) (e : Fin 50000 → Fin 300 → ℝ) (β : Fin 50000 → ℝ) (t : ℕ) (ht : t + 1 < 50)
    (zb : FVec Ideal S1024x300 .bf16) (eb : Vec Ideal S1000x300 .f32) (bb : Vec Ideal S1000x1 .f32)
    (hz : ∀ (b : Fin 1024) (d : Fin 300), zb (ix2 b d) = ((z b d : ℝ) : EReal))
    (he : ∀ (r : Fin 1000) (d : Fin 300), eb (ix2 r d) = ((e ⟨1000 * (t + 1) + r.val, by omega⟩ d : ℝ) : EReal))
    (hb : ∀ r : Fin 1000, bb (ix2 r (0 : Fin 1)) = ((β ⟨1000 * (t + 1) + r.val, by omega⟩ : ℝ) : EReal))
    (m l : Vec Ideal S1x1024 .f32) (b : Fin 1024)
    (hm : m (ix2 (0 : Fin 1) b) = ((mAfter (logit z e β b) t : ℝ) : EReal))
    (hl : l (ix2 (0 : Fin 1) b) = ((lAfter (logit z e β b) t : ℝ) : EReal)) (h25 : (t + 1) % 25 ≠ 0) :
    k0_pay15 (F := Ideal) zb eb bb m (ix2 (0 : Fin 1) b) = ((mAfter (logit z e β b) (t + 1) : ℝ) : EReal) ∧
    k0_pay14 (F := Ideal) zb eb bb m m l (ix2 (0 : Fin 1) b) = ((lAfter (logit z e β b) (t + 1) : ℝ) : EReal) := by
  rw [lAfter_step _ t h25, mAfter_step _ t h25]
  exact ⟨PayIdx.P15a z e β (t + 1) ht zb eb bb hz he hb m _ b hm,
    PayIdx.P14a z e β (t + 1) ht zb eb bb hz he hb m l _ _ b hm hl⟩

/-! ## The scan -/

section Scan
variable (z : Fin 1024 → Fin 300 → ℝ) (e1 e2 : Fin 50000 → Fin 300 → ℝ) (β1 β2 : Fin 50000 → ℝ)
  (B : ℕ → Blocks Ideal)
  (hz : ∀ t, t < 50 → ∀ (b : Fin 1024) (d : Fin 300), (B t).z (ix2 b d) = ((z b d : ℝ) : EReal))
  (he1 : ∀ t (ht : t < 50) (r : Fin 1000) (d : Fin 300),
    (B t).e1 (ix2 r d) = ((e1 ⟨1000 * t + r.val, by omega⟩ d : ℝ) : EReal))
  (hb1 : ∀ t (ht : t < 50) (r : Fin 1000),
    (B t).b1 (ix2 r (0 : Fin 1)) = ((β1 ⟨1000 * t + r.val, by omega⟩ : ℝ) : EReal))
  (he2 : ∀ t (ht : t < 50) (r : Fin 1000) (d : Fin 300),
    (B t).e2 (ix2 r d) = ((e2 ⟨1000 * t + r.val, by omega⟩ d : ℝ) : EReal))
  (hb2 : ∀ t (ht : t < 50) (r : Fin 1000),
    (B t).b2 (ix2 r (0 : Fin 1)) = ((β2 ⟨1000 * t + r.val, by omega⟩ : ℝ) : EReal))

include hz he1 hb1 he2 hb2

/-- A restarted step at a first tile of a half gives both vocabularies' pairs. -/
theorem stepA_spec (t : ℕ) (ht : t < 50) (h25 : t % 25 = 0) (b : Fin 1024) :
    (stepA (B t)).1 (ix2 (0 : Fin 1) b) = ((mAfter (logit z e1 β1 b) t : ℝ) : EReal) ∧
    (stepA (B t)).2.1 (ix2 (0 : Fin 1) b) = ((lAfter (logit z e1 β1 b) t : ℝ) : EReal) ∧
    (stepA (B t)).2.2.1 (ix2 (0 : Fin 1) b) = ((mAfter (logit z e2 β2 b) t : ℝ) : EReal) ∧
    (stepA (B t)).2.2.2 (ix2 (0 : Fin 1) b) = ((lAfter (logit z e2 β2 b) t : ℝ) : EReal) := by
  have v1 := pair_restart z e1 β1 t ht (B t).z (B t).e1 (B t).b1 (hz t ht) (he1 t ht) (hb1 t ht)
    (k0_pay7 (F := Ideal)) (k0_pay8 (F := Ideal)) b (PayIdx.P7 b) (PayIdx.P8 b) h25
  have v2 := pair_restart z e2 β2 t ht (B t).z (B t).e2 (B t).b2 (hz t ht) (he2 t ht) (hb2 t ht)
    (k0_pay9 (F := Ideal)) (k0_pay10 (F := Ideal)) b (PayIdx.P9 b) (PayIdx.P10 b) h25
  unfold stepA
  rw [stepB_1, stepB_2, stepB_3, stepB_4]
  exact ⟨v1.1, v1.2, v2.1, v2.2⟩

/-- After every tile the state holds, at every batch column, both vocabularies' running pairs. -/
theorem acc_spec : ∀ t, t < 50 → ∀ b : Fin 1024,
    (acc B t).1 (ix2 (0 : Fin 1) b) = ((mAfter (logit z e1 β1 b) t : ℝ) : EReal) ∧
    (acc B t).2.1 (ix2 (0 : Fin 1) b) = ((lAfter (logit z e1 β1 b) t : ℝ) : EReal) ∧
    (acc B t).2.2.1 (ix2 (0 : Fin 1) b) = ((mAfter (logit z e2 β2 b) t : ℝ) : EReal) ∧
    (acc B t).2.2.2 (ix2 (0 : Fin 1) b) = ((lAfter (logit z e2 β2 b) t : ℝ) : EReal) := by
  intro t
  induction t with
  | zero =>
    intro ht b
    rw [acc_zero]
    exact stepA_spec z e1 e2 β1 β2 B hz he1 hb1 he2 hb2 0 ht rfl b
  | succ t ih =>
    intro ht b
    by_cases h25 : (t + 1) % 25 = 0
    · rw [acc_succ_restart B t h25]
      exact stepA_spec z e1 e2 β1 β2 B hz he1 hb1 he2 hb2 (t + 1) ht h25 b
    · obtain ⟨i1, i2, i3, i4⟩ := ih (by omega) b
      have v1 := pair_step z e1 β1 t ht (B (t + 1)).z (B (t + 1)).e1 (B (t + 1)).b1 (hz (t + 1) ht)
        (he1 (t + 1) ht) (hb1 (t + 1) ht) (acc B t).1 (acc B t).2.1 b i1 i2 h25
      have v2 := pair_step z e2 β2 t ht (B (t + 1)).z (B (t + 1)).e2 (B (t + 1)).b2 (hz (t + 1) ht)
        (he2 (t + 1) ht) (hb2 (t + 1) ht) (acc B t).2.2.1 (acc B t).2.2.2 b i3 i4 h25
      rw [acc_succ_step B t h25, stepB_1, stepB_2, stepB_3, stepB_4]
      exact ⟨v1.1, v1.2, v2.1, v2.2⟩

/-- At the last tile of a half the first vocabulary's stored result is the half's log-sum-exp. -/
theorem out5_spec : ∀ h, h < 2 → ∀ b : Fin 1024,
    out5 (acc B (25 * h + 24)) (ix3 (0 : Fin 1) (0 : Fin 1) b) = ((lseHalf (logit z e1 β1 b) h : ℝ) : EReal) := by
  intro h hh b
  obtain ⟨i1, i2, _, _⟩ := acc_spec z e1 e2 β1 β2 B hz he1 hb1 he2 hb2 (25 * h + 24) (by omega) b
  unfold out5
  refine (PayIdx.P5 _ _ _ _ b i1 i2 (lAfter_pos _ _)).trans ?_
  exact congrArg (fun r : ℝ => (r : EReal)) (half_final (logit z e1 β1 b) h)

/-- At the last tile of a half the second vocabulary's stored result is the half's log-sum-exp. -/
theorem out6_spec : ∀ h, h < 2 → ∀ b : Fin 1024,
    out6 (acc B (25 * h + 24)) (ix3 (0 : Fin 1) (0 : Fin 1) b) = ((lseHalf (logit z e2 β2 b) h : ℝ) : EReal) := by
  intro h hh b
  obtain ⟨_, _, i3, i4⟩ := acc_spec z e1 e2 β1 β2 B hz he1 hb1 he2 hb2 (25 * h + 24) (by omega) b
  unfold out6
  refine (PayIdx.P6 _ _ _ _ b i3 i4 (lAfter_pos _ _)).trans ?_
  exact congrArg (fun r : ℝ => (r : EReal)) (half_final (logit z e2 β2 b) h)

end Scan

end Cert.KernelIdeal.Acc

end
-- ==== Proof.KI.Scan.lean ====
/-
  The frame's per-point contents are the abstract scan. The frame names what the four accumulators and the two result
  windows hold after each grid point by recursion on the point, each case's contents being the body's stores read
  back; the recurrence names the same quantities as one step per tile over the body's payloads, restarted at the first
  tile of each half. Here the two are identified: at every grid point the four accumulators hold the recurrence's
  state after that tile, and at the last tile of a half the two result windows hold the results computed from that
  state. A buffer's stores read back are the same whatever view they are read through, since over unspecified prior
  contents they depend on the stored pieces alone.
-/
import proofs.«405701_j335007449569_3_alg».proof.Proof.KI.Frame
import proofs.«405701_j335007449569_3_alg».proof.Proof.KI.Pieces
import proofs.«405701_j335007449569_3_alg».proof.Proof.KI.Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The input blocks of a point -/

/-- Position `t` as a grid point (taken modulo the grid's 50 points, so that it is total). -/
def pt (t : ℕ) : Fin cfg0.N := ⟨t % cfg0.N, Nat.mod_lt _ (by rw [show cfg0.N = 50 from N_0]; norm_num)⟩

/-- A grid point's own position names it. -/
theorem pt_val (t : Fin cfg0.N) : pt t.val = t := Fin.ext (Nat.mod_eq_of_lt t.isLt)

/-- The five input blocks at position `t`: the hidden block and, for each vocabulary, the tile's rows of the table and
    of the bias, read off the arrays as the region finds them. -/
def blk (c : Dev nD) (t : ℕ) : Cert.KernelIdeal.Acc.Blocks F :=
  ⟨iblk m c 0 (pt t), iblk m c 1 (pt t), iblk m c 2 (pt t), iblk m c 3 (pt t), iblk m c 4 (pt t)⟩

/-- At a grid point's own position they are the point's blocks. -/
theorem blk_val (c : Dev nD) (t : Fin cfg0.N) :
    blk m c t.val = ⟨iblk m c 0 t, iblk m c 1 t, iblk m c 2 t, iblk m c 3 t, iblk m c 4 t⟩ := by
  unfold blk; rw [pt_val]

/-! ## One point's accumulators are one step of the recurrence -/

/-- At the first tile of a half the four accumulators are the step from the restart values. -/
theorem accs_A (c : Dev nD) (t : Fin cfg0.N) (h0 : t.val % 25 = 0) :
    (at0_A m c t h0).2.2 = Cert.KernelIdeal.Acc.stepA (blk m c t.val) := by
  unfold at0_A; dsimp only
  rw [blk_val m c t]; unfold Cert.KernelIdeal.Acc.stepA Cert.KernelIdeal.Acc.stepB; dsimp only
  unfold sout0_A_0 sout0_A_1 sout0_A_2 sout0_A_3
  refine congrArg₂ Prod.mk ?_ (congrArg₂ Prod.mk ?_ (congrArg₂ Prod.mk ?_ ?_))
  · exact piece_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cA0 t h0) (cA1 t h0) (iblk m c 0 t) (iblk m c 1 t) (iblk m c 2 t) (iblk m c 3 t) (iblk m c 4 t)
  · exact piece_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cA0 t h0) (cA1 t h0) (iblk m c 0 t) (iblk m c 1 t) (iblk m c 2 t) (iblk m c 3 t) (iblk m c 4 t)
  · exact piece_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cA0 t h0) (cA1 t h0) (iblk m c 0 t) (iblk m c 1 t) (iblk m c 2 t) (iblk m c 3 t) (iblk m c 4 t)
  · exact piece_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cA0 t h0) (cA1 t h0) (iblk m c 0 t) (iblk m c 1 t) (iblk m c 2 t) (iblk m c 3 t) (iblk m c 4 t)

/-- At a middle tile they are the step from the accumulators on entry. -/
theorem accs_B (c : Dev nD) (t : Fin cfg0.N) (h0 : ¬t.val % 25 = 0) (h1 : ¬t.val % 25 = 24) (xs0 xs1 xs2 xs3 : Vec F S1x1024 .f32) :
    (at0_B m c t h0 h1 xs0 xs1 xs2 xs3).2.2 = Cert.KernelIdeal.Acc.stepB (blk m c t.val) (xs0, xs1, xs2, xs3) := by
  unfold at0_B; dsimp only
  rw [blk_val m c t]; unfold Cert.KernelIdeal.Acc.stepB; dsimp only
  unfold sout0_B_0 sout0_B_1 sout0_B_2 sout0_B_3
  refine congrArg₂ Prod.mk ?_ (congrArg₂ Prod.mk ?_ (congrArg₂ Prod.mk ?_ ?_))
  · exact piece_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cN1 t h1) (iblk m c 0 t) (iblk m c 1 t) (iblk m c 2 t) (iblk m c 3 t) (iblk m c 4 t) xs0 xs1 xs2 xs3
  · exact piece_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cN1 t h1) (iblk m c 0 t) (iblk m c 1 t) (iblk m c 2 t) (iblk m c 3 t) (iblk m c 4 t) xs0 xs1 xs2 xs3
  · exact piece_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cN1 t h1) (iblk m c 0 t) (iblk m c 1 t) (iblk m c 2 t) (iblk m c 3 t) (iblk m c 4 t) xs0 xs1 xs2 xs3
  · exact piece_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cN1 t h1) (iblk m c 0 t) (iblk m c 1 t) (iblk m c 2 t) (iblk m c 3 t) (iblk m c 4 t) xs0 xs1 xs2 xs3

/-- At the last tile of a half likewise. -/
theorem accs_C (c : Dev nD) (t : Fin cfg0.N) (h0 : ¬t.val % 25 = 0) (h1 : t.val % 25 = 24) (xs0 xs1 xs2 xs3 : Vec F S1x1024 .f32) :
    (at0_C m c t h0 h1 xs0 xs1 xs2 xs3).2.2 = Cert.KernelIdeal.Acc.stepB (blk m c t.val) (xs0, xs1, xs2, xs3) := by
  unfold at0_C; dsimp only
  rw [blk_val m c t]; unfold Cert.KernelIdeal.Acc.stepB; dsimp only
  unfold sout0_C_0 sout0_C_1 sout0_C_2 sout0_C_3
  refine congrArg₂ Prod.mk ?_ (congrArg₂ Prod.mk ?_ (congrArg₂ Prod.mk ?_ ?_))
  · exact piece_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cC1 t h1) (iblk m c 0 t) (iblk m c 1 t) (iblk m c 2 t) (iblk m c 3 t) (iblk m c 4 t) xs0 xs1 xs2 xs3
  · exact piece_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cC1 t h1) (iblk m c 0 t) (iblk m c 1 t) (iblk m c 2 t) (iblk m c 3 t) (iblk m c 4 t) xs0 xs1 xs2 xs3
  · exact piece_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cC1 t h1) (iblk m c 0 t) (iblk m c 1 t) (iblk m c 2 t) (iblk m c 3 t) (iblk m c 4 t) xs0 xs1 xs2 xs3
  · exact piece_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cC1 t h1) (iblk m c 0 t) (iblk m c 1 t) (iblk m c 2 t) (iblk m c 3 t) (iblk m c 4 t) xs0 xs1 xs2 xs3

/-- At the last tile of a half the first vocabulary's result is computed from the step's first pair. -/
theorem out5_C (c : Dev nD) (t : Fin cfg0.N) (h0 : ¬t.val % 25 = 0) (h1 : t.val % 25 = 24) (xs0 xs1 xs2 xs3 : Vec F S1x1024 .f32) :
    (at0_C m c t h0 h1 xs0 xs1 xs2 xs3).1
      = Cert.KernelIdeal.Acc.out5 (Cert.KernelIdeal.Acc.stepB (blk m c t.val) (xs0, xs1, xs2, xs3)) := by
  unfold at0_C; dsimp only
  rw [blk_val m c t]; unfold Cert.KernelIdeal.Acc.out5 Cert.KernelIdeal.Acc.stepB; dsimp only
  unfold out0_C_5
  exact (View.read_writes_junk_eq_canon VO0_5 _).trans ((View.read_writes_junk_eq_canon (ms0_5 t).view _).symm.trans
    (piece_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cC1 t h1) (iblk m c 0 t) (iblk m c 1 t) (iblk m c 2 t) (iblk m c 3 t) (iblk m c 4 t) xs0 xs1 xs2 xs3))

/-- And the second vocabulary's from its second pair. -/
theorem out6_C (c : Dev nD) (t : Fin cfg0.N) (h0 : ¬t.val % 25 = 0) (h1 : t.val % 25 = 24) (xs0 xs1 xs2 xs3 : Vec F S1x1024 .f32) :
    (at0_C m c t h0 h1 xs0 xs1 xs2 xs3).2.1
      = Cert.KernelIdeal.Acc.out6 (Cert.KernelIdeal.Acc.stepB (blk m c t.val) (xs0, xs1, xs2, xs3)) := by
  unfold at0_C; dsimp only
  rw [blk_val m c t]; unfold Cert.KernelIdeal.Acc.out6 Cert.KernelIdeal.Acc.stepB; dsimp only
  unfold out0_C_6
  exact (View.read_writes_junk_eq_canon VO0_6 _).trans ((View.read_writes_junk_eq_canon (ms0_6 t).view _).symm.trans
    (piece_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cN0 t h0) (cC1 t h1) (iblk m c 0 t) (iblk m c 1 t) (iblk m c 2 t) (iblk m c 3 t) (iblk m c 4 t) xs0 xs1 xs2 xs3))

/-! ## The accumulators after every point are the recurrence's state -/

/-- By induction on the position: the first tile of a half restarts, every other tile steps from the state the
    position before left. -/
theorem scan_nat (c : Dev nD) : ∀ (n : ℕ) (hn : n < cfg0.N), (outsAt0 m c n hn).2.2 = Cert.KernelIdeal.Acc.acc (blk m c) n := by
  intro n
  induction n with
  | zero =>
    intro hn
    rw [Cert.KernelIdeal.Acc.acc_zero, outsAt0_A m c ⟨0, hn⟩ (Nat.zero_mod 25)]
    exact accs_A m c ⟨0, hn⟩ (Nat.zero_mod 25)
  | succ n ih =>
    intro hn
    by_cases h0 : (n + 1) % 25 = 0
    · rw [Cert.KernelIdeal.Acc.acc_succ_restart _ _ h0, outsAt0_A m c ⟨n + 1, hn⟩ h0]
      exact accs_A m c ⟨n + 1, hn⟩ h0
    · rw [Cert.KernelIdeal.Acc.acc_succ_step _ _ h0, ← ih (Nat.lt_of_succ_lt hn)]
      by_cases h1 : (n + 1) % 25 = 24
      · rw [outsAt0_C m c ⟨n + 1, hn⟩ h0 h1]
        exact accs_C m c ⟨n + 1, hn⟩ h0 h1 _ _ _ _
      · rw [outsAt0_B m c ⟨n + 1, hn⟩ h0 h1]
        exact accs_B m c ⟨n + 1, hn⟩ h0 h1 _ _ _ _

/-- THE SCAN: after grid point `t` the four accumulators hold the recurrence's state after tile `t`. -/
theorem scan (c : Dev nD) (t : Fin cfg0.N) : (outsAt0 m c t.val t.isLt).2.2 = Cert.KernelIdeal.Acc.acc (blk m c) t.val :=
  scan_nat m c t.val t.isLt

/-- The state a last tile of a half steps from is the one the position before left (the last tile of a half is not
    its first). -/
theorem acc_last (c : Dev nD) (t : Fin cfg0.N) (h1 : t.val % 25 = 24) :
    Cert.KernelIdeal.Acc.acc (blk m c) t.val
      = Cert.KernelIdeal.Acc.stepB (blk m c t.val) (outsAt0 m c (t.val - 1) (pred_lt t)).2.2 := by
  have h0 : ¬t.val % 25 = 0 := by omega
  rw [← scan m c t, outsAt0_C m c t h0 h1]
  exact accs_C m c t h0 h1 _ _ _ _

/-- At the last tile of a half the first result window holds the first vocabulary's result from the state after
    that tile. -/
theorem out5_at (c : Dev nD) (t : Fin cfg0.N) (h1 : t.val % 25 = 24) :
    (outsAt0 m c t.val t.isLt).1 = Cert.KernelIdeal.Acc.out5 (Cert.KernelIdeal.Acc.acc (blk m c) t.val) := by
  have h0 : ¬t.val % 25 = 0 := by omega
  rw [acc_last m c t h1, outsAt0_C m c t h0 h1]
  exact out5_C m c t h0 h1 _ _ _ _

/-- And the second result window the second vocabulary's. -/
theorem out6_at (c : Dev nD) (t : Fin cfg0.N) (h1 : t.val % 25 = 24) :
    (outsAt0 m c t.val t.isLt).2.1 = Cert.KernelIdeal.Acc.out6 (Cert.KernelIdeal.Acc.acc (blk m c) t.val) := by
  have h0 : ¬t.val % 25 = 0 := by omega
  rw [acc_last m c t h1, outsAt0_C m c t h0 h1]
  exact out6_C m c t h0 h1 _ _ _ _

end Cert.KernelIdeal.Fr

end
-- ==== Proof.Extract.lean ====
/-
  The certificate's RESULT as one function of the seven argument arrays: the specification's loss of the arrays'
  real readings. An extended-real entry is read as a real by `EReal.toReal` (under the precondition every float entry
  IS a real, so nothing is lost); a token word is read as the vocabulary index of its unsigned value (under the
  precondition every token word is below 50000, so the reduction modulo 50000 changes nothing). Both programs'
  results are stated as this one function, `G`, of the same arrays.
-/
import proofs.«405701_j335007449569_3_alg».proof.Proof.Spec
import Idealize.ShloMosaic.Lib.ValueIdx

noncomputable section

namespace Cert.Extract

open Idealize.ShloMosaic Idealize.ShloMosaic.ValueIdx

/-- A rank-2 array of extended reals read as reals. -/
def r2 {n k : Nat} (a : (⟨2, ![n, k]⟩ : Shape).Idx → EReal) : Fin n → Fin k → ℝ := fun i j => (a (ix2 i j)).toReal
/-- A rank-1 array of extended reals read as reals. -/
def r1 {n : Nat} (a : (⟨1, ![n]⟩ : Shape).Idx → EReal) : Fin n → ℝ := fun i => (a (ix1 i)).toReal
/-- A [1024, 64] array of token words read as vocabulary indices. -/
def tok (w : (⟨2, ![1024, 64]⟩ : Shape).Idx → BitVec 32) : Fin 1024 → Fin 64 → Fin 50000 :=
  fun b l => ⟨(w (ix2 b l)).toNat % 50000, Nat.mod_lt _ (by norm_num)⟩

/-- The loss of the seven argument arrays (hidden vectors, the two token arrays, the two embedding tables, the two
    bias vectors), as the scalar array both programs end with. -/
def G (a0 : (⟨2, ![1024, 300]⟩ : Shape).Idx → EReal) (a1 a2 : (⟨2, ![1024, 64]⟩ : Shape).Idx → BitVec 32)
    (a3 a4 : (⟨2, ![50000, 300]⟩ : Shape).Idx → EReal) (a5 a6 : (⟨1, ![50000]⟩ : Shape).Idx → EReal) :
    (⟨0, ![]⟩ : Shape).Idx → EReal :=
  fun _ => ((Cert.Spec.loss (r2 a0) (r2 a3) (r1 a5) (r2 a4) (r1 a6) (tok a1) (tok a2) : ℝ) : EReal)

/-- An entry that is a real is the coercion of its real reading. -/
theorem coe_r2 {n k : Nat} (a : (⟨2, ![n, k]⟩ : Shape).Idx → EReal) (h : ∀ i, ∃ r : ℝ, a i = (r : EReal)) (i : Fin n) (j : Fin k) :
    a (ix2 i j) = ((r2 a i j : ℝ) : EReal) := by
  obtain ⟨r, hr⟩ := h (ix2 i j)
  unfold r2; rw [hr, EReal.toReal_coe]
theorem coe_r1 {n : Nat} (a : (⟨1, ![n]⟩ : Shape).Idx → EReal) (h : ∀ i, ∃ r : ℝ, a i = (r : EReal)) (i : Fin n) :
    a (ix1 i) = ((r1 a i : ℝ) : EReal) := by
  obtain ⟨r, hr⟩ := h (ix1 i)
  unfold r1; rw [hr, EReal.toReal_coe]
/-- A token word below 50000 is the value of its vocabulary index. -/
theorem tok_val (w : (⟨2, ![1024, 64]⟩ : Shape).Idx → BitVec 32) (h : ∀ i, (w i).toNat < 50000) (b : Fin 1024) (l : Fin 64) :
    (w (ix2 b l)).toNat = (tok w b l).val := by
  unfold tok; exact (Nat.mod_eq_of_lt (h (ix2 b l))).symm

end Cert.Extract

end
-- ==== Proof.KI.Blocks.lean ====
/-
  The five input blocks of the region at a grid point, for a memory whose float arrays are real.

  The hidden array enters the region after a change of float format, which on the extended reals is the identity, and
  its block is the whole array at every point. A table's block at point `t` is its rows `1000 t … 1000 t + 999`. A
  bias enters re-laid as a column, the same entries in the same order, and its block at point `t` is the entries
  `1000 t … 1000 t + 999`. Each entry, being a real, is the coercion of its real reading.
-/
import proofs.«405701_j335007449569_3_alg».proof.Proof.KI.Main
import proofs.«405701_j335007449569_3_alg».proof.Proof.Extract
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Fr

open Idealize.ShloMosaic Idealize.ShloMosaic.TcCoe Idealize.ShloMosaic.Tactic Idealize.ShloMosaic.ValueIdx
open Idealize.SL.Sem
open Cert.KernelIdeal Cert.KernelIdeal.Gen
open Cert.Extract

variable (m : (ℓ : Loc nD τ sig) → Buf (Elt Ideal) ℓ) (c : Dev nD)

/-! ## The block indices over the grid -/

/-- The hidden array's block index is `(0, 0)` at every point. -/
theorem index0 : ∀ t : Fin cfg0.N, win0_0.index t (0 : Fin 2) = 0 ∧ win0_0.index t (1 : Fin 2) = 0 :=
  (by decide +kernel : ∀ t : Fin grid0.N, _)
/-- The first table's block index at point `t` is `(t, 0)`. -/
theorem index1 : ∀ t : Fin cfg0.N, win0_1.index t (0 : Fin 2) = t.val ∧ win0_1.index t (1 : Fin 2) = 0 :=
  (by decide +kernel : ∀ t : Fin grid0.N, _)
/-- The first bias column's block index at point `t` is `(t, 0)`. -/
theorem index2 : ∀ t : Fin cfg0.N, win0_2.index t (0 : Fin 2) = t.val ∧ win0_2.index t (1 : Fin 2) = 0 :=
  (by decide +kernel : ∀ t : Fin grid0.N, _)
/-- The second table's block index at point `t` is `(t, 0)`. -/
theorem index3 : ∀ t : Fin cfg0.N, win0_3.index t (0 : Fin 2) = t.val ∧ win0_3.index t (1 : Fin 2) = 0 :=
  (by decide +kernel : ∀ t : Fin grid0.N, _)
/-- The second bias column's block index at point `t` is `(t, 0)`. -/
theorem index4 : ∀ t : Fin cfg0.N, win0_4.index t (0 : Fin 2) = t.val ∧ win0_4.index t (1 : Fin 2) = 0 :=
  (by decide +kernel : ∀ t : Fin grid0.N, _)

/-- A point's number is below 50. -/
theorem lt50 (t : Fin cfg0.N) : t.val < 50 := by
  have h := t.isLt
  have e : cfg0.N = 50 := N_0
  omega

/-! ## The arrays the host wrote before the region -/

/-- The hidden array in the narrow format is the hidden array: on the extended reals a change of format is the identity. -/
theorem V_main_v0 : (V m c main_v0 : S1024x300.Idx → EReal) = m ((c : Thread nD τ).loc main_arg0) := by
  dsimp only [V, V0]; simp only [hostOps0, List.flatten_cons, List.flatten_nil, List.append_nil]; after_results; rfl

/-- The first bias column is the first bias re-laid. -/
theorem V_main_v1 : (V m c main_v1 : S50000x1.Idx → EReal)
    = shapeCast S50000x1 (m ((c : Thread nD τ).loc main_arg5) : S50000.Idx → EReal) shapeCasts_S50000_S50000x1 := by
  dsimp only [V, V0]; simp only [hostOps0, List.flatten_cons, List.flatten_nil, List.append_nil]; after_results; rfl

/-- The second bias column is the second bias re-laid. -/
theorem V_main_v2 : (V m c main_v2 : S50000x1.Idx → EReal)
    = shapeCast S50000x1 (m ((c : Thread nD τ).loc main_arg6) : S50000.Idx → EReal) shapeCasts_S50000_S50000x1 := by
  dsimp only [V, V0]; simp only [hostOps0, List.flatten_cons, List.flatten_nil, List.append_nil]; after_results; rfl

/-- A bias column's entry `(v, 0)` is the bias's entry `v`: both sit at row-major position `v`. -/
theorem column_apply (x : S50000.Idx → EReal) (v : Fin 50000) :
    shapeCast S50000x1 x shapeCasts_S50000_S50000x1 (ix2 v (0 : Fin 1)) = x (ix1 v) := by
  refine shapeCast_apply x _ _ _ ?_
  rw [Shape.rowMajor_val_one, Shape.rowMajor_val_two]
  show v.val = v.val * 1 + 0
  omega

/-! ## A block's entry in its array -/

/-- The hidden array's block at any point is the whole array. -/
theorem iblk0_apply (t : Fin cfg0.N) (b : Fin 1024) (d : Fin 300) :
    (iblk m c 0 t : Vec Ideal S1024x300 .bf16) (ix2 b d) = (V m c main_v0 : S1024x300.Idx → EReal) (ix2 b d) := by
  obtain ⟨e0, e1⟩ := index0 t
  unfold iblk
  rw [View.read_apply]
  show V m c main_v0 _ = V m c main_v0 _
  congr 1
  funext a
  apply Fin.ext
  match a with
  | ⟨0, _⟩ => show win0_0.index t 0 * 1024 + 1 * b.val = b.val; rw [e0]; omega
  | ⟨1, _⟩ => show win0_0.index t 1 * 300 + 1 * d.val = d.val; rw [e1]; omega

/-- A table's block at point `t` holds the table's rows `1000 t … 1000 t + 999` (first table). -/
theorem iblk1_apply (t : Fin cfg0.N) (r : Fin 1000) (d : Fin 300) :
    (iblk m c 1 t : Vec Ideal S1000x300 .f32) (ix2 r d)
      = (V m c main_arg3 : S50000x300.Idx → EReal) (ix2 ⟨1000 * t.val + r.val, by have := lt50 t; omega⟩ d) := by
  obtain ⟨e0, e1⟩ := index1 t
  unfold iblk
  rw [View.read_apply]
  show V m c main_arg3 _ = V m c main_arg3 _
  congr 1
  funext a
  apply Fin.ext
  match a with
  | ⟨0, _⟩ => show win0_1.index t 0 * 1000 + 1 * r.val = 1000 * t.val + r.val; rw [e0]; omega
  | ⟨1, _⟩ => show win0_1.index t 1 * 300 + 1 * d.val = d.val; rw [e1]; omega

/-- A bias column's block at point `t` holds the column's entries `1000 t … 1000 t + 999` (first bias). -/
theorem iblk2_apply (t : Fin cfg0.N) (r : Fin 1000) :
    (iblk m c 2 t : Vec Ideal S1000x1 .f32) (ix2 r (0 : Fin 1))
      = (V m c main_v1 : S50000x1.Idx → EReal) (ix2 ⟨1000 * t.val + r.val, by have := lt50 t; omega⟩ (0 : Fin 1)) := by
  obtain ⟨e0, e1⟩ := index2 t
  unfold iblk
  rw [View.read_apply]
  show V m c main_v1 _ = V m c main_v1 _
  congr 1
  funext a
  apply Fin.ext
  match a with
  | ⟨0, _⟩ => show win0_2.index t 0 * 1000 + 1 * r.val = 1000 * t.val + r.val; rw [e0]; omega
  | ⟨1, _⟩ => show win0_2.index t 1 * 1 + 1 * 0 = 0; rw [e1]

/-- A table's block at point `t` holds the table's rows `1000 t … 1000 t + 999` (second table). -/
theorem iblk3_apply (t : Fin cfg0.N) (r : Fin 1000) (d : Fin 300) :
    (iblk m c 3 t : Vec Ideal S1000x300 .f32) (ix2 r d)
      = (V m c main_arg4 : S50000x300.Idx → EReal) (ix2 ⟨1000 * t.val + r.val, by have := lt50 t; omega⟩ d) := by
  obtain ⟨e0, e1⟩ := index3 t
  unfold iblk
  rw [View.read_apply]
  show V m c main_arg4 _ = V m c main_arg4 _
  congr 1
  funext a
  apply Fin.ext
  match a with
  | ⟨0, _⟩ => show win0_3.index t 0 * 1000 + 1 * r.val = 1000 * t.val + r.val; rw [e0]; omega
  | ⟨1, _⟩ => show win0_3.index t 1 * 300 + 1 * d.val = d.val; rw [e1]; omega

/-- A bias column's block at point `t` holds the column's entries `1000 t … 1000 t + 999` (second bias). -/
theorem iblk4_apply (t : Fin cfg0.N) (r : Fin 1000) :
    (iblk m c 4 t : Vec Ideal S1000x1 .f32) (ix2 r (0 : Fin 1))
      = (V m c main_v2 : S50000x1.Idx → EReal) (ix2 ⟨1000 * t.val + r.val, by have := lt50 t; omega⟩ (0 : Fin 1)) := by
  obtain ⟨e0, e1⟩ := index4 t
  unfold iblk
  rw [View.read_apply]
  show V m c main_v2 _ = V m c main_v2 _
  congr 1
  funext a
  apply Fin.ext
  match a with
  | ⟨0, _⟩ => show win0_4.index t 0 * 1000 + 1 * r.val = 1000 * t.val + r.val; rw [e0]; omega
  | ⟨1, _⟩ => show win0_4.index t 1 * 1 + 1 * 0 = 0; rw [e1]

/-! ## The blocks as the real arrays' entries -/

/-- The hidden block's entry `(b, d)` is the hidden array's real entry `(b, d)`. -/
theorem blk0 (h0 : ∀ i, ∃ r : ℝ, m ((c.tc : Thread nD τ).loc main_arg0) i = (r : EReal))
    (t : Fin cfg0.N) (b : Fin 1024) (d : Fin 300) :
    (iblk m c 0 t : Vec Ideal S1024x300 .bf16) (ix2 b d)
      = ((r2 (m ((c.tc : Thread nD τ).loc main_arg0)) b d : ℝ) : EReal) := by
  rw [iblk0_apply, V_main_v0]
  exact coe_r2 _ h0 b d

/-- The first table's block at point `t`, entry `(r, d)`, is the table's real entry `(1000 t + r, d)`. -/
theorem blk1 (h3 : ∀ i, ∃ r : ℝ, m ((c.tc : Thread nD τ).loc main_arg3) i = (r : EReal))
    (t : Fin cfg0.N) (r : Fin 1000) (d : Fin 300) :
    (iblk m c 1 t : Vec Ideal S1000x300 .f32) (ix2 r d)
      = ((r2 (m ((c.tc : Thread nD τ).loc main_arg3)) ⟨1000 * t.val + r.val, by have := lt50 t; omega⟩ d : ℝ) : EReal) := by
  rw [iblk1_apply, V_main_arg3]
  exact coe_r2 _ h3 _ d

/-- The first bias column's block at point `t`, entry `(r, 0)`, is the bias's real entry `1000 t + r`. -/
theorem blk2 (h5 : ∀ i, ∃ r : ℝ, m ((c.tc : Thread nD τ).loc main_arg5) i = (r : EReal))
    (t : Fin cfg0.N) (r : Fin 1000) :
    (iblk m c 2 t : Vec Ideal S1000x1 .f32) (ix2 r (0 : Fin 1))
      = ((r1 (m ((c.tc : Thread nD τ).loc main_arg5)) ⟨1000 * t.val + r.val, by have := lt50 t; omega⟩ : ℝ) : EReal) := by
  rw [iblk2_apply, V_main_v1, column_apply]
  exact coe_r1 _ h5 _

/-- The second table's block at point `t`, entry `(r, d)`, is the table's real entry `(1000 t + r, d)`. -/
theorem blk3 (h4 : ∀ i, ∃ r : ℝ, m ((c.tc : Thread nD τ).loc main_arg4) i = (r : EReal))
    (t : Fin cfg0.N) (r : Fin 1000) (d : Fin 300) :
    (iblk m c 3 t : Vec Ideal S1000x300 .f32) (ix2 r d)
      = ((r2 (m ((c.tc : Thread nD τ).loc main_arg4)) ⟨1000 * t.val + r.val, by have := lt50 t; omega⟩ d : ℝ) : EReal) := by
  rw [iblk3_apply, V_main_arg4]
  exact coe_r2 _ h4 _ d

/-- The second bias column's block at point `t`, entry `(r, 0)`, is the bias's real entry `1000 t + r`. -/
theorem blk4 (h6 : ∀ i, ∃ r : ℝ, m ((c.tc : Thread nD τ).loc main_arg6) i = (r : EReal))
    (t : Fin cfg0.N) (r : Fin 1000) :
    (iblk m c 4 t : Vec Ideal S1000x1 .f32) (ix2 r (0 : Fin 1))
      = ((r1 (m ((c.tc : Thread nD τ).loc main_arg6)) ⟨1000 * t.val + r.val, by have := lt50 t; omega⟩ : ℝ) : EReal) := by
  rw [iblk4_apply, V_main_v2, column_apply]
  exact coe_r1 _ h6 _

end Cert.KernelIdeal.Fr

end
-- ==== Proof.KI.Arrays.lean ====
/-
  What the region leaves in its two result arrays, for a memory whose float arrays are real.

  A result array has one block per half of the vocabulary, written back at the half's last tile. At that tile the
  block holds what the body computes from the running pair (shift, sum) of the recurrence over the region's input
  blocks; those blocks are blocks of the real arrays, so the recurrence's pair is the specification's, and the stored
  value is the half's log-sum-exp of each batch row's scores. The two written-back blocks cover the array, so after
  the region the array holds, at `(h, 0, b)`, the log-sum-exp of half `h` of the scores of batch row `b`.
-/
import proofs.«405701_j335007449569_3_alg».proof.Proof.KI.Scan
import proofs.«405701_j335007449569_3_alg».proof.Proof.KI.Blocks
import proofs.«405701_j335007449569_3_alg».proof.Proof.Extract
import proofs.«405701_j335007449569_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Fr

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen
open Cert.Extract Cert.Spec

variable (m : (ℓ : Loc nD τ sig) → Buf (Elt Ideal) ℓ) (c : Dev nD)

/-! ## The real readings of the five float arrays -/

/-- The hidden array's real reading. -/
abbrev Zr : Fin 1024 → Fin 300 → ℝ := r2 (m ((c.tc : Thread nD τ).loc main_arg0))
/-- The first table's real reading. -/
abbrev E1r : Fin 50000 → Fin 300 → ℝ := r2 (m ((c.tc : Thread nD τ).loc main_arg3))
/-- The first bias's real reading. -/
abbrev B1r : Fin 50000 → ℝ := r1 (m ((c.tc : Thread nD τ).loc main_arg5))
/-- The second table's real reading. -/
abbrev E2r : Fin 50000 → Fin 300 → ℝ := r2 (m ((c.tc : Thread nD τ).loc main_arg4))
/-- The second bias's real reading. -/
abbrev B2r : Fin 50000 → ℝ := r1 (m ((c.tc : Thread nD τ).loc main_arg6))

/-! ## A result array as one function of a family of score vectors -/

/-- The array whose entry `(h, 0, b)` is the log-sum-exp of half `h` of the score vector `x b`. -/
def halves (x : Fin 1024 → Fin 50000 → ℝ) : S2x1x1024.Idx → EReal :=
  fun i => ((lseHalf (x ⟨(i 2).val, (i 2).isLt⟩) (i 0).val : ℝ) : EReal)

/-- Its entry `(h, 0, b)`. -/
theorem halves_apply (x : Fin 1024 → Fin 50000 → ℝ) (h : Fin 2) (b : Fin 1024) :
    halves x (ix3 h (0 : Fin 1) b) = ((lseHalf (x b) h.val : ℝ) : EReal) := rfl

/-! ## The result windows' blocks over the grid -/

/-- The first result's block index at point `t` is `(t / 25, 0, 0)`. -/
theorem index5 : ∀ t : Fin cfg0.N, win0_5.index t (0 : Fin 3) = t.val / 25 ∧ win0_5.index t (1 : Fin 3) = 0 ∧ win0_5.index t (2 : Fin 3) = 0 :=
  (by decide +kernel : ∀ t : Fin grid0.N, _)
/-- The second result's block index at point `t` is `(t / 25, 0, 0)`. -/
theorem index6 : ∀ t : Fin cfg0.N, win0_6.index t (0 : Fin 3) = t.val / 25 ∧ win0_6.index t (1 : Fin 3) = 0 ∧ win0_6.index t (2 : Fin 3) = 0 :=
  (by decide +kernel : ∀ t : Fin grid0.N, _)

/-- A block whose entry `(0, 0, b)` is the log-sum-exp of half `t / 25` of `x b` is block `t` of `halves x`
    (first result): the block's entry `(0, 0, b)` sits in the array at `(t / 25, 0, b)`. -/
theorem cut5_read (x : Fin 1024 → Fin 50000 → ℝ) (t : Fin cfg0.N) (X : Vec Ideal S1x1x1024 .f32)
    (hX : ∀ b : Fin 1024, X (ix3 (0 : Fin 1) (0 : Fin 1) b) = ((lseHalf (x b) (t.val / 25) : ℝ) : EReal)) :
    (cfg0.win 5).cut (grid0.coords t) X = ((cfg0.win 5).blk t).view.read (Elt Ideal) (halves x) := by
  obtain ⟨e0, e1, e2⟩ := index5 t
  refine funext fun (j : S1x1x1024.Idx) => ?_
  rw [View.read_apply]
  show X j = halves x (((cfg0.win 5).blk t).view.emb j)
  obtain ⟨p, q, b, rfl⟩ : ∃ (p : Fin 1) (q : Fin 1) (b : Fin 1024), j = ix3 p q b := ⟨j 0, j 1, j 2, eq_ix3 j⟩
  obtain rfl : p = 0 := Subsingleton.elim _ _
  obtain rfl : q = 0 := Subsingleton.elim _ _
  have ek : ((cfg0.win 5).blk t).view.emb (ix3 (0 : Fin 1) (0 : Fin 1) b)
      = ix3 (⟨t.val / 25, by have := lt50 t; omega⟩ : Fin 2) (0 : Fin 1) b := by
    funext a
    apply Fin.ext
    match a with
    | ⟨0, _⟩ => show win0_5.index t 0 * 1 + 1 * 0 = t.val / 25; rw [e0]; omega
    | ⟨1, _⟩ => show win0_5.index t 1 * 1 + 1 * 0 = 0; rw [e1]
    | ⟨2, _⟩ => show win0_5.index t 2 * 1024 + 1 * b.val = b.val; rw [e2]; omega
  rw [ek, hX b]
  rfl

/-- The same for the second result. -/
theorem cut6_read (x : Fin 1024 → Fin 50000 → ℝ) (t : Fin cfg0.N) (X : Vec Ideal S1x1x1024 .f32)
    (hX : ∀ b : Fin 1024, X (ix3 (0 : Fin 1) (0 : Fin 1) b) = ((lseHalf (x b) (t.val / 25) : ℝ) : EReal)) :
    (cfg0.win 6).cut (grid0.coords t) X = ((cfg0.win 6).blk t).view.read (Elt Ideal) (halves x) := by
  obtain ⟨e0, e1, e2⟩ := index6 t
  refine funext fun (j : S1x1x1024.Idx) => ?_
  rw [View.read_apply]
  show X j = halves x (((cfg0.win 6).blk t).view.emb j)
  obtain ⟨p, q, b, rfl⟩ : ∃ (p : Fin 1) (q : Fin 1) (b : Fin 1024), j = ix3 p q b := ⟨j 0, j 1, j 2, eq_ix3 j⟩
  obtain rfl : p = 0 := Subsingleton.elim _ _
  obtain rfl : q = 0 := Subsingleton.elim _ _
  have ek : ((cfg0.win 6).blk t).view.emb (ix3 (0 : Fin 1) (0 : Fin 1) b)
      = ix3 (⟨t.val / 25, by have := lt50 t; omega⟩ : Fin 2) (0 : Fin 1) b := by
    funext a
    apply Fin.ext
    match a with
    | ⟨0, _⟩ => show win0_6.index t 0 * 1 + 1 * 0 = t.val / 25; rw [e0]; omega
    | ⟨1, _⟩ => show win0_6.index t 1 * 1 + 1 * 0 = 0; rw [e1]
    | ⟨2, _⟩ => show win0_6.index t 2 * 1024 + 1 * b.val = b.val; rw [e2]; omega
  rw [ek, hX b]
  rfl

/-- An index of the first result array is in point `t`'s block iff each coordinate is in the block's range. -/
theorem mem_blk5 (t : Fin cfg0.N) (i : S2x1x1024.Idx) :
    i ∈ ((cfg0.win 5).blk t).view.set ↔ ∀ a : Fin 3, win0_5.index t a * S1x1x1024.size a ≤ (i a).val
      ∧ (i a).val < win0_5.index t a * S1x1x1024.size a + S1x1x1024.size a := by
  show i ∈ ((View.whole main_v3_0).slice (win0_5.rect t)).set ↔ _
  rw [View.set_slice_whole, Rect.mem_set_unit]
  exact Iff.rfl

/-- The same for the second result array. -/
theorem mem_blk6 (t : Fin cfg0.N) (i : S2x1x1024.Idx) :
    i ∈ ((cfg0.win 6).blk t).view.set ↔ ∀ a : Fin 3, win0_6.index t a * S1x1x1024.size a ≤ (i a).val
      ∧ (i a).val < win0_6.index t a * S1x1x1024.size a + S1x1x1024.size a := by
  show i ∈ ((View.whole main_v3_1).slice (win0_6.rect t)).set ↔ _
  rw [View.set_slice_whole, Rect.mem_set_unit]
  exact Iff.rfl

/-- The last tile of half `h`, as a grid point. -/
def lastOf (h : ℕ) (hh : h < 2) : Fin cfg0.N := ⟨25 * h + 24, by rw [show cfg0.N = 50 from N_0]; omega⟩

/-- The two written-back blocks cover the first result array: entry `(h, 0, b)` is in the block of half `h`'s last tile. -/
theorem cover5 (i : S2x1x1024.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 1024 := (i 2).isLt
  refine ⟨lastOf (i 0).val hi0, (flush0_5 _).mpr (by show (25 * (i 0).val + 24) % 25 = 24; omega), ?_⟩
  obtain ⟨e0, e1, e2⟩ := index5 (lastOf (i 0).val hi0)
  have ev : (lastOf (i 0).val hi0).val = 25 * (i 0).val + 24 := rfl
  rw [mem_blk5]
  intro a
  match a with
  | ⟨0, _⟩ => show win0_5.index _ 0 * 1 ≤ (i 0).val ∧ (i 0).val < win0_5.index _ 0 * 1 + 1; rw [e0, ev]; omega
  | ⟨1, _⟩ => show win0_5.index _ 1 * 1 ≤ (i 1).val ∧ (i 1).val < win0_5.index _ 1 * 1 + 1; rw [e1]; omega
  | ⟨2, _⟩ => show win0_5.index _ 2 * 1024 ≤ (i 2).val ∧ (i 2).val < win0_5.index _ 2 * 1024 + 1024; rw [e2]; omega

/-- The same for the second result array. -/
theorem cover6 (i : S2x1x1024.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 1024 := (i 2).isLt
  refine ⟨lastOf (i 0).val hi0, (flush0_6 _).mpr (by show (25 * (i 0).val + 24) % 25 = 24; omega), ?_⟩
  obtain ⟨e0, e1, e2⟩ := index6 (lastOf (i 0).val hi0)
  have ev : (lastOf (i 0).val hi0).val = 25 * (i 0).val + 24 := rfl
  rw [mem_blk6]
  intro a
  match a with
  | ⟨0, _⟩ => show win0_6.index _ 0 * 1 ≤ (i 0).val ∧ (i 0).val < win0_6.index _ 0 * 1 + 1; rw [e0, ev]; omega
  | ⟨1, _⟩ => show win0_6.index _ 1 * 1 ≤ (i 1).val ∧ (i 1).val < win0_6.index _ 1 * 1 + 1; rw [e1]; omega
  | ⟨2, _⟩ => show win0_6.index _ 2 * 1024 ≤ (i 2).val ∧ (i 2).val < win0_6.index _ 2 * 1024 + 1024; rw [e2]; omega

/-! ## The recurrence over the region's blocks -/

section Scanned

variable (h0 : ∀ i, ∃ r : ℝ, m ((c.tc : Thread nD τ).loc main_arg0) i = (r : EReal))
  (h3 : ∀ i, ∃ r : ℝ, m ((c.tc : Thread nD τ).loc main_arg3) i = (r : EReal))
  (h4 : ∀ i, ∃ r : ℝ, m ((c.tc : Thread nD τ).loc main_arg4) i = (r : EReal))
  (h5 : ∀ i, ∃ r : ℝ, m ((c.tc : Thread nD τ).loc main_arg5) i = (r : EReal))
  (h6 : ∀ i, ∃ r : ℝ, m ((c.tc : Thread nD τ).loc main_arg6) i = (r : EReal))
  (B : ℕ → Cert.KernelIdeal.Acc.Blocks Ideal)
  (hB : ∀ t : Fin cfg0.N, B t.val = ⟨iblk m c 0 t, iblk m c 1 t, iblk m c 2 t, iblk m c 3 t, iblk m c 4 t⟩)

/-- Position `t < 50` as a grid point. -/
def ptOf (t : ℕ) (ht : t < 50) : Fin cfg0.N := ⟨t, by rw [show cfg0.N = 50 from N_0]; exact ht⟩

include h0 h3 h4 h5 h6 hB in
/-- At the last tile of half `h` the first vocabulary's stored result, computed from the recurrence over the region's
    blocks, is the half's log-sum-exp of each batch row's scores. -/
theorem out5_blocks (h : ℕ) (hh : h < 2) (b : Fin 1024) :
    Cert.KernelIdeal.Acc.out5 (Cert.KernelIdeal.Acc.acc B (25 * h + 24)) (ix3 (0 : Fin 1) (0 : Fin 1) b)
      = ((lseHalf (logit (Zr m c) (E1r m c) (B1r m c) b) h : ℝ) : EReal) :=
  Cert.KernelIdeal.Acc.out5_spec (Zr m c) (E1r m c) (E2r m c) (B1r m c) (B2r m c) B
    (fun t ht b d => (congrArg (fun X : Cert.KernelIdeal.Acc.Blocks Ideal => X.z (ix2 b d)) (hB (ptOf t ht))).trans (blk0 m c h0 (ptOf t ht) b d))
    (fun t ht r d => (congrArg (fun X : Cert.KernelIdeal.Acc.Blocks Ideal => X.e1 (ix2 r d)) (hB (ptOf t ht))).trans (blk1 m c h3 (ptOf t ht) r d))
    (fun t ht r => (congrArg (fun X : Cert.KernelIdeal.Acc.Blocks Ideal => X.b1 (ix2 r (0 : Fin 1))) (hB (ptOf t ht))).trans (blk2 m c h5 (ptOf t ht) r))
    (fun t ht r d => (congrArg (fun X : Cert.KernelIdeal.Acc.Blocks Ideal => X.e2 (ix2 r d)) (hB (ptOf t ht))).trans (blk3 m c h4 (ptOf t ht) r d))
    (fun t ht r => (congrArg (fun X : Cert.KernelIdeal.Acc.Blocks Ideal => X.b2 (ix2 r (0 : Fin 1))) (hB (ptOf t ht))).trans (blk4 m c h6 (ptOf t ht) r))
    h hh b

include h0 h3 h4 h5 h6 hB in
/-- The same for the second vocabulary. -/
theorem out6_blocks (h : ℕ) (hh : h < 2) (b : Fin 1024) :
    Cert.KernelIdeal.Acc.out6 (Cert.KernelIdeal.Acc.acc B (25 * h + 24)) (ix3 (0 : Fin 1) (0 : Fin 1) b)
      = ((lseHalf (logit (Zr m c) (E2r m c) (B2r m c) b) h : ℝ) : EReal) :=
  Cert.KernelIdeal.Acc.out6_spec (Zr m c) (E1r m c) (E2r m c) (B1r m c) (B2r m c) B
    (fun t ht b d => (congrArg (fun X : Cert.KernelIdeal.Acc.Blocks Ideal => X.z (ix2 b d)) (hB (ptOf t ht))).trans (blk0 m c h0 (ptOf t ht) b d))
    (fun t ht r d => (congrArg (fun X : Cert.KernelIdeal.Acc.Blocks Ideal => X.e1 (ix2 r d)) (hB (ptOf t ht))).trans (blk1 m c h3 (ptOf t ht) r d))
    (fun t ht r => (congrArg (fun X : Cert.KernelIdeal.Acc.Blocks Ideal => X.b1 (ix2 r (0 : Fin 1))) (hB (ptOf t ht))).trans (blk2 m c h5 (ptOf t ht) r))
    (fun t ht r d => (congrArg (fun X : Cert.KernelIdeal.Acc.Blocks Ideal => X.e2 (ix2 r d)) (hB (ptOf t ht))).trans (blk3 m c h4 (ptOf t ht) r d))
    (fun t ht r => (congrArg (fun X : Cert.KernelIdeal.Acc.Blocks Ideal => X.b2 (ix2 r (0 : Fin 1))) (hB (ptOf t ht))).trans (blk4 m c h6 (ptOf t ht) r))
    h hh b

end Scanned

/-! ## From the written-back blocks to the result arrays -/

/-- If at the last tile of each half the first result's block holds, at `(0, 0, b)`, the half's log-sum-exp of
    `x b`, then the first result array ends as `halves x`: the two written-back blocks are blocks of `halves x`
    and cover the array. -/
theorem arrAt5_of (dat : Dat τ (Elt Ideal) Unit ℕ (UR sig nD τ) ℕ cfg0 c) (x : Fin 1024 → Fin 50000 → ℝ)
    (hdat : ∀ t : Fin cfg0.N, t.val % 25 = 24 → ∀ b : Fin 1024,
      (dat.after 5 t : Vec Ideal S1x1x1024 .f32) (ix3 (0 : Fin 1) (0 : Fin 1) b) = ((lseHalf (x b) (t.val / 25) : ℝ) : EReal)) :
    dat.arrAt 5 cfg0.N = halves x :=
  dat.arrAt_eq_of_cover 5 (halves x)
    (fun t hf => cut5_read x t (dat.after 5 t) (hdat t ((flush0_5 t).mp hf))) cover5

/-- The same for the second result array. -/
theorem arrAt6_of (dat : Dat τ (Elt Ideal) Unit ℕ (UR sig nD τ) ℕ cfg0 c) (x : Fin 1024 → Fin 50000 → ℝ)
    (hdat : ∀ t : Fin cfg0.N, t.val % 25 = 24 → ∀ b : Fin 1024,
      (dat.after 6 t : Vec Ideal S1x1x1024 .f32) (ix3 (0 : Fin 1) (0 : Fin 1) b) = ((lseHalf (x b) (t.val / 25) : ℝ) : EReal)) :
    dat.arrAt 6 cfg0.N = halves x :=
  dat.arrAt_eq_of_cover 6 (halves x)
    (fun t hf => cut6_read x t (dat.after 6 t) (hdat t ((flush0_6 t).mp hf))) cover6

/-! ## The two result arrays after the region -/

section Final

variable (h0 : ∀ i, ∃ r : ℝ, m ((c.tc : Thread nD τ).loc main_arg0) i = (r : EReal))
  (h3 : ∀ i, ∃ r : ℝ, m ((c.tc : Thread nD τ).loc main_arg3) i = (r : EReal))
  (h4 : ∀ i, ∃ r : ℝ, m ((c.tc : Thread nD τ).loc main_arg4) i = (r : EReal))
  (h5 : ∀ i, ∃ r : ℝ, m ((c.tc : Thread nD τ).loc main_arg5) i = (r : EReal))
  (h6 : ∀ i, ∃ r : ℝ, m ((c.tc : Thread nD τ).loc main_arg6) i = (r : EReal))

include h0 h3 h4 h5 h6 in
/-- THE FIRST RESULT ARRAY after the region: entry `(h, 0, b)` is the log-sum-exp of half `h` of the first
    vocabulary's scores of batch row `b`. -/
theorem arr5 (h : Fin 2) (b : Fin 1024) :
    (dats m 0 c).arrAt 5 cfg0.N (ix3 h (0 : Fin 1) b)
      = ((Cert.Spec.lseHalf (Cert.Spec.logit (Cert.Extract.r2 (m ((c.tc : Thread nD τ).loc main_arg0)))
          (Cert.Extract.r2 (m ((c.tc : Thread nD τ).loc main_arg3))) (Cert.Extract.r1 (m ((c.tc : Thread nD τ).loc main_arg5))) b) h.val : ℝ) : EReal) := by
  have e := arrAt5_of c (dats m 0 c) (logit (Zr m c) (E1r m c) (B1r m c)) fun t h1 b => by
    have h50 := lt50 t
    rw [after0_5, out5_at m c t h1]
    have e := out5_blocks m c h0 h3 h4 h5 h6 (blk m c) (blk_val m c) (t.val / 25) (by omega) b
    rwa [show 25 * (t.val / 25) + 24 = t.val by omega] at e
  exact (congrFun e (ix3 h (0 : Fin 1) b)).trans (halves_apply _ h b)

include h0 h3 h4 h5 h6 in
/-- THE SECOND RESULT ARRAY after the region: entry `(h, 0, b)` is the log-sum-exp of half `h` of the second
    vocabulary's scores of batch row `b`. -/
theorem arr6 (h : Fin 2) (b : Fin 1024) :
    (dats m 0 c).arrAt 6 cfg0.N (ix3 h (0 : Fin 1) b)
      = ((Cert.Spec.lseHalf (Cert.Spec.logit (Cert.Extract.r2 (m ((c.tc : Thread nD τ).loc main_arg0)))
          (Cert.Extract.r2 (m ((c.tc : Thread nD τ).loc main_arg4))) (Cert.Extract.r1 (m ((c.tc : Thread nD τ).loc main_arg6))) b) h.val : ℝ) : EReal) := by
  have e := arrAt6_of c (dats m 0 c) (logit (Zr m c) (E2r m c) (B2r m c)) fun t h1 b => by
    have h50 := lt50 t
    rw [after0_6, out6_at m c t h1]
    have e := out6_blocks m c h0 h3 h4 h5 h6 (blk m c) (blk_val m c) (t.val / 25) (by omega) b
    rwa [show 25 * (t.val / 25) + 24 = t.val by omega] at e
  exact (congrFun e (ix3 h (0 : Fin 1) b)).trans (halves_apply _ h b)

end Final

end Cert.KernelIdeal.Fr

end
-- ==== Proof.KTail.lean ====
/-
  THE KERNEL PROGRAM'S HOST TAIL READ AT ITS RESULT.

  After the pipelined region the program runs a straight line of host operations on the region's two results, the
  log-sum-exp of each HALF of the vocabulary for each batch row and each of the two vocabularies. The line
    • joins the two halves: the log-sum-exp of the whole vocabulary is the larger half plus log1p of the exponential of
      minus the halves' distance (a `select` on the difference being unordered with itself guards it; on extended reals
      nothing is unordered, so it is never taken);
    • per vocabulary and batch row forms  (number of unmasked tokens) · lse − ⟨masked sum of the tokens' table rows, hidden
      vector⟩ − (masked sum of the tokens' biases),  the mask being 1 on a token that is not the padding token 0, the
      table rows and biases read by gathers at the tokens (a non-negative token below the table's height is its own
      index: the normalisation of negative indices and the gather's clamp keep it);
    • adds the two vocabularies' rows, sums over the 1024 batch rows and divides by 1024.

  The module first names the line's result as a TERM of the buffers it reads, in three stages written once for any float
  instance (`lseOf`, `nllOf`, `meanOf`; `v92_eq`), then reads each stage at an index at the ideal instance, on
  buffers holding real numbers and token words, and ends with `tail_value`: the line's result is the real mean of the
  row terms `KN`.
-/
import proofs.«405701_j335007449569_3_alg».proof.Proof.Gen.KernelIdeal.Launch
import proofs.«405701_j335007449569_3_alg».proof.Proof.Spec
import proofs.«405701_j335007449569_3_alg».proof.Proof.LibIdealReal
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Tail

open Cert.KernelIdeal Cert.KernelIdeal.Gen Idealize.ShloMosaic Idealize.ShloMosaic.ValueIdx Cert.Spec
open scoped BigOperators

variable {F : FTy → Type} [FloatOps F]

/-- The log-sum-exp of the whole vocabulary from the two halves' log-sum-exps (rows 0 and 1 of the operand):
    the larger half plus log1p of the exponential of minus the halves' distance; where the halves' difference is
    unordered with itself the sum of the halves stands instead. -/
def lseOf (r : (⟨S2x1x1024, .f32⟩ : BufTy).Contents (Elt F)) : (⟨S1024, .f32⟩ : BufTy).Contents (Elt F) :=
  let a : (⟨S1024, .f32⟩ : BufTy).Contents (Elt F) := shapeCast S1024 (extractStridedSlice S1x1x1024 ![0, 0, 0] r slices_S2x1x1024_S1x1x1024_0_0_0) shapeCasts_S1x1x1024_S1024
  let b : (⟨S1024, .f32⟩ : BufTy).Contents (Elt F) := shapeCast S1024 (extractStridedSlice S1x1x1024 ![1, 0, 0] r slices_S2x1x1024_S1x1x1024_1_0_0) shapeCasts_S1x1x1024_S1024
  select (cmpf .une (subf a b) (subf a b)) (addf a b) (addf (maximumf a b) (Host.log1p (Host.exp (Host.negf (Host.absf (subf a b))))))

/-- The padding mask of the tokens as floats: 1 where the token is not 0. -/
def mskOf (tok : (⟨S1024x64, .i32⟩ : BufTy).Contents (Elt F)) : (⟨S1024x64, .f32⟩ : BufTy).Contents (Elt F) :=
  uitofp .f32 (cmpi .ne tok (broadcastInDim S1024x64 ![] bcast_S_S1024x64 (constantI S_ 32 0#32)))

/-- The tokens as table row indices (a negative word counted from the table's end), one index vector per token. -/
def idxOf (tok : (⟨S1024x64, .i32⟩ : BufTy).Contents (Elt F)) : (⟨S1024x64x1, .i32⟩ : BufTy).Contents (Elt F) :=
  broadcastInDim S1024x64x1 ![0, 1] bcast_S1024x64_S1024x64x1_0_1
    (select (cmpi .slt tok (broadcastInDim S1024x64 ![] bcast_S_S1024x64 (constantI S_ 32 0#32)))
      (addi tok (broadcastInDim S1024x64 ![] bcast_S_S1024x64 (constantI S_ 32 50000#32))) tok)

/-- A vocabulary's masked negative log-likelihood per batch row: the count of unmasked tokens times the row's
    log-sum-exp, minus the hidden vector's product with the masked sum of the tokens' table rows, minus the masked sum
    of the tokens' biases. -/
def nllOf (z : (⟨S1024x300, .f32⟩ : BufTy).Contents (Elt F)) (tok : (⟨S1024x64, .i32⟩ : BufTy).Contents (Elt F))
    (emb : (⟨S50000x300, .f32⟩ : BufTy).Contents (Elt F)) (bias : (⟨S50000, .f32⟩ : BufTy).Contents (Elt F))
    (l : (⟨S1024, .f32⟩ : BufTy).Contents (Elt F)) : (⟨S1024, .f32⟩ : BufTy).Contents (Elt F) :=
  subf (subf
      (mulf (Host.reduceAdd (mskOf tok) (constant S_ .f32 0x00000000#32) reducesTo_S1024x64_S1024_d1 h_S_) l)
      (Host.reduceAdd (mulf
          (Host.reduceAdd (mulf (Host.gather gather_S50000x300_S1024x64x1_S1024x64x300_2_0_n_n_0_2_1300 emb (idxOf tok))
              (broadcastInDim S1024x64x300 ![0, 1, 2] bcast_S1024x64x1_S1024x64x300_0_1_2
                (broadcastInDim S1024x64x1 ![0, 1] bcast_S1024x64_S1024x64x1_0_1 (mskOf tok))))
            (constant S_ .f32 0x00000000#32) reducesTo_S1024x64x300_S1024x300_d1 h_S_) z)
        (constant S_ .f32 0x00000000#32) reducesTo_S1024x300_S1024_d1 h_S_))
    (Host.reduceAdd (mulf (Host.gather gather_S50000_S1024x64x1_S1024x64_n_0_n_n_0_2_1 bias (idxOf tok)) (mskOf tok))
      (constant S_ .f32 0x00000000#32) reducesTo_S1024x64_S1024_d1 h_S_)

/-- The batch mean of the two vocabularies' rows: their sum over the 1024 rows divided by 1024. -/
def meanOf (nx ny : (⟨S1024, .f32⟩ : BufTy).Contents (Elt F)) : (⟨S_, .f32⟩ : BufTy).Contents (Elt F) :=
  Host.divf (Host.reduceAdd (addf nx ny) (constant S_ .f32 0x00000000#32) reducesTo_S1024_S_d0 h_S_) (constant S_ .f32 0x44800000#32)

set_option maxRecDepth 65536 in
set_option maxHeartbeats 40000000 in
/-- The line's result as the staged term of the buffers it reads: each operation's result buffer rewritten to its
    function of its operands' buffers, outermost first, down to the buffers the line does not write. -/
theorem v92_eq (W : Valuation τ sig (Elt F)) :
    StableHlo.after hostOps1 W (Proc.devRef .tc main_v92)
      = meanOf
          (nllOf (W (Proc.devRef .tc main_arg0)) (W (Proc.devRef .tc main_arg1)) (W (Proc.devRef .tc main_arg3)) (W (Proc.devRef .tc main_arg5)) (lseOf (W (Proc.devRef .tc main_v3_0))))
          (nllOf (W (Proc.devRef .tc main_arg0)) (W (Proc.devRef .tc main_arg2)) (W (Proc.devRef .tc main_arg4)) (W (Proc.devRef .tc main_arg6)) (lseOf (W (Proc.devRef .tc main_v3_1)))) := by
  unfold hostOps1
  after_results_simp
  rfl

/-! ## The log-sum-exp stage read at a batch row -/

/-- On two reals: the compare of the difference with itself is never taken, and the rest is the real expression. -/
theorem lse_scalar (x y : ℝ) :
    Scalar.select (Ideal.cmp .une ((x : EReal) - (y : EReal)) ((x : EReal) - (y : EReal))) ((x : EReal) + (y : EReal))
        (max (x : EReal) (y : EReal) + Ideal.log1p (Ideal.exp (-(max ((x : EReal) - (y : EReal)) (-((x : EReal) - (y : EReal)))))))
      = ((max x y + Real.log (1 + Real.exp (-|x - y|)) : ℝ) : EReal) := by
  have hc : Ideal.cmp .une ((x : EReal) - (y : EReal)) ((x : EReal) - (y : EReal)) = 0#1 := by
    unfold Ideal.cmp; simp
  rw [hc, select_zero]
  rw [← EReal.coe_sub, ← EReal.coe_neg, IdealReal.max_coe, IdealReal.max_coe, ← abs_eq_max_neg, ← EReal.coe_neg, IdealReal.exp_coe']
  unfold Ideal.log1p
  rw [← EReal.coe_one, ← EReal.coe_add, IdealReal.log_coe_pos (by positivity), ← EReal.coe_add]

/-- Row `h` of the halves' array, flattened, at batch row `b`. -/
theorem half_apply (r : (⟨S2x1x1024, .f32⟩ : BufTy).Contents (Elt Ideal)) (b : Fin 1024) :
    (shapeCast S1024 (extractStridedSlice S1x1x1024 ![0, 0, 0] r slices_S2x1x1024_S1x1x1024_0_0_0) shapeCasts_S1x1x1024_S1024 (ix1 b)
        = r (ix3 (0 : Fin 2) (0 : Fin 1) b))
    ∧ (shapeCast S1024 (extractStridedSlice S1x1x1024 ![1, 0, 0] r slices_S2x1x1024_S1x1x1024_1_0_0) shapeCasts_S1x1x1024_S1024 (ix1 b)
        = r (ix3 (1 : Fin 2) (0 : Fin 1) b)) := by
  constructor
  · rw [shapeCast_apply _ _ (ix1 b) (ix3 (0 : Fin 1) (0 : Fin 1) b) (by rw [Shape.rowMajor_val_three, Shape.rowMajor_val_one]; simp)]
    exact extractStridedSlice_apply _ _ _ _ (ix3 (0 : Fin 2) (0 : Fin 1) b) (fun a => by fin_cases a <;> simp)
  · rw [shapeCast_apply _ _ (ix1 b) (ix3 (0 : Fin 1) (0 : Fin 1) b) (by rw [Shape.rowMajor_val_three, Shape.rowMajor_val_one]; simp)]
    exact extractStridedSlice_apply _ _ _ _ (ix3 (1 : Fin 2) (0 : Fin 1) b) (fun a => by fin_cases a <;> simp)

/-- The whole vocabulary's log-sum-exp at batch row `b`, the halves' being the reals `L 0`, `L 1`. -/
theorem lseOf_apply (r : (⟨S2x1x1024, .f32⟩ : BufTy).Contents (Elt Ideal)) (L : Fin 2 → ℝ) (b : Fin 1024)
    (h0 : r (ix3 (0 : Fin 2) (0 : Fin 1) b) = ((L 0 : ℝ) : EReal)) (h1 : r (ix3 (1 : Fin 2) (0 : Fin 1) b) = ((L 1 : ℝ) : EReal)) :
    lseOf (F := Ideal) r (ix1 b) = ((max (L 0) (L 1) + Real.log (1 + Real.exp (-|L 0 - L 1|)) : ℝ) : EReal) := by
  obtain ⟨ha, hb⟩ := half_apply r b
  rw [h0] at ha; rw [h1] at hb
  refine Eq.trans ?_ (lse_scalar (L 0) (L 1))
  rw [← ha, ← hb]
  rfl

/-! ## Token words -/

/-- The mask of a token word: the compare with 0 read as a float is the real mask. -/
theorem msk_word (w : BitVec 32) (t : Fin 50000) (h : w.toNat = t.val) :
    (FloatOps.uitofp (F := Ideal) .f32 (IntOp.cmpi .ne w 0#32) : EReal) = ((msk t : ℝ) : EReal) := by
  show (((IntOp.cmpi .ne w 0#32).toNat : ℝ) : EReal) = _
  unfold msk IntOp.cmpi
  by_cases ht : t.val = 0
  · have hw : w = 0#32 := BitVec.eq_of_toNat_eq (by rw [h, ht]; rfl)
    subst hw
    simp [ht]
  · have hw : w ≠ 0#32 := fun e => ht (by rw [← h, e]; rfl)
    simp [hw, ht]

/-- A token word is not negative as a signed word, so the index normalisation keeps it. -/
theorem idx_word (w : BitVec 32) (t : Fin 50000) (h : w.toNat = t.val) :
    Scalar.select (IntOp.cmpi .slt w 0#32) (IntOp.addi w 50000#32) w = w := by
  have hlt : w.toNat < 2 ^ 31 := by rw [h]; have := t.isLt; omega
  have hc : IntOp.cmpi .slt w 0#32 = 0#1 := by
    apply eq_zero_of_ne_one
    rw [StableHlo.Predicate.slt_iff_toNat hlt (by decide)]
    simp
  rw [hc, select_zero]

/-- A token word read signed and clamped into the table is the token. -/
theorem clamp_word (w : BitVec 32) (t : Fin 50000) (h : w.toNat = t.val) : min w.toInt.toNat (50000 - 1) = t.val := by
  have hlt : w.toNat < 2 ^ 31 := by rw [h]; have := t.isLt; omega
  rw [StableHlo.Predicate.toInt_eq_toNat_of_lt hlt, Int.toNat_natCast, h]
  have := t.isLt; omega

theorem mskOf_apply (tok : (⟨S1024x64, .i32⟩ : BufTy).Contents (Elt Ideal)) (b : Fin 1024) (l : Fin 64) (t : Fin 50000)
    (h : (tok (ix2 b l) : BitVec 32).toNat = t.val) : mskOf (F := Ideal) tok (ix2 b l) = ((msk t : ℝ) : EReal) :=
  msk_word _ t h

theorem idxOf_apply (tok : (⟨S1024x64, .i32⟩ : BufTy).Contents (Elt Ideal)) (b : Fin 1024) (l : Fin 64) (t : Fin 50000)
    (h : (tok (ix2 b l) : BitVec 32).toNat = t.val) : idxOf (F := Ideal) tok (ix3 b l (0 : Fin 1)) = tok (ix2 b l) := by
  unfold idxOf
  rw [broadcastInDim_apply _ _ _ (ix3 b l (0 : Fin 1)) (ix2 b l) (fun a => by fin_cases a <;> rfl)]
  exact idx_word _ t h

/-! ## The host sums read at an index -/

theorem zero_f32_first : (constant (F := Ideal) S_ .f32 0x00000000#32) (Shape.Idx.first h_S_) = 0 := Ideal.ofBits_zero_f32

/-- The sum over a row's 64 tokens. -/
theorem sum64_apply (x : (⟨S1024x64, .f32⟩ : BufTy).Contents (Elt Ideal)) (b : Fin 1024) :
    Host.reduceAdd x (constant (F := Ideal) S_ .f32 0x00000000#32) reducesTo_S1024x64_S1024_d1 h_S_ (ix1 b) = ∑ l : Fin 64, x (ix2 b l) := by
  simp only [Host.reduceAdd, Ideal.hostReduceAdd_def]
  rw [Ideal.hostReduceAdd_single reducesTo_S1024x64_S1024_d1 (by decide), zero_f32_first, zero_add]
  refine Finset.sum_congr rfl fun k _ => congrArg x (funext fun a => Fin.ext (by match a with | ⟨0, _⟩ => rfl | ⟨1, _⟩ => rfl))

/-- The sum over a row's 64 tokens, a hidden coordinate fixed. -/
theorem sum64x300_apply (x : (⟨S1024x64x300, .f32⟩ : BufTy).Contents (Elt Ideal)) (b : Fin 1024) (d : Fin 300) :
    Host.reduceAdd x (constant (F := Ideal) S_ .f32 0x00000000#32) reducesTo_S1024x64x300_S1024x300_d1 h_S_ (ix2 b d) = ∑ l : Fin 64, x (ix3 b l d) := by
  simp only [Host.reduceAdd, Ideal.hostReduceAdd_def]
  rw [Ideal.hostReduceAdd_single reducesTo_S1024x64x300_S1024x300_d1 (by decide), zero_f32_first, zero_add]
  refine Finset.sum_congr rfl fun k _ => congrArg x (funext fun a => Fin.ext (by match a with | ⟨0, _⟩ => rfl | ⟨1, _⟩ => rfl | ⟨2, _⟩ => rfl))

/-- The sum over the 300 hidden coordinates. -/
theorem sum300_apply (x : (⟨S1024x300, .f32⟩ : BufTy).Contents (Elt Ideal)) (b : Fin 1024) :
    Host.reduceAdd x (constant (F := Ideal) S_ .f32 0x00000000#32) reducesTo_S1024x300_S1024_d1 h_S_ (ix1 b) = ∑ d : Fin 300, x (ix2 b d) := by
  simp only [Host.reduceAdd, Ideal.hostReduceAdd_def]
  rw [Ideal.hostReduceAdd_single reducesTo_S1024x300_S1024_d1 (by decide), zero_f32_first, zero_add]
  refine Finset.sum_congr rfl fun k _ => congrArg x (funext fun a => Fin.ext (by match a with | ⟨0, _⟩ => rfl | ⟨1, _⟩ => rfl))

/-- The sum over the 1024 batch rows. -/
theorem sum1024_apply (x : (⟨S1024, .f32⟩ : BufTy).Contents (Elt Ideal)) :
    Host.reduceAdd x (constant (F := Ideal) S_ .f32 0x00000000#32) reducesTo_S1024_S_d0 h_S_ ix0 = ∑ b : Fin 1024, x (ix1 b) := by
  simp only [Host.reduceAdd, Ideal.hostReduceAdd_def]
  rw [Ideal.hostReduceAdd_total reducesTo_S1024_S_d0 (fun b => b.elim0), zero_f32_first, zero_add]
  exact (Equiv.sum_comp idxEquiv1.symm x).symm

/-! ## The table reads -/

/-- The bias table read at a token. -/
theorem bias_gather_apply (bias : (⟨S50000, .f32⟩ : BufTy).Contents (Elt Ideal)) (tok : (⟨S1024x64, .i32⟩ : BufTy).Contents (Elt Ideal))
    (b : Fin 1024) (l : Fin 64) (t : Fin 50000) (h : (tok (ix2 b l) : BitVec 32).toNat = t.val) :
    Host.gather gather_S50000_S1024x64x1_S1024x64_n_0_n_n_0_2_1 bias (idxOf (F := Ideal) tok) (ix2 b l) = bias (ix1 t) := by
  refine (gather_take_apply (N := 50000) (R := 1024) (C := 64) (by decide) gather_S50000_S1024x64x1_S1024x64_n_0_n_n_0_2_1_wf
    bias (idxOf (F := Ideal) tok) (ix2 b l)).trans ?_
  have hi : idxOf (F := Ideal) tok (takeIdx (ix2 b l)) = tok (ix2 b l) := by
    have e : (takeIdx (ix2 b l) : S1024x64x1.Idx) = ix3 b l (0 : Fin 1) := by
      funext a; match a with | ⟨0, _⟩ => rfl | ⟨1, _⟩ => rfl | ⟨2, _⟩ => rfl
    rw [e]; exact idxOf_apply tok b l t h
  refine congrArg bias (funext fun a => ?_)
  obtain rfl : a = 0 := Subsingleton.elim _ _
  refine Fin.ext ?_
  show min (idxOf (F := Ideal) tok (takeIdx (ix2 b l)) : BitVec 32).toInt.toNat (50000 - 1) = t.val
  rw [hi]; exact clamp_word _ t h

/-- A row gather of a two-axis table: result `(b, l, d)` is the table at the row the start index `(b, l, 0)` names
    (read signed, clamped into the table) and column `d`. -/
theorem gather_rows_apply {α : Type} (emb : S50000x300.Idx → α) (idx : IVec S1024x64x1 32) (b : Fin 1024) (l : Fin 64) (d : Fin 300) :
    Host.gather gather_S50000x300_S1024x64x1_S1024x64x300_2_0_n_n_0_2_1300 emb idx (ix3 b l d)
      = emb (ix2 (⟨min (idx (ix3 b l (0 : Fin 1))).toInt.toNat (50000 - 1), by omega⟩ : Fin 50000) d) := by
  unfold Host.gather
  refine congrArg emb (funext fun a => Fin.ext ?_)
  have hsi : gather_S50000x300_S1024x64x1_S1024x64x300_2_0_n_n_0_2_1300.siIdx (ix3 b l d) ⟨0, by decide⟩ = ix3 b l (0 : Fin 1) := by
    funext c; refine Fin.ext ?_
    match c with | ⟨0, _⟩ => rfl | ⟨1, _⟩ => rfl | ⟨2, _⟩ => rfl
  match a with
  | ⟨0, _⟩ =>
    show gather_S50000x300_S1024x64x1_S1024x64x300_2_0_n_n_0_2_1300.start (ix3 b l d) idx 0
        + gather_S50000x300_S1024x64x1_S1024x64x300_2_0_n_n_0_2_1300.batchCoord (ix3 b l d) 0
        + gather_S50000x300_S1024x64x1_S1024x64x300_2_0_n_n_0_2_1300.offCoord (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x300_S1024x64x1_S1024x64x300_2_0_n_n_0_2_1300.startIndexMap from List.mem_singleton.mpr rfl)]
    show min (idx (gather_S50000x300_S1024x64x1_S1024x64x300_2_0_n_n_0_2_1300.siIdx (ix3 b l d) ⟨0, _⟩)).toInt.toNat (50000 - 1) = _
    rw [hsi]
  | ⟨1, _⟩ =>
    show gather_S50000x300_S1024x64x1_S1024x64x300_2_0_n_n_0_2_1300.start (ix3 b l d) idx 1
        + gather_S50000x300_S1024x64x1_S1024x64x300_2_0_n_n_0_2_1300.batchCoord (ix3 b l d) 1
        + gather_S50000x300_S1024x64x1_S1024x64x300_2_0_n_n_0_2_1300.offCoord (ix3 b l d) 1 = d.val
    rw [GatherDims.batchCoord_eq_zero _ _ _ List.not_mem_nil]
    unfold GatherDims.start
    rw [dif_neg (show (1 : Fin 2) ∉ gather_S50000x300_S1024x64x1_S1024x64x300_2_0_n_n_0_2_1300.startIndexMap by decide)]
    simp only [Nat.zero_add, Nat.add_zero]
    rfl

/-! ## A vocabulary's row term -/

/-- The count of a row's unmasked tokens. -/
theorem cnt_apply (tok : (⟨S1024x64, .i32⟩ : BufTy).Contents (Elt Ideal)) (t : Fin 64 → Fin 50000) (b : Fin 1024)
    (ht : ∀ l, (tok (ix2 b l) : BitVec 32).toNat = (t l).val) :
    Host.reduceAdd (mskOf (F := Ideal) tok) (constant (F := Ideal) S_ .f32 0x00000000#32) reducesTo_S1024x64_S1024_d1 h_S_ (ix1 b)
      = ((∑ l, msk (t l) : ℝ) : EReal) := by
  rw [sum64_apply, ← IdealReal.coe_sum]
  exact Finset.sum_congr rfl fun l _ => mskOf_apply tok b l (t l) (ht l)

/-- The masked sum of a row's tokens' biases. -/
theorem biasSum_apply (tok : (⟨S1024x64, .i32⟩ : BufTy).Contents (Elt Ideal)) (bias : (⟨S50000, .f32⟩ : BufTy).Contents (Elt Ideal))
    (β : Fin 50000 → ℝ) (t : Fin 64 → Fin 50000) (b : Fin 1024)
    (hβ : ∀ v, bias (ix1 v) = ((β v : ℝ) : EReal)) (ht : ∀ l, (tok (ix2 b l) : BitVec 32).toNat = (t l).val) :
    Host.reduceAdd (mulf (Host.gather gather_S50000_S1024x64x1_S1024x64_n_0_n_n_0_2_1 bias (idxOf (F := Ideal) tok)) (mskOf (F := Ideal) tok))
        (constant (F := Ideal) S_ .f32 0x00000000#32) reducesTo_S1024x64_S1024_d1 h_S_ (ix1 b)
      = ((∑ l, β (t l) * msk (t l) : ℝ) : EReal) := by
  rw [sum64_apply, ← IdealReal.coe_sum]
  refine Finset.sum_congr rfl fun l _ => ?_
  rw [mulf_apply, bias_gather_apply bias tok b l (t l) (ht l), hβ, mskOf_apply tok b l (t l) (ht l), ← EReal.coe_mul]

/-- The mask laid along the hidden axis reads the token's mask. -/
theorem mskBcast_apply (tok : (⟨S1024x64, .i32⟩ : BufTy).Contents (Elt Ideal)) (b : Fin 1024) (l : Fin 64) (d : Fin 300) :
    broadcastInDim S1024x64x300 ![0, 1, 2] bcast_S1024x64x1_S1024x64x300_0_1_2
        (broadcastInDim S1024x64x1 ![0, 1] bcast_S1024x64_S1024x64x1_0_1 (mskOf (F := Ideal) tok)) (ix3 b l d)
      = mskOf (F := Ideal) tok (ix2 b l) := by
  rw [broadcastInDim_apply _ _ _ (ix3 b l d) (ix3 b l (0 : Fin 1)) (fun a => by fin_cases a <;> rfl)]
  exact broadcastInDim_apply _ _ _ (ix3 b l (0 : Fin 1)) (ix2 b l) (fun a => by fin_cases a <;> rfl)

/-- The hidden vector's product with the masked sum of a row's tokens' table rows. -/
theorem embDot_apply (zb : (⟨S1024x300, .f32⟩ : BufTy).Contents (Elt Ideal)) (tok : (⟨S1024x64, .i32⟩ : BufTy).Contents (Elt Ideal))
    (emb : (⟨S50000x300, .f32⟩ : BufTy).Contents (Elt Ideal))
    (z : Fin 1024 → Fin 300 → ℝ) (e : Fin 50000 → Fin 300 → ℝ) (t : Fin 64 → Fin 50000) (b : Fin 1024)
    (hz : ∀ d, zb (ix2 b d) = ((z b d : ℝ) : EReal)) (he : ∀ v d, emb (ix2 v d) = ((e v d : ℝ) : EReal))
    (ht : ∀ l, (tok (ix2 b l) : BitVec 32).toNat = (t l).val) :
    Host.reduceAdd (mulf
          (Host.reduceAdd (mulf (Host.gather gather_S50000x300_S1024x64x1_S1024x64x300_2_0_n_n_0_2_1300 emb (idxOf (F := Ideal) tok))
              (broadcastInDim S1024x64x300 ![0, 1, 2] bcast_S1024x64x1_S1024x64x300_0_1_2
                (broadcastInDim S1024x64x1 ![0, 1] bcast_S1024x64_S1024x64x1_0_1 (mskOf (F := Ideal) tok))))
            (constant (F := Ideal) S_ .f32 0x00000000#32) reducesTo_S1024x64x300_S1024x300_d1 h_S_) zb)
        (constant (F := Ideal) S_ .f32 0x00000000#32) reducesTo_S1024x300_S1024_d1 h_S_ (ix1 b)
      = ((∑ d, (∑ l, e (t l) d * msk (t l)) * z b d : ℝ) : EReal) := by
  rw [sum300_apply, ← IdealReal.coe_sum]
  refine Finset.sum_congr rfl fun d _ => ?_
  rw [mulf_apply, sum64x300_apply, hz, EReal.coe_mul, ← IdealReal.coe_sum]
  congr 1
  refine Finset.sum_congr rfl fun l _ => ?_
  rw [mulf_apply, mskBcast_apply, mskOf_apply tok b l (t l) (ht l), gather_rows_apply, EReal.coe_mul]
  congr 1
  rw [← he (t l) d]
  refine congrArg emb (funext fun a => ?_)
  match a with
  | ⟨0, _⟩ =>
    refine Fin.ext ?_
    show min (idxOf (F := Ideal) tok (ix3 b l (0 : Fin 1)) : BitVec 32).toInt.toNat (50000 - 1) = (t l).val
    rw [idxOf_apply tok b l (t l) (ht l)]; exact clamp_word _ (t l) (ht l)
  | ⟨1, _⟩ => rfl

/-- A vocabulary's row term at batch row `b`, over the reals. -/
theorem nllOf_apply (zb : (⟨S1024x300, .f32⟩ : BufTy).Contents (Elt Ideal)) (tok : (⟨S1024x64, .i32⟩ : BufTy).Contents (Elt Ideal))
    (emb : (⟨S50000x300, .f32⟩ : BufTy).Contents (Elt Ideal)) (bias : (⟨S50000, .f32⟩ : BufTy).Contents (Elt Ideal))
    (lv : (⟨S1024, .f32⟩ : BufTy).Contents (Elt Ideal))
    (z : Fin 1024 → Fin 300 → ℝ) (e : Fin 50000 → Fin 300 → ℝ) (β : Fin 50000 → ℝ) (t : Fin 64 → Fin 50000) (b : Fin 1024) (Lr : ℝ)
    (hz : ∀ d, zb (ix2 b d) = ((z b d : ℝ) : EReal)) (he : ∀ v d, emb (ix2 v d) = ((e v d : ℝ) : EReal))
    (hβ : ∀ v, bias (ix1 v) = ((β v : ℝ) : EReal)) (ht : ∀ l, (tok (ix2 b l) : BitVec 32).toNat = (t l).val)
    (hl : lv (ix1 b) = ((Lr : ℝ) : EReal)) :
    nllOf (F := Ideal) zb tok emb bias lv (ix1 b)
      = (((∑ l, msk (t l)) * Lr - (∑ d, (∑ l, e (t l) d * msk (t l)) * z b d) - (∑ l, β (t l) * msk (t l)) : ℝ) : EReal) := by
  unfold nllOf
  rw [subf_apply, subf_apply, mulf_apply, cnt_apply tok t b ht, embDot_apply zb tok emb z e t b hz he ht,
    biasSum_apply tok bias β t b hβ ht, hl, ← EReal.coe_mul, ← EReal.coe_sub, ← EReal.coe_sub]

/-! ## The mean -/

/-- The divisor's pattern is the real 1024. -/
theorem ofBits_1024 : Ideal.ofBits .f32 0x44800000#32 = ((1024 : ℝ) : EReal) := by
  simp [Ideal.ofBits, Ideal.ieee, -EReal.coe_mul]; norm_num

/-- A vocabulary's masked negative log-likelihood of batch row `b` from the halves' log-sum-exps `L 0`, `L 1`: the count of
    unmasked tokens times the whole vocabulary's log-sum-exp (the larger half plus the logarithm of one plus the exponential
    of minus the halves' distance), minus the hidden vector's product with the masked sum of the tokens' table rows, minus
    the masked sum of the tokens' biases. -/
def KN (z : Fin 1024 → Fin 300 → ℝ) (e : Fin 50000 → Fin 300 → ℝ) (β : Fin 50000 → ℝ) (L : Fin 2 → ℝ) (tok : Fin 64 → Fin 50000)
    (b : Fin 1024) : ℝ :=
  (∑ l, msk (tok l)) * (max (L 0) (L 1) + Real.log (1 + Real.exp (-|L 0 - L 1|)))
    - (∑ d, (∑ l, e (tok l) d * msk (tok l)) * z b d) - (∑ l, β (tok l) * msk (tok l))

/-- The mean of two row vectors of reals. -/
theorem meanOf_apply (nx ny : (⟨S1024, .f32⟩ : BufTy).Contents (Elt Ideal)) (fx fy : Fin 1024 → ℝ)
    (hx : ∀ b, nx (ix1 b) = ((fx b : ℝ) : EReal)) (hy : ∀ b, ny (ix1 b) = ((fy b : ℝ) : EReal)) :
    meanOf (F := Ideal) nx ny ix0 = (((∑ b, (fx b + fy b)) / 1024 : ℝ) : EReal) := by
  unfold meanOf
  show Ideal.div (Host.reduceAdd (addf nx ny) (constant (F := Ideal) S_ .f32 0x00000000#32) reducesTo_S1024_S_d0 h_S_ ix0)
    (Ideal.ofBits .f32 0x44800000#32) = _
  rw [sum1024_apply, ofBits_1024, ← IdealReal.div_coe_coe _ _ (by norm_num), ← IdealReal.coe_sum]
  congr 1
  refine Finset.sum_congr rfl fun b _ => ?_
  rw [addf_apply, hx, hy, ← EReal.coe_add]

/-! ## The tail's value -/

set_option maxRecDepth 65536 in
/-- THE TAIL'S VALUE: from buffers holding the real hidden vectors, tables, biases and halves' log-sum-exps and the token
    words, the line's result is the mean over the batch rows of the two vocabularies' row terms. -/
theorem tail_value (W : Valuation τ sig (Elt Ideal))
    (z : Fin 1024 → Fin 300 → ℝ) (ex ey : Fin 50000 → Fin 300 → ℝ) (βx βy : Fin 50000 → ℝ) (Lx Ly : Fin 2 → Fin 1024 → ℝ)
    (tx ty : Fin 1024 → Fin 64 → Fin 50000)
    (hz : ∀ b d, W (Proc.devRef .tc main_arg0) (ix2 b d) = ((z b d : ℝ) : EReal))
    (hex : ∀ v d, W (Proc.devRef .tc main_arg3) (ix2 v d) = ((ex v d : ℝ) : EReal))
    (hey : ∀ v d, W (Proc.devRef .tc main_arg4) (ix2 v d) = ((ey v d : ℝ) : EReal))
    (hβx : ∀ v, W (Proc.devRef .tc main_arg5) (ix1 v) = ((βx v : ℝ) : EReal))
    (hβy : ∀ v, W (Proc.devRef .tc main_arg6) (ix1 v) = ((βy v : ℝ) : EReal))
    (hLx : ∀ h b, W (Proc.devRef .tc main_v3_0) (ix3 h (0 : Fin 1) b) = ((Lx h b : ℝ) : EReal))
    (hLy : ∀ h b, W (Proc.devRef .tc main_v3_1) (ix3 h (0 : Fin 1) b) = ((Ly h b : ℝ) : EReal))
    (htx : ∀ b l, (W (Proc.devRef .tc main_arg1) (ix2 b l) : BitVec 32).toNat = (tx b l).val)
    (hty : ∀ b l, (W (Proc.devRef .tc main_arg2) (ix2 b l) : BitVec 32).toNat = (ty b l).val) :
    StableHlo.after (hostOps1 (F := Ideal)) W (Proc.devRef .tc main_v92) ix0
      = (((∑ b, (KN z ex βx (Lx · b) (tx b) b + KN z ey βy (Ly · b) (ty b) b)) / 1024 : ℝ) : EReal) := by
  refine (congrFun (v92_eq (F := Ideal) W) ix0).trans ?_
  exact meanOf_apply _ _ (fun b => KN z ex βx (Lx · b) (tx b) b) (fun b => KN z ey βy (Ly · b) (ty b) b)
    (fun b => nllOf_apply _ _ _ _ _ z ex βx (tx b) b _ (hz b) hex hβx (htx b) (lseOf_apply _ (Lx · b) b (hLx 0 b) (hLx 1 b)))
    (fun b => nllOf_apply _ _ _ _ _ z ey βy (ty b) b _ (hz b) hey hβy (hty b) (lseOf_apply _ (Ly · b) b (hLy 0 b) (hLy 1 b)))

end Cert.KernelIdeal.Tail

end
-- ==== Proof.PreFacts.lean ====
/-
  The precondition, read back.

  The precondition is the conjunction of seven statements of the form "every element of this array satisfies …".
  For each of the five float arrays the statement at an element x is |x| < +∞, read in the extended reals: the bound is
  the value the pattern 0x7F800000 denotes, which is the top element, and an extended real whose absolute value
  max x (-x) lies strictly below the top is neither infinity, hence a real number. For each of the two token arrays the
  statement at a word w is 0 ≤ w and w < 50000 in the signed order of 32-bit words: a word that is non-negative signed
  has its sign bit clear, so it reads the same signed and unsigned, and its unsigned value is then below 50000.

  A conjunction of one-bit words is 1 exactly when both words are; an "all" over an array is 1 only when every element
  of the array is 1.
-/
import proofs.«405701_j335007449569_3_alg».proof.Pre_finite_inputs
import proofs.«405701_j335007449569_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx Idealize.ShloMosaic.StableHlo.Predicate
open Cert.Pre_finite_inputs

/-- The shape of a scalar has exactly one index. -/
instance : Subsingleton S_.Idx := ⟨fun a b => funext fun d => d.elim0⟩

/-! ## One float element: |x| < +∞ says x is real -/

/-- The pattern 0x7F800000 (exponent all ones, significand zero, sign clear) denotes +∞. -/
theorem inf_eq_top : Ideal.ofBits .f32 0x7F800000#32 = (⊤ : EReal) := by
  simp [Ideal.ofBits, Ideal.ieee]

/-- An extended real whose absolute value lies strictly below +∞ is a real number: at either infinity the
    absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the one-bit word of the ordered comparison against the +∞ pattern. -/
theorem real_of_cmp (x : EReal)
    (h : Ideal.cmp .olt (max x (-x)) (Ideal.ofBits .f32 0x7F800000#32) = 1#1) : ∃ r : ℝ, x = (r : EReal) := by
  rw [inf_eq_top] at h
  unfold Ideal.cmp at h
  rw [ofBool_eq_one_iff] at h
  exact real_of_abs_lt_top x (of_decide_eq_true h)

/-! ## One token word: 0 ≤ w < 50000 signed says the unsigned value is below 50000 -/

/-- A 32-bit word that is non-negative in the signed order has its sign bit clear: its unsigned value is below 2³¹. -/
theorem toNat_lt_of_sge_zero (w : BitVec 32) (h : IntOp.cmpi .sge w 0#32 = 1#1) : w.toNat < 2 ^ 31 := by
  unfold IntOp.cmpi at h
  rw [ofBool_eq_one_iff] at h
  have h' : (0#32 : BitVec 32).toInt ≤ w.toInt := by simpa [BitVec.sle] using h
  rw [BitVec.toInt_zero, BitVec.toInt_eq_msb_cond] at h'
  have hlt := w.isLt
  by_cases hm : w.msb = true
  · rw [if_pos hm] at h'
    omega
  · have hm' : w.msb = false := by simpa using hm
    have := BitVec.msb_eq_false_iff_two_mul_lt.mp hm'
    omega

/-- A word in [0, 50000) signed has unsigned value below 50000. -/
theorem toNat_lt_of_range (w : BitVec 32) (h0 : IntOp.cmpi .sge w 0#32 = 1#1)
    (h1 : IntOp.cmpi .slt w 50000#32 = 1#1) : w.toNat < 50000 := by
  have hw : w.toNat < 2 ^ 31 := toNat_lt_of_sge_zero w h0
  have hc : (50000#32 : BitVec 32).toNat < 2 ^ 31 := by decide
  have := (slt_iff_toNat hw hc).mp h1
  simpa using this

/-! ## One array: the "all" of its elementwise mask -/

/-- An array of floats every element of which has |x| < +∞ is an array of real numbers. -/
theorem float_all {s : Shape} (hb : S_.BroadcastsInDim s (![] : Fin 0 → Fin s.rank)) {axes : List (Fin s.rank)}
    (hr : s.ReducesTo axes S_) (hu : 0 < S_.numel) (x : FVec Ideal s .f32) (init : IVec S_ 1)
    (e : Host.reduce IntOp.andi
          (cmpf .olt (Host.absf x) (broadcastInDim s ![] hb (constant (F := Ideal) S_ .f32 0x7F800000#32)))
          init hr hu ix0 = 1#1) (i : s.Idx) : ∃ r : ℝ, x i = (r : EReal) :=
  real_of_cmp (x i) (Host.reduce_andi_all _ init hr hu ix0 e i)

/-- An array of token words every element of which lies in [0, 50000) signed has every unsigned value below 50000. -/
theorem word_all {s : Shape} (hb : S_.BroadcastsInDim s (![] : Fin 0 → Fin s.rank)) {axes : List (Fin s.rank)}
    (hr : s.ReducesTo axes S_) (hu : 0 < S_.numel) (a : IVec s 32) (init : IVec S_ 1)
    (e : Host.reduce IntOp.andi
          (andi (cmpi .sge a (broadcastInDim s ![] hb (constantI S_ 32 0#32)))
                (cmpi .slt a (broadcastInDim s ![] hb (constantI S_ 32 50000#32))))
          init hr hu ix0 = 1#1) (i : s.Idx) : (a i).toNat < 50000 := by
  have hi := Host.reduce_andi_all _ init hr hu ix0 e i
  obtain ⟨h0, h1⟩ := IntOp.andi_eq_one.1 hi
  exact toNat_lt_of_range (a i) h0 h1

/-! ## The precondition decoded -/

/-- Under the precondition every float input is an array of reals and every token is below the vocabulary size. -/
theorem decode [Cert.Pre_finite_inputs.Facts]
    (a0 : FVec Ideal Cert.Pre_finite_inputs.S1024x300 .f32) (a1 a2 : IVec Cert.Pre_finite_inputs.S1024x64 32)
    (a3 a4 : FVec Ideal Cert.Pre_finite_inputs.S50000x300 .f32) (a5 a6 : FVec Ideal Cert.Pre_finite_inputs.S50000 .f32)
    (h : Cert.Pre_finite_inputs.fn (F := Ideal) a0 a1 a2 a3 a4 a5 a6 = fun _ => 1#1) :
    (∀ i, ∃ r : ℝ, a0 i = (r : EReal)) ∧ (∀ i, (a1 i).toNat < 50000) ∧ (∀ i, (a2 i).toNat < 50000)
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have e := congrFun h ix0
  dsimp only [fn, fn_part1, fn_part2] at e
  obtain ⟨e, h2⟩ := IntOp.andi_eq_one.1 e
  obtain ⟨e, h1⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨float_all _ _ _ a0 _ h0, word_all _ _ _ a1 _ h1, word_all _ _ _ a2 _ h2, float_all _ _ _ a3 _ h3,
    float_all _ _ _ a4 _ h4, float_all _ _ _ a5 _ h5, float_all _ _ _ a6 _ h6⟩

/-- A real number embedded in the extended reals is the embedding of its own real part. -/
theorem real_of_finite (x : EReal) (hx : ∃ r : ℝ, x = r) : x = ((x.toReal : ℝ) : EReal) := by
  obtain ⟨r, rfl⟩ := hx
  rw [EReal.toReal_coe]

end Cert.PreFacts

end
-- ==== Proof.KI.Value.lean ====
/-
  The idealized kernel program's value run.

  Under the precondition (every float entry of the argument arrays a real, every token word a vocabulary index),
  every weakly fair execution of the whole program terminates with the result buffer holding the specification's
  loss of the argument arrays and the seven argument arrays unchanged.

  The pieces: the frame run leaves each array of the pipelined region at what the proof data computes and every other
  buffer at the value of the operations after the region; the region's two result arrays hold, per half of the
  vocabulary and batch row, the log-sum-exp of that half's scores; the later operations' value at real hidden vectors,
  tables, biases and halves' log-sum-exps is the batch mean of the two vocabularies' row terms; and a row term fed the
  halves' log-sum-exps is the row's masked negative log-likelihood, so the mean is the loss.
-/
import proofs.«405701_j335007449569_3_alg».proof.Proof.KI.Arrays
import proofs.«405701_j335007449569_3_alg».proof.Proof.KTail
import proofs.«405701_j335007449569_3_alg».proof.Proof.PreFacts
import proofs.«405701_j335007449569_3_alg».proof.Proof.Gen.Pre_finite_inputs
import proofs.«405701_j335007449569_3_alg».proof.Proof.Extract
import proofs.«405701_j335007449569_3_alg».proof.Proof.SpecLaws
import proofs.«405701_j335007449569_3_alg».proof.Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec
open scoped BigOperators

/-! ## The real law: a row's term from the halves is the row's masked negative log-likelihood -/

/-- A vocabulary's row term, fed the two halves' log-sum-exps of the row's scores, is the row's masked negative
    log-likelihood: the stable two-term form is the logarithm of the sum of the halves' exponentials, the halves
    combine into the whole vocabulary's log-sum-exp, and the token sums pull back out of the dot product and the bias. -/
theorem KN_eq (z : Fin 1024 → Fin 300 → ℝ) (e : Fin 50000 → Fin 300 → ℝ) (β : Fin 50000 → ℝ) (L : Fin 2 → ℝ)
    (tok : Fin 64 → Fin 50000) (b : Fin 1024)
    (hL0 : L 0 = lseHalf (logit z e β b) 0) (hL1 : L 1 = lseHalf (logit z e β b) 1) :
    Tail.KN z e β L tok b = nll (logit z e β b) tok := by
  unfold Tail.KN nll
  rw [logaddexp_eq, hL0, hL1, lse_halves, nll_kernel_form]

/-- The batch mean of the two vocabularies' row terms, each fed its halves' log-sum-exps, is the loss. -/
theorem mean_KN_eq (z : Fin 1024 → Fin 300 → ℝ) (ex : Fin 50000 → Fin 300 → ℝ) (βx : Fin 50000 → ℝ)
    (ey : Fin 50000 → Fin 300 → ℝ) (βy : Fin 50000 → ℝ) (tx ty : Fin 1024 → Fin 64 → Fin 50000) :
    (∑ b, (Tail.KN z ex βx (fun h : Fin 2 => lseHalf (logit z ex βx b) h.val) (tx b) b
        + Tail.KN z ey βy (fun h : Fin 2 => lseHalf (logit z ey βy b) h.val) (ty b) b)) / 1024
      = loss z ex βx ey βy tx ty := by
  unfold loss
  refine congrArg (· / (1024 : ℝ)) (Finset.sum_congr rfl fun b _ => ?_)
  rw [KN_eq z ex βx _ (tx b) b rfl rfl, KN_eq z ey βy _ (ty b) b rfl rfl]

variable (m : (ℓ : Loc nD τ sig) → Buf (Elt Ideal) ℓ) (ρ : Dev nD → PrngReg)

/-! ## What the operations after the region find

The region leaves each of its arrays at what the proof data computes and every other buffer as it found it. -/

/-- Core `c`'s buffer contents when the operations after the region start. -/
abbrev Wt (c : Dev nD) : Valuation τ sig (Elt Ideal) :=
  Pipeline.withArrays (cfgs 0).spec c (V0 m c) fun w => (dats m 0 c).arrAt w (cfgs 0).N

/-- A buffer that is no array of the region is as the region found it. -/
theorem Wt_rest (c : Dev nD) (b : Ref sig .tc) (hb : ∀ w, Pipeline.arrRef spec0 w ≠ b) :
    Wt m c (Proc.devRef .tc b) = V m c b :=
  Pipeline.withArrays_of_ne _ c (V0 m c) _ b hb

/-- Window `w`'s array holds what the proof data computes for it. -/
theorem Wt_arr (c : Dev nD) (w : Fin 7) :
    Wt m c (Proc.devRef .tc (Pipeline.arrRef spec0 w)) = (dats m 0 c).arrAt w cfg0.N :=
  Pipeline.withArrays_arr _ launch0.win.arr_inj c (V0 m c) _ w

section Reads

/-- The hidden vectors: no array of the region, real under the precondition. -/
theorem Wt_arg0 (hpre : Cert.Pre_KernelIdeal m) (c : Dev nD) (b : Fin 1024) (d : Fin 300) :
    Wt m c (Proc.devRef .tc main_arg0) (ix2 b d) = ((Cert.Extract.r2 (n := 1024) (k := 300) (m ((c.tc : Thread nD τ).loc main_arg0)) b d : ℝ) : EReal) :=
  (congrFun ((Wt_rest m c main_arg0 (by decide)).trans (V_main_arg0 m c)) (ix2 b d)).trans
    (Cert.Extract.coe_r2 _ (Cert.PreFacts.decode _ _ _ _ _ _ _ (hpre c)).1 b d)

/-- The first token array: no array of the region, each word a vocabulary index under the precondition. -/
theorem Wt_arg1 (hpre : Cert.Pre_KernelIdeal m) (c : Dev nD) (b : Fin 1024) (l : Fin 64) :
    (Wt m c (Proc.devRef .tc main_arg1) (ix2 b l) : BitVec 32).toNat = (Cert.Extract.tok (m ((c.tc : Thread nD τ).loc main_arg1)) b l).val :=
  (congrArg BitVec.toNat (congrFun ((Wt_rest m c main_arg1 (by decide)).trans (V_main_arg1 m c)) (ix2 b l))).trans
    (Cert.Extract.tok_val _ (Cert.PreFacts.decode _ _ _ _ _ _ _ (hpre c)).2.1 b l)

/-- The second token array. -/
theorem Wt_arg2 (hpre : Cert.Pre_KernelIdeal m) (c : Dev nD) (b : Fin 1024) (l : Fin 64) :
    (Wt m c (Proc.devRef .tc main_arg2) (ix2 b l) : BitVec 32).toNat = (Cert.Extract.tok (m ((c.tc : Thread nD τ).loc main_arg2)) b l).val :=
  (congrArg BitVec.toNat (congrFun ((Wt_rest m c main_arg2 (by decide)).trans (V_main_arg2 m c)) (ix2 b l))).trans
    (Cert.Extract.tok_val _ (Cert.PreFacts.decode _ _ _ _ _ _ _ (hpre c)).2.2.1 b l)

/-- The first table: the array of an input window, which the region never writes back. -/
theorem Wt_arg3 (hpre : Cert.Pre_KernelIdeal m) (c : Dev nD) (v : Fin 50000) (d : Fin 300) :
    Wt m c (Proc.devRef .tc main_arg3) (ix2 v d) = ((Cert.Extract.r2 (n := 50000) (k := 300) (m ((c.tc : Thread nD τ).loc main_arg3)) v d : ℝ) : EReal) :=
  (congrFun ((Wt_arr m c 1).trans (((dats m 0 c).arrAt_in 1 rfl _).trans ((A_eq m c 1).trans (V_main_arg3 m c)))) (ix2 v d)).trans
    (Cert.Extract.coe_r2 _ (Cert.PreFacts.decode _ _ _ _ _ _ _ (hpre c)).2.2.2.1 v d)

/-- The second table, likewise. -/
theorem Wt_arg4 (hpre : Cert.Pre_KernelIdeal m) (c : Dev nD) (v : Fin 50000) (d : Fin 300) :
    Wt m c (Proc.devRef .tc main_arg4) (ix2 v d) = ((Cert.Extract.r2 (n := 50000) (k := 300) (m ((c.tc : Thread nD τ).loc main_arg4)) v d : ℝ) : EReal) :=
  (congrFun ((Wt_arr m c 3).trans (((dats m 0 c).arrAt_in 3 rfl _).trans ((A_eq m c 3).trans (V_main_arg4 m c)))) (ix2 v d)).trans
    (Cert.Extract.coe_r2 _ (Cert.PreFacts.decode _ _ _ _ _ _ _ (hpre c)).2.2.2.2.1 v d)

/-- The first bias vector: no array of the region (the region reads its column copy). -/
theorem Wt_arg5 (hpre : Cert.Pre_KernelIdeal m) (c : Dev nD) (v : Fin 50000) :
    Wt m c (Proc.devRef .tc main_arg5) (ix1 v) = ((Cert.Extract.r1 (n := 50000) (m ((c.tc : Thread nD τ).loc main_arg5)) v : ℝ) : EReal) :=
  (congrFun ((Wt_rest m c main_arg5 (by decide)).trans (V_main_arg5 m c)) (ix1 v)).trans
    (Cert.Extract.coe_r1 _ (Cert.PreFacts.decode _ _ _ _ _ _ _ (hpre c)).2.2.2.2.2.1 v)

/-- The second bias vector. -/
theorem Wt_arg6 (hpre : Cert.Pre_KernelIdeal m) (c : Dev nD) (v : Fin 50000) :
    Wt m c (Proc.devRef .tc main_arg6) (ix1 v) = ((Cert.Extract.r1 (n := 50000) (m ((c.tc : Thread nD τ).loc main_arg6)) v : ℝ) : EReal) :=
  (congrFun ((Wt_rest m c main_arg6 (by decide)).trans (V_main_arg6 m c)) (ix1 v)).trans
    (Cert.Extract.coe_r1 _ (Cert.PreFacts.decode _ _ _ _ _ _ _ (hpre c)).2.2.2.2.2.2 v)

/-- The first result array of the region: half `h`'s log-sum-exp of batch row `b`'s scores against the first table. -/
theorem Wt_v3_0 (hpre : Cert.Pre_KernelIdeal m) (c : Dev nD) (h : Fin 2) (b : Fin 1024) :
    Wt m c (Proc.devRef .tc main_v3_0) (ix3 h (0 : Fin 1) b)
      = ((lseHalf (logit (Cert.Extract.r2 (n := 1024) (k := 300) (m ((c.tc : Thread nD τ).loc main_arg0))) (Cert.Extract.r2 (n := 50000) (k := 300) (m ((c.tc : Thread nD τ).loc main_arg3)))
          (Cert.Extract.r1 (n := 50000) (m ((c.tc : Thread nD τ).loc main_arg5))) b) h.val : ℝ) : EReal) :=
  (congrFun (Wt_arr m c 5) (ix3 h (0 : Fin 1) b)).trans (by
    obtain ⟨h0, -, -, h3, h4, h5, h6⟩ := Cert.PreFacts.decode _ _ _ _ _ _ _ (hpre c)
    exact arr5 m c h0 h3 h4 h5 h6 h b)

/-- The second result array of the region: the same against the second table. -/
theorem Wt_v3_1 (hpre : Cert.Pre_KernelIdeal m) (c : Dev nD) (h : Fin 2) (b : Fin 1024) :
    Wt m c (Proc.devRef .tc main_v3_1) (ix3 h (0 : Fin 1) b)
      = ((lseHalf (logit (Cert.Extract.r2 (n := 1024) (k := 300) (m ((c.tc : Thread nD τ).loc main_arg0))) (Cert.Extract.r2 (n := 50000) (k := 300) (m ((c.tc : Thread nD τ).loc main_arg4)))
          (Cert.Extract.r1 (n := 50000) (m ((c.tc : Thread nD τ).loc main_arg6))) b) h.val : ℝ) : EReal) :=
  (congrFun (Wt_arr m c 6) (ix3 h (0 : Fin 1) b)).trans (by
    obtain ⟨h0, -, -, h3, h4, h5, h6⟩ := Cert.PreFacts.decode _ _ _ _ _ _ _ (hpre c)
    exact arr6 m c h0 h3 h4 h5 h6 h b)

/-! ## The result -/

/-- The result buffer after the later operations holds the loss of the argument arrays: the later operations' value
    at the contents above is the batch mean of the two vocabularies' row terms fed the halves' log-sum-exps, which
    is the loss. -/
theorem result_value (hpre : Cert.Pre_KernelIdeal m) (c : Dev nD) :
    Pipeline.afterTail₀ cfgs (dats m) 0 (V0 m) [hostOps1] c main_v92
      = Cert.Extract.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e : Pipeline.afterTail₀ cfgs (dats m) 0 (V0 m) [hostOps1] c main_v92
      = StableHlo.after (hostOps1 (F := Ideal)) (Wt m c) (Proc.devRef .tc main_v92) := by
    unfold Pipeline.afterTail₀
    rw [List.flatten_cons, List.flatten_nil, List.append_nil]
  refine funext fun i => ?_
  obtain rfl : i = ix0 := eq_ix0 i
  refine ((congrFun e ix0).trans (Tail.tail_value (Wt m c) _ _ _ _ _ _ _ _ _
    (Wt_arg0 m hpre c) (Wt_arg3 m hpre c) (Wt_arg4 m hpre c) (Wt_arg5 m hpre c) (Wt_arg6 m hpre c)
    (Wt_v3_0 m hpre c) (Wt_v3_1 m hpre c) (Wt_arg1 m hpre c) (Wt_arg2 m hpre c))).trans ?_
  exact congrArg (fun x : ℝ => (x : EReal)) (mean_KN_eq _ _ _ _ _ _ _)

end Reads

/-! ## The value run -/

/-- THE VALUE RUN: under the precondition, every weakly fair execution of the whole program terminates with the
    result buffer at the loss of the argument arrays and each of the seven argument arrays as it began. The result
    buffer is no array of the region, so it ends at the later operations' value; the two tables are arrays of input
    windows, which the region never writes back; the other five arguments are arrays of no window, and the later
    operations leave them as the region found them; each is then what the launch memory held. -/
theorem value_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v92)
        = Cert.Extract.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v92 (Pipeline.mem_restRefs_of main_v92 rfl (by decide))).trans (result_value m hpre c),
     ((h c).2 main_arg0 (Pipeline.mem_restRefs_of main_arg0 rfl (by decide))).trans
        ((afterTail_keep m (dats m) c main_arg0 (by decide) (by decide)).trans (V_main_arg0 m c)),
     ((h c).2 main_arg1 (Pipeline.mem_restRefs_of main_arg1 rfl (by decide))).trans
        ((afterTail_keep m (dats m) c main_arg1 (by decide) (by decide)).trans (V_main_arg1 m c)),
     ((h c).2 main_arg2 (Pipeline.mem_restRefs_of main_arg2 rfl (by decide))).trans
        ((afterTail_keep m (dats m) c main_arg2 (by decide) (by decide)).trans (V_main_arg2 m c)),
     ((h c).1 1).trans (((dats m 0 c).arrAt_in 1 rfl _).trans ((A_eq m c 1).trans (V_main_arg3 m c))),
     ((h c).1 3).trans (((dats m 0 c).arrAt_in 3 rfl _).trans ((A_eq m c 3).trans (V_main_arg4 m c))),
     ((h c).2 main_arg5 (Pipeline.mem_restRefs_of main_arg5 rfl (by decide))).trans
        ((afterTail_keep m (dats m) c main_arg5 (by decide) (by decide)).trans (V_main_arg5 m c)),
     ((h c).2 main_arg6 (Pipeline.mem_restRefs_of main_arg6 rfl (by decide))).trans
        ((afterTail_keep m (dats m) c main_arg6 (by decide) (by decide)).trans (V_main_arg6 m c))⟩) (run_main m ρ)

end Cert.KernelIdeal.Fr

end
-- ==== Proof.RefValue.lean ====
/-
  The reference's result, read at its one index.

  For each of the two vocabularies the reference forms the scores of a batch row (the row's dot product with each
  vocabulary row, plus the bias), takes their log-softmax relative to the row's maximum — a shifted score less the
  logarithm of the row's sum of exponentials of shifted scores —, reads it at each of the row's 64 target tokens,
  negates it, multiplies by the padding mask and sums over the positions. With real inputs and token words inside
  the vocabulary every one of these values is a real number: the row's maximum is some real `M`, and the sum over the
  positions is the row's masked negative log-likelihood whatever `M` is. The result is the sum over the 1024 batch
  rows of the two vocabularies' likelihoods, divided by 1024: the loss.
-/
import proofs.«405701_j335007449569_3_alg».proof.Proof.RefRead
import proofs.«405701_j335007449569_3_alg».proof.Proof.Spec
import proofs.«405701_j335007449569_3_alg».proof.Proof.SpecLaws
import proofs.«405701_j335007449569_3_alg».proof.Proof.LibIdealReal
import Idealize.ShloMosaic.Lib.ValueIdx
import Idealize.ShloMosaic.Lib.ValueIdxRank1
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx Cert.Spec
open Idealize.ShloMosaic.IdealReal
open scoped BigOperators

abbrev ZT := (⟨S1024x300, .f32⟩ : BufTy).Contents (Elt Ideal)
abbrev TT := (⟨S1024x64, .i32⟩ : BufTy).Contents (Elt Ideal)
abbrev ET := (⟨S50000x300, .f32⟩ : BufTy).Contents (Elt Ideal)
abbrev BT := (⟨S50000, .f32⟩ : BufTy).Contents (Elt Ideal)

/-! ## The scores -/

theorem lidx_v1 (b : Fin 1024) (v : Fin 50000) (k : Fin 300) : lidx_main_v1 (ix2 b v) k = ix2 b k := by
  funext a; match a with | ⟨0, _⟩ => rfl | ⟨1, _⟩ => rfl

theorem ridx_v1 (b : Fin 1024) (v : Fin 50000) (k : Fin 300) : idx_main_v0 (ridx_main_v1 (ix2 b v) k) = ix2 v k := by
  funext a; match a with | ⟨0, _⟩ => rfl | ⟨1, _⟩ => rfl

theorem bias_idx (b : Fin 1024) (v : Fin 50000) : idx_main_v2 (idx_main_v3 (ix2 b v)) = ix1 v := by
  funext a; match a with | ⟨0, _⟩ => rfl

/-- A score of the program is the real score: the contraction over the 300 hidden coordinates plus the bias. -/
theorem logits_at (a0 : ZT) (a3 : ET) (a5 : BT) (z : Fin 1024 → Fin 300 → ℝ) (e : Fin 50000 → Fin 300 → ℝ) (β : Fin 50000 → ℝ)
    (hz : ∀ b d, a0 (ix2 b d) = ((z b d : ℝ) : EReal)) (he : ∀ v d, a3 (ix2 v d) = ((e v d : ℝ) : EReal))
    (hβ : ∀ v, a5 (ix1 v) = ((β v : ℝ) : EReal)) (b : Fin 1024) (v : Fin 50000) :
    val_main_v4 (F := Ideal) a0 a3 a5 (ix2 b v) = ((logit z e β b v : ℝ) : EReal) := by
  rw [val_main_v4_apply, val_main_v1_apply, val_main_v3_apply, val_main_v2_apply, bias_idx, hβ]
  have hs : ∀ k : Fin 300, a0 (lidx_main_v1 (ix2 b v) k) * val_main_v0 (F := Ideal) a3 (ridx_main_v1 (ix2 b v) k)
      = ((e v k * z b k : ℝ) : EReal) := by
    intro k
    rw [val_main_v0_apply, lidx_v1, ridx_v1, hz, he, ← EReal.coe_mul, mul_comm]
  rw [Finset.sum_congr rfl (fun k _ => hs k), coe_sum]
  show ((∑ k, e v k * z b k : ℝ) : EReal) + ((β v : ℝ) : EReal) = _
  rw [← EReal.coe_add]
  rfl

/-! ## The row maximum -/

/-- A maximum, started from minus infinity, over a nonempty finite family of reals is a real. -/
theorem fold_max_real {ι : Type} [DecidableEq ι] (s : Finset ι) (hs : s.Nonempty) (f : ι → EReal)
    (hf : ∀ i, ∃ r : ℝ, f i = (r : EReal)) : ∃ M : ℝ, s.fold max (⊥ : EReal) f = (M : EReal) := by
  induction s using Finset.induction_on with
  | empty => exact absurd hs Finset.not_nonempty_empty
  | insert a s ha ih =>
    rw [Finset.fold_insert ha]
    obtain ⟨r, hr⟩ := hf a
    rcases s.eq_empty_or_nonempty with rfl | hne
    · exact ⟨r, by rw [Finset.fold_empty, hr, max_eq_left bot_le]⟩
    · obtain ⟨M, hM⟩ := ih hne
      exact ⟨max r M, by rw [hM, hr, max_coe]⟩

theorem neg_inf_bits : Ideal.ofBits .f32 0xFF800000#32 = ⊥ := by simp [Ideal.ofBits, Ideal.ieee]

/-- A batch row with a vocabulary coordinate put back on the reduced axis. -/
theorem lift_row (h : S1024x50000.Reduces [1] S1024) (b : Fin 1024) (k : Fin (S1024x50000.size 1)) :
    h.lift (ix1 b) k = ix2 b (⟨k.val, k.isLt⟩ : Fin 50000) := by
  funext c; apply Fin.ext
  match c with
  | ⟨0, _⟩ => rfl
  | ⟨1, _⟩ => rfl

/-- The maximum the log-softmax subtracts is a real number: every score is real and a row is not empty. -/
theorem rowmax_real (a0 : ZT) (a3 : ET) (a5 : BT) (z : Fin 1024 → Fin 300 → ℝ) (e : Fin 50000 → Fin 300 → ℝ) (β : Fin 50000 → ℝ)
    (hz : ∀ b d, a0 (ix2 b d) = ((z b d : ℝ) : EReal)) (he : ∀ v d, a3 (ix2 v d) = ((e v d : ℝ) : EReal))
    (hβ : ∀ v, a5 (ix1 v) = ((β v : ℝ) : EReal)) (b : Fin 1024) :
    ∃ M : ℝ, val_main_call0_v2 (F := Ideal) a0 a3 a5 (ix1 b) = (M : EReal) := by
  have hR : S1024x50000.Reduces [1] S1024 := by decide
  obtain ⟨M, hM⟩ := fold_max_real (Finset.univ : Finset (Fin (S1024x50000.size 1))) ⟨⟨0, by decide⟩, Finset.mem_univ _⟩
    (val_main_v4 (F := Ideal) a0 a3 a5 ∘ hR.lift (ix1 b))
    (fun k => ⟨_, by rw [Function.comp_apply, lift_row, logits_at a0 a3 a5 z e β hz he hβ]⟩)
  refine ⟨M, ?_⟩
  rw [val_main_call0_v2_apply, val_main_call0_v1_apply, val_main_call0_cst_0_apply]
  unfold val_main_call0_v0
  rw [Host.reduce_eq_fold_single FloatOps.maximumf _ _ reducesTo_S1024x50000_S1024_d1 hR h_S_]
  show max (Ideal.ofBits .f32 0xFF800000#32) (Finset.fold max (Ideal.ofBits .f32 0xFF800000#32) _ _) = _
  rw [neg_inf_bits, hM, max_eq_right bot_le]

/-! ## The log-softmax -/

theorem idx_max (b : Fin 1024) (v : Fin 50000) : idx_main_call0_v3 (idx_main_call0_v4 (ix2 b v)) = ix1 b := by
  funext a; match a with | ⟨0, _⟩ => rfl

theorem idx_sum (b : Fin 1024) (k : Fin 50000) : idx_main_call0_v7 (ix1 b) k = ix2 b k := by
  funext a; match a with | ⟨0, _⟩ => rfl | ⟨1, _⟩ => rfl

theorem idx_log (b : Fin 1024) (v : Fin 50000) : idx_main_call0_v8 (idx_main_call0_v10 (ix2 b v)) = ix1 b := by
  funext a; match a with | ⟨0, _⟩ => rfl

section LogSoftmax
variable (a0 : ZT) (a3 : ET) (a5 : BT) (z : Fin 1024 → Fin 300 → ℝ) (e : Fin 50000 → Fin 300 → ℝ) (β : Fin 50000 → ℝ)
  (hz : ∀ b d, a0 (ix2 b d) = ((z b d : ℝ) : EReal)) (he : ∀ v d, a3 (ix2 v d) = ((e v d : ℝ) : EReal))
  (hβ : ∀ v, a5 (ix1 v) = ((β v : ℝ) : EReal)) (b : Fin 1024) (M : ℝ)
  (hM : val_main_call0_v2 (F := Ideal) a0 a3 a5 (ix1 b) = (M : EReal))
include hz he hβ hM

/-- A score less the row's maximum. -/
theorem shifted_at (v : Fin 50000) :
    val_main_call0_v5 (F := Ideal) a0 a3 a5 (ix2 b v) = ((logit z e β b v - M : ℝ) : EReal) := by
  rw [val_main_call0_v5_apply, val_main_call0_v4_apply, val_main_call0_v3_apply, idx_max, hM,
    logits_at a0 a3 a5 z e β hz he hβ]
  exact (EReal.coe_sub _ _).symm

/-- The row's sum of the exponentials of the shifted scores. -/
theorem sumexp_at :
    val_main_call0_v7 (F := Ideal) a0 a3 a5 (ix1 b) = ((∑ v, Real.exp (logit z e β b v - M) : ℝ) : EReal) := by
  rw [val_main_call0_v7_apply, val_main_call0_cst_1_apply]
  have hs : ∀ k : Fin 50000, val_main_call0_v6 (F := Ideal) a0 a3 a5 (idx_main_call0_v7 (ix1 b) k)
      = ((Real.exp (logit z e β b k - M) : ℝ) : EReal) := by
    intro k
    rw [idx_sum, val_main_call0_v6_apply, shifted_at a0 a3 a5 z e β hz he hβ b M hM]
    exact exp_coe' _
  rw [Finset.sum_congr rfl (fun k _ => hs k), coe_sum]
  show Ideal.ofBits .f32 0x00000000#32 + _ = _
  rw [Ideal.ofBits_zero_f32, zero_add]

/-- The log-softmax at a vocabulary row: the shifted score less the logarithm of the row's sum. -/
theorem logp_at (v : Fin 50000) :
    val_main_v5 (F := Ideal) a0 a3 a5 (ix2 b v)
      = (((logit z e β b v - M) - Real.log (∑ v', Real.exp (logit z e β b v' - M)) : ℝ) : EReal) := by
  rw [val_main_v5_apply, shifted_at a0 a3 a5 z e β hz he hβ b M hM, val_main_call0_v10_apply, val_main_call0_v9_apply,
    val_main_call0_v8_apply, idx_log, sumexp_at a0 a3 a5 z e β hz he hβ b M hM]
  show ((logit z e β b v - M : ℝ) : EReal) - Ideal.log ((∑ v', Real.exp (logit z e β b v' - M) : ℝ) : EReal) = _
  rw [log_coe_pos (sum_exp_pos _ M)]
  exact (EReal.coe_sub _ _).symm

end LogSoftmax

/-! ## The target tokens: the normalised index, the range test and the gather -/

/-- The batched gather of one element per (row, position): the operand's row `b` at the start index of (b, l), read
    signed and clamped into the vocabulary. -/
theorem gather_at {α : Type} (x : S1024x50000.Idx → α) (idx : IVec S1024x64x1 32) (b : Fin 1024) (l : Fin 64) :
    Host.gather gather_S1024x50000_S1024x64x1_S1024x64_n_1_0_0_1_2_11 x idx (ix2 b l)
      = x (ix2 b (⟨min (idx (ix3 b l (0 : Fin 1))).toInt.toNat 49999, by omega⟩ : Fin 50000)) := by
  unfold Host.gather
  congr 1
  funext a
  refine Fin.ext ?_
  match a with
  | ⟨0, _⟩ =>
    show gather_S1024x50000_S1024x64x1_S1024x64_n_1_0_0_1_2_11.start (ix2 b l) idx 0
      + gather_S1024x50000_S1024x64x1_S1024x64_n_1_0_0_1_2_11.batchCoord (ix2 b l) 0
      + gather_S1024x50000_S1024x64x1_S1024x64_n_1_0_0_1_2_11.offCoord (ix2 b l) 0 = b.val
    rw [GatherDims.start_batching _ _ _ _ (by decide), GatherDims.offCoord_eq_zero _ _ _ (by decide)]
    have key : ∀ X : Fin S1024x64.rank, X = 0 → ((ix2 b l : S1024x64.Idx) X).val = b.val := by
      intro X hX; subst hX; rfl
    unfold GatherDims.batchCoord
    rw [dif_pos (by decide)]
    simp only [Nat.zero_add, Nat.add_zero]
    unfold GatherDims.siCoord
    exact key _ (by decide)
  | ⟨1, _⟩ =>
    show gather_S1024x50000_S1024x64x1_S1024x64_n_1_0_0_1_2_11.start (ix2 b l) idx 1
      + gather_S1024x50000_S1024x64x1_S1024x64_n_1_0_0_1_2_11.batchCoord (ix2 b l) 1
      + gather_S1024x50000_S1024x64x1_S1024x64_n_1_0_0_1_2_11.offCoord (ix2 b l) 1 = min (idx (ix3 b l (0 : Fin 1))).toInt.toNat 49999
    rw [GatherDims.batchCoord_eq_zero _ _ _ (by decide), GatherDims.offCoord_eq_zero _ _ _ (by decide)]
    unfold GatherDims.start
    rw [dif_pos (by decide)]
    have hsi : gather_S1024x50000_S1024x64x1_S1024x64_n_1_0_0_1_2_11.siIdx (ix2 b l)
        ⟨List.idxOf (1 : Fin 2) gather_S1024x50000_S1024x64x1_S1024x64_n_1_0_0_1_2_11.startIndexMap,
          List.idxOf_lt_length_iff.2 (by decide)⟩ = ix3 b l (0 : Fin 1) := by
      funext c; refine Fin.ext ?_
      match c with
      | ⟨0, _⟩ => rfl
      | ⟨1, _⟩ => rfl
      | ⟨2, _⟩ => rfl
    rw [hsi]
    rfl

theorem idx_cast (b : Fin 1024) (l : Fin 64) : idx_main_call1_v5 (ix3 b l (0 : Fin 1)) = ix2 b l := by
  funext a
  match a with
  | ⟨0, _⟩ => exact Fin.ext (by show ((b.val * 64 + l.val) * 1 + 0) / 64 = b.val; have := l.isLt; omega)
  | ⟨1, _⟩ => exact Fin.ext (by show ((b.val * 64 + l.val) * 1 + 0) % 64 = l.val; have := l.isLt; omega)

/-- A position with the size-one axis put back. -/
theorem lift_pos (h : S1024x64x1.Reduces [2] S1024x64) (b : Fin 1024) (l : Fin 64) (k : Fin (S1024x64x1.size 2)) :
    h.lift (ix2 b l) k = ix3 b l (0 : Fin 1) := by
  funext c; apply Fin.ext
  match c with
  | ⟨0, _⟩ => rfl
  | ⟨1, _⟩ => rfl
  | ⟨2, _⟩ => exact Nat.lt_one_iff.mp k.isLt

section Tokens
variable (a1 : TT) (tok : Fin 1024 → Fin 64 → Fin 50000)
  (ht : ∀ b l, (a1 (ix2 b l)).toNat = (tok b l).val) (b : Fin 1024) (l : Fin 64)
include ht

theorem tok_lt : (a1 (ix2 b l)).toNat < 50000 := by rw [ht]; exact (tok b l).isLt

/-- A token word is not negative, so the index normalisation keeps it. -/
theorem norm_at : val_main_call1_v4 (F := Ideal) a1 (ix2 b l) = a1 (ix2 b l) := by
  have h := tok_lt a1 tok ht b l
  rw [val_main_call1_v4_apply, val_main_call1_v1_apply, val_main_call1_v0_apply, val_main_call1_c_apply]
  have hne : ¬ IntOp.cmpi .slt (a1 (ix2 b l)) 0#32 = 1#1 := by
    rw [StableHlo.Predicate.slt_iff_toNat (by omega) (by decide)]
    exact Nat.not_lt_zero _
  rw [eq_zero_of_ne_one hne, select_zero]

theorem start_at : val_main_call1_v5 (F := Ideal) a1 (ix3 b l (0 : Fin 1)) = a1 (ix2 b l) := by
  rw [val_main_call1_v5_apply, idx_cast, norm_at a1 tok ht b l]

/-- A token word lies in the vocabulary, so the range test over the one index component is all ones. -/
theorem range_at : val_main_call1_v12 (F := Ideal) a1 (ix2 b l) = 1#1 := by
  have h := tok_lt a1 tok ht b l
  have hR : S1024x64x1.Reduces [2] S1024x64 := by decide
  unfold val_main_call1_v12
  rw [Host.reduce_eq_fold_single IntOp.andi _ _ reducesTo_S1024x64x1_S1024x64_d2 hR h_S_]
  have hf : (val_main_call1_v11 (F := Ideal) a1 ∘ hR.lift (ix2 b l)) = fun _ => 1#1 := by
    funext k
    rw [Function.comp_apply, lift_pos, val_main_call1_v11_apply, val_main_call1_v7_apply, val_main_call1_v10_apply,
      start_at a1 tok ht b l, val_main_call1_v6_apply, val_main_call1_c_2_apply, val_main_call1_v9_apply,
      val_main_call1_v8_apply, val_main_call1_c_1_apply,
      (StableHlo.Predicate.sge_iff_toNat (by omega) (by decide)).mpr (Nat.zero_le _),
      (StableHlo.Predicate.sle_iff_toNat (by omega) (by decide)).mpr (by show _ ≤ 49999; omega)]
    rfl
  rw [hf]
  rfl

/-- The gathered value is the log-softmax of the row at the target token. -/
theorem gathered_at (a0 : ZT) (a3 : ET) (a5 : BT) :
    val_main_v6 (F := Ideal) a0 a1 a3 a5 (ix2 b l) = val_main_v5 (F := Ideal) a0 a3 a5 (ix2 b (tok b l)) := by
  have h := tok_lt a1 tok ht b l
  rw [val_main_v6_apply, range_at a1 tok ht b l, select_one]
  unfold val_main_call1_v13
  rw [gather_at]
  congr 2
  refine Fin.ext ?_
  show min (val_main_call1_v5 (F := Ideal) a1 (ix3 b l (0 : Fin 1))).toInt.toNat 49999 = (tok b l).val
  rw [start_at a1 tok ht b l, StableHlo.Predicate.toInt_eq_toNat_of_lt (by omega), Int.toNat_natCast, ← ht]
  omega

end Tokens

/-! ## The masked negative log-likelihood of a row -/

theorem idx_nll (b : Fin 1024) (k : Fin 64) : idx_main_v12 (ix1 b) k = ix2 b k := by
  funext a; match a with | ⟨0, _⟩ => rfl | ⟨1, _⟩ => rfl

/-- The padding mask as a real: one where the token word is not zero. -/
theorem mask_at (a1 : TT) (tok : Fin 1024 → Fin 64 → Fin 50000)
    (ht : ∀ b l, (a1 (ix2 b l)).toNat = (tok b l).val) (b : Fin 1024) (l : Fin 64) :
    val_main_v9 (F := Ideal) a1 (ix2 b l) = ((msk (tok b l) : ℝ) : EReal) := by
  rw [val_main_v9_apply, val_main_v8_apply, val_main_v7_apply, val_main_c_apply]
  show (((IntOp.cmpi .ne (a1 (ix2 b l)) 0#32).toNat : ℝ) : EReal) = _
  unfold msk
  by_cases h0 : (tok b l).val = 0
  · have hw : a1 (ix2 b l) = 0#32 := BitVec.eq_of_toNat_eq (by rw [ht, h0]; rfl)
    rw [hw, if_pos h0]
    simp [IntOp.cmpi]
  · have hw : a1 (ix2 b l) ≠ 0#32 := fun h => h0 (by rw [← ht, h]; rfl)
    rw [if_neg h0]
    simp [IntOp.cmpi, hw]

section Row
variable (a0 : ZT) (a1 : TT) (a3 : ET) (a5 : BT) (z : Fin 1024 → Fin 300 → ℝ) (e : Fin 50000 → Fin 300 → ℝ) (β : Fin 50000 → ℝ)
  (tok : Fin 1024 → Fin 64 → Fin 50000)
  (hz : ∀ b d, a0 (ix2 b d) = ((z b d : ℝ) : EReal)) (he : ∀ v d, a3 (ix2 v d) = ((e v d : ℝ) : EReal))
  (hβ : ∀ v, a5 (ix1 v) = ((β v : ℝ) : EReal)) (ht : ∀ b l, (a1 (ix2 b l)).toNat = (tok b l).val) (b : Fin 1024)
include hz he hβ ht

/-- One vocabulary's masked negative log-likelihood of a batch row, as the program sums it over the 64 positions. -/
theorem nll_at :
    val_main_v12 (F := Ideal) a0 a1 a3 a5 (ix1 b) = ((nll (logit z e β b) (tok b) : ℝ) : EReal) := by
  obtain ⟨M, hM⟩ := rowmax_real a0 a3 a5 z e β hz he hβ b
  rw [val_main_v12_apply, val_main_cst_apply]
  have hs : ∀ k : Fin 64, val_main_v11 (F := Ideal) a0 a1 a3 a5 (idx_main_v12 (ix1 b) k)
      = (((-((logit z e β b (tok b k) - M) - Real.log (∑ v, Real.exp (logit z e β b v - M)))) * msk (tok b k) : ℝ) : EReal) := by
    intro k
    rw [idx_nll, val_main_v11_apply, val_main_v10_apply, gathered_at a1 tok ht b k a0 a3 a5,
      logp_at a0 a3 a5 z e β hz he hβ b M hM, mask_at a1 tok ht b k]
    show -((_ : ℝ) : EReal) * ((_ : ℝ) : EReal) = _
    rw [← EReal.coe_neg, ← EReal.coe_mul]
  rw [Finset.sum_congr rfl (fun k _ => hs k), coe_sum, nll_ref_form]
  show Ideal.ofBits .f32 0x00000000#32 + _ = _
  rw [Ideal.ofBits_zero_f32, zero_add]

end Row

/-! ## The batch mean -/

/-- The word of the divisor is the real 1024. -/
theorem bits_1024 : Ideal.ofBits .f32 0x44800000#32 = ((1024 : ℝ) : EReal) := by
  simp [Ideal.ofBits, Ideal.ieee, -EReal.coe_mul]; norm_num

/-- The second vocabulary goes through the same operations as the first, on its own buffers. -/
theorem second_eq_first (a0 : ZT) (a2 : TT) (a4 : ET) (a6 : BT) :
    val_main_v25 (F := Ideal) a0 a2 a4 a6 = val_main_v12 (F := Ideal) a0 a2 a4 a6 := rfl

/-- THE REFERENCE'S RESULT: the batch mean of the two vocabularies' masked negative log-likelihoods. -/
theorem ref_value (a0 : ZT) (a1 a2 : TT) (a3 a4 : ET) (a5 a6 : BT)
    (z : Fin 1024 → Fin 300 → ℝ) (ex ey : Fin 50000 → Fin 300 → ℝ) (βx βy : Fin 50000 → ℝ)
    (tx ty : Fin 1024 → Fin 64 → Fin 50000)
    (hz : ∀ b d, a0 (ix2 b d) = ((z b d : ℝ) : EReal))
    (hex : ∀ v d, a3 (ix2 v d) = ((ex v d : ℝ) : EReal)) (hey : ∀ v d, a4 (ix2 v d) = ((ey v d : ℝ) : EReal))
    (hβx : ∀ v, a5 (ix1 v) = ((βx v : ℝ) : EReal)) (hβy : ∀ v, a6 (ix1 v) = ((βy v : ℝ) : EReal))
    (htx : ∀ b l, (a1 (ix2 b l)).toNat = (tx b l).val) (hty : ∀ b l, (a2 (ix2 b l)).toNat = (ty b l).val) :
    val_main_v28 (F := Ideal) a0 a1 a2 a3 a4 a5 a6 ValueIdx.ix0 = ((loss z ex βx ey βy tx ty : ℝ) : EReal) := by
  rw [val_main_v28_apply, val_main_v27_apply, val_main_cst_2_apply, val_main_cst_3_apply,
    ← Equiv.sum_comp (idxEquiv1 (n := 1024)).symm]
  have hs : ∀ b : Fin 1024, val_main_v26 (F := Ideal) a0 a1 a2 a3 a4 a5 a6 ((idxEquiv1 (n := 1024)).symm b)
      = ((nll (logit z ex βx b) (tx b) + nll (logit z ey βy b) (ty b) : ℝ) : EReal) := by
    intro b
    show val_main_v26 (F := Ideal) a0 a1 a2 a3 a4 a5 a6 (ix1 b) = _
    rw [val_main_v26_apply, second_eq_first, nll_at a0 a1 a3 a5 z ex βx tx hz hex hβx htx b,
      nll_at a0 a2 a4 a6 z ey βy ty hz hey hβy hty b]
    exact (EReal.coe_add _ _).symm
  rw [Finset.sum_congr rfl (fun b _ => hs b), coe_sum]
  show Ideal.div (Ideal.ofBits .f32 0x00000000#32 + _) (Ideal.ofBits .f32 0x44800000#32) = _
  rw [Ideal.ofBits_zero_f32, zero_add, bits_1024, div_coe_coe _ _ (by norm_num)]
  rfl

end Cert.ReferenceIdeal.RefValue

end
-- ==== Proof.lean ====
/-
  The certificate of the streamed decoder loss against its plain reference.

  THE TWO PROGRAMS. For each of two vocabularies of 50000 rows the loss needs, per batch row `b`, the log-sum-exp of the
  row's 50000 scores (a score is the vocabulary row's dot product with the hidden vector plus the row's bias) and the
  scores of the row's 64 target tokens. The reference forms all scores, takes a row-wise log-softmax and gathers the
  targets. The kernel program never holds more than a tile of 1000 vocabulary rows: over 25 tiles per vocabulary half it
  keeps a running shift (the maximum so far) and the running sum of exponentials relative to it, rescaling the sum
  whenever the shift moves, and ends each half with shift + log sum; the host then joins the two halves
  (max + log(1 + exp(−|difference|))) and subtracts the targets' scores, regrouped as a dot product with the masked sum
  of the gathered embedding rows.

  WHY THEY AGREE, over the reals. Rescaling by `exp (μ − μ')` turns `Σ exp (x − μ)` into `Σ exp (x − μ')`, so after any
  number of tiles the running sum is the sum over all tiles seen of `exp (x − shift)`, whatever the shifts were; hence
  shift + log sum is the half's log-sum-exp, the join of the two halves is the whole log-sum-exp, and that is also
  what the reference's `max + log Σ exp (x − max)` is. The regrouping of the targets' scores is distributivity and an
  exchange of two finite sums. These laws need every float entry to be a real number (the precondition's finiteness),
  and the gathers need every token to be a vocabulary index (the precondition's `0 ≤ token < 50000`; outside it the
  reference's gather fills in a not-a-number).

  THE MODULES. `Spec`, `SpecLaws`: the mathematics over ℝ. `PayIdx`, `KI/Acc`: the kernel body's arithmetic read at an
  index, and its recurrence over the 50 grid points as the specification's running pair. `KI/Entry … KI/Frame` (and
  `K/…`, the same text over the word-level program): the frame — the pipelined region runs to its end at every point,
  the host operations around it run, the arguments are kept —, with the contents of the accumulators and of the two
  result windows after every point. `KI/Pieces`, `KI/Scan`, `KI/Blocks`, `KI/Arrays`, `KTail`, `KI/Value`: from those
  contents to the kernel program's result. `RefRead`, `RefRun`, `RefValue`: the reference's run and its result.
  `Extract`: the one function of the arguments both results are.
-/
import proofs.«405701_j335007449569_3_alg».proof.Defs
import proofs.«405701_j335007449569_3_alg».proof.Proof.Gen.Kernel
import proofs.«405701_j335007449569_3_alg».proof.Proof.Gen.KernelIdeal
import proofs.«405701_j335007449569_3_alg».proof.Proof.Gen.ReferenceIdeal
import proofs.«405701_j335007449569_3_alg».proof.Proof.Gen.Pre_finite_inputs
import proofs.«405701_j335007449569_3_alg».proof.Proof.K.Frame
import proofs.«405701_j335007449569_3_alg».proof.Proof.KI.Value
import proofs.«405701_j335007449569_3_alg».proof.Proof.RefRun
import proofs.«405701_j335007449569_3_alg».proof.Proof.RefValue
import proofs.«405701_j335007449569_3_alg».proof.Proof.Extract
import proofs.«405701_j335007449569_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

/-- The word-level kernel program runs to its end and keeps its arguments. -/
theorem frame_k : Cert.frame_Kernel := fun m ρ _ => Cert.Kernel.Fr.frame (F := Bits) m ρ

/-- So does the idealized kernel program. -/
theorem frame_ki : Cert.frame_KernelIdeal := fun m ρ _ => Cert.KernelIdeal.Fr.frame (F := Ideal) m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals, from memories that agree on the arguments, both programs end with the loss of the
    arguments' real readings: the kernel program by its value run, the reference by its run read stage by stage. -/
theorem algebraic : Cert.algebraic_KernelIdeal_ReferenceIdeal := by
  intro m ρ m' ρ' hpre hagree
  refine ⟨fun c => Cert.Extract.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Fr.value_run m ρ hpre, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := Cert.PreFacts.decode _ _ _ _ _ _ _ (hpre c)
  unfold Cert.ReferenceIdeal.ValueP.res_main_v28
  rw [(hagree c).1, (hagree c).2.1, (hagree c).2.2.1, (hagree c).2.2.2.1, (hagree c).2.2.2.2.1, (hagree c).2.2.2.2.2.1, (hagree c).2.2.2.2.2.2]
  funext i
  rw [eq_ix0 i]
  exact Cert.ReferenceIdeal.RefValue.ref_value _ _ _ _ _ _ _ _ _ _ _ _ _ _
    (Cert.Extract.coe_r2 _ h0) (Cert.Extract.coe_r2 _ h3) (Cert.Extract.coe_r2 _ h4) (Cert.Extract.coe_r1 _ h5) (Cert.Extract.coe_r1 _ h6)
    (Cert.Extract.tok_val _ h1) (Cert.Extract.tok_val _ h2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
